-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S1600000 .f32) (main_arg3 : FVec F S1 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1703936 : Shape := ⟨1, ![1703936]⟩
abbrev S1703936x1 : Shape := ⟨2, ![1703936, 1]⟩
abbrev S10000x128 : Shape := ⟨2, ![10000, 128]⟩
abbrev S1x1 : Shape := ⟨2, ![1, 1]⟩
abbrev S1703936x128 : Shape := ⟨2, ![1703936, 128]⟩
abbrev S8192x128 : Shape := ⟨2, ![8192, 128]⟩
abbrev S8192x1 : Shape := ⟨2, ![8192, 1]⟩
abbrev S1x128 : Shape := ⟨2, ![1, 128]⟩
abbrev S100000x40 : Shape := ⟨2, ![100000, 40]⟩
abbrev S10000x40 : Shape := ⟨2, ![10000, 40]⟩
abbrev S1703936x40 : Shape := ⟨2, ![1703936, 40]⟩
abbrev S8192x40 : Shape := ⟨2, ![8192, 40]⟩
abbrev S1x40 : Shape := ⟨2, ![1, 40]⟩
abbrev S10000 : Shape := ⟨1, ![10000]⟩
abbrev S10000x1 : Shape := ⟨2, ![10000, 1]⟩

abbrev nBuf : Space → Nat
  | .hbm => 133
  | .vmem => 33
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S1, .f32⟩
  | 4 => ⟨S128x128, .f32⟩
  | 5 => ⟨S128, .f32⟩
  | 6 => ⟨S128x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S_, .i32⟩
  | 51 => ⟨S1703936, .i32⟩
  | 52 => ⟨S_, .i32⟩
  | 53 => ⟨S_, .i32⟩
  | 54 => ⟨S1703936, .i32⟩
  | 55 => ⟨S_, .i32⟩
  | 56 => ⟨S_, .f32⟩
  | 57 => ⟨S1703936, .f32⟩
  | 58 => ⟨S1703936x1, .f32⟩
  | 59 => ⟨S100000x128, .f32⟩
  | 60 => ⟨S_, .i32⟩
  | 61 => ⟨S1703936, .i32⟩
  | 62 => ⟨S1703936, .i1⟩
  | 63 => ⟨S_, .i32⟩
  | 64 => ⟨S1703936, .i32⟩
  | 65 => ⟨S1703936, .i32⟩
  | 66 => ⟨S1703936, .i32⟩
  | 67 => ⟨S1703936x1, .i32⟩
  | 68 => ⟨S1, .i32⟩
  | 69 => ⟨S_, .i32⟩
  | 70 => ⟨S1703936x1, .i32⟩
  | 71 => ⟨S1703936x1, .i1⟩
  | 72 => ⟨S1x1, .i32⟩
  | 73 => ⟨S1703936x1, .i32⟩
  | 74 => ⟨S1703936x1, .i1⟩
  | 75 => ⟨S1703936x1, .i1⟩
  | 76 => ⟨S_, .i1⟩
  | 77 => ⟨S1703936, .i1⟩
  | 78 => ⟨S1703936x128, .f32⟩
  | 79 => ⟨S1703936x128, .i1⟩
  | 80 => ⟨S_, .f32⟩
  | 81 => ⟨S1703936x128, .f32⟩
  | 82 => ⟨S1703936x128, .f32⟩
  | 83 => ⟨S1703936x128, .f32⟩
  | 84 => ⟨S_, .f32⟩
  | 85 => ⟨S100000x128, .f32⟩
  | 86 => ⟨S1703936x1, .i32⟩
  | 87 => ⟨S100000x128, .f32⟩
  | 88 => ⟨S_, .f32⟩
  | 89 => ⟨S_, .f32⟩
  | 90 => ⟨S_, .f32⟩
  | 91 => ⟨S_, .f32⟩
  | 92 => ⟨S1, .f32⟩
  | 93 => ⟨S1, .f32⟩
  | 94 => ⟨S1, .f32⟩
  | 95 => ⟨S_, .f32⟩
  | 96 => ⟨S_, .f32⟩
  | 97 => ⟨S1, .f32⟩
  | 98 => ⟨S1, .f32⟩
  | 99 => ⟨S1x128, .f32⟩
  | 100 => ⟨S1x1, .f32⟩
  | 101 => ⟨S100000x128, .f32⟩
  | 102 => ⟨S100000x40, .f32⟩
  | 103 => ⟨S_, .i32⟩
  | 104 => ⟨S1703936, .i32⟩
  | 105 => ⟨S1703936, .i1⟩
  | 106 => ⟨S_, .i32⟩
  | 107 => ⟨S1703936, .i32⟩
  | 108 => ⟨S1703936, .i32⟩
  | 109 => ⟨S1703936, .i32⟩
  | 110 => ⟨S1703936x1, .i32⟩
  | 111 => ⟨S1, .i32⟩
  | 112 => ⟨S_, .i32⟩
  | 113 => ⟨S1703936x1, .i32⟩
  | 114 => ⟨S1703936x1, .i1⟩
  | 115 => ⟨S1x1, .i32⟩
  | 116 => ⟨S1703936x1, .i32⟩
  | 117 => ⟨S1703936x1, .i1⟩
  | 118 => ⟨S1703936x1, .i1⟩
  | 119 => ⟨S_, .i1⟩
  | 120 => ⟨S1703936, .i1⟩
  | 121 => ⟨S1703936x40, .f32⟩
  | 122 => ⟨S1703936x40, .i1⟩
  | 123 => ⟨S_, .f32⟩
  | 124 => ⟨S1703936x40, .f32⟩
  | 125 => ⟨S1703936x40, .f32⟩
  | 126 => ⟨S1703936x40, .f32⟩
  | 127 => ⟨S_, .f32⟩
  | _ => ⟨S100000x128, .f32⟩

abbrev hbmTy0_1 (i : Nat) : BufTy := match i % 128 with
  | 0 => ⟨S100000x40, .f32⟩
  | 1 => ⟨S1703936x1, .i32⟩
  | 2 => ⟨S100000x40, .f32⟩
  | 3 => ⟨S1x40, .f32⟩
  | 4 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x128, .f32⟩
  | .local _ .vmem, ⟨10, _⟩ => ⟨S8192x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x1, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S128x40, .f32⟩
  | .local _ .vmem, ⟨20, _⟩ => ⟨S10000x40, .f32⟩
  | .local _ .vmem, ⟨21, _⟩ => ⟨S10000x40, .f32⟩
  | .local _ .vmem, ⟨22, _⟩ => ⟨S8192x40, .f32⟩
  | .local _ .vmem, ⟨23, _⟩ => ⟨S8192x40, .f32⟩
  | .local _ .vmem, ⟨24, _⟩ => ⟨S8192x1, .f32⟩
  | .local _ .vmem, ⟨25, _⟩ => ⟨S8192x1, .f32⟩
  | .local _ .vmem, ⟨26, _⟩ => ⟨S8192x40, .f32⟩
  | .local _ .vmem, ⟨27, _⟩ => ⟨S8192x40, .f32⟩
  | .local _ .vmem, ⟨28, _⟩ => ⟨S10000x40, .f32⟩
  | .local _ .vmem, ⟨29, _⟩ => ⟨S10000x40, .f32⟩
  | .local _ .vmem, ⟨30, _⟩ => ⟨S1x40, .f32⟩
  | .local _ .vmem, ⟨31, _⟩ => ⟨S10000x40, .f32⟩
  | .local _ .vmem, ⟨32, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_call1_v0 : Ref sig .tc := ⟨.hbm, 50, rfl⟩
abbrev main_v33 : Ref sig .tc := ⟨.hbm, 51, rfl⟩
abbrev main_c_7 : Ref sig .tc := ⟨.hbm, 52, rfl⟩
abbrev main_call2_v0 : Ref sig .tc := ⟨.hbm, 53, rfl⟩
abbrev main_v34 : Ref sig .tc := ⟨.hbm, 54, rfl⟩
abbrev main_c_8 : Ref sig .tc := ⟨.hbm, 55, rfl⟩
abbrev main_call3_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call4_c : Ref sig .tc := ⟨.hbm, 60, rfl⟩
abbrev main_call4_v0 : Ref sig .tc := ⟨.hbm, 61, rfl⟩
abbrev main_call4_v1 : Ref sig .tc := ⟨.hbm, 62, rfl⟩
abbrev main_call4_c_0 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_c_1 : Ref sig .tc := ⟨.hbm, 68, rfl⟩
abbrev main_call4_c_2 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_c_3 : Ref sig .tc := ⟨.hbm, 76, rfl⟩
abbrev main_call4_v12 : Ref sig .tc := ⟨.hbm, 77, rfl⟩
abbrev main_call4_v13 : Ref sig .tc := ⟨.hbm, 78, rfl⟩
abbrev main_call4_v14 : Ref sig .tc := ⟨.hbm, 79, rfl⟩
abbrev main_call4_cst : Ref sig .tc := ⟨.hbm, 80, rfl⟩
abbrev main_call4_v15 : Ref sig .tc := ⟨.hbm, 81, rfl⟩
abbrev main_v38 : Ref sig .tc := ⟨.hbm, 82, rfl⟩
abbrev main_v39 : Ref sig .tc := ⟨.hbm, 83, rfl⟩
abbrev main_cst_9 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_10 : Ref sig .tc := ⟨.hbm, 88, rfl⟩
abbrev main_v43 : Ref sig .tc := ⟨.hbm, 89, rfl⟩
abbrev main_cst_11 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_12 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_call5_c : Ref sig .tc := ⟨.hbm, 103, rfl⟩
abbrev main_call5_v0 : Ref sig .tc := ⟨.hbm, 104, rfl⟩
abbrev main_call5_v1 : Ref sig .tc := ⟨.hbm, 105, rfl⟩
abbrev main_call5_c_0 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_c_1 : Ref sig .tc := ⟨.hbm, 111, rfl⟩
abbrev main_call5_c_2 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_3 : Ref sig .tc := ⟨.hbm, 119, rfl⟩
abbrev main_call5_v12 : Ref sig .tc := ⟨.hbm, 120, rfl⟩
abbrev main_call5_v13 : Ref sig .tc := ⟨.hbm, 121, rfl⟩
abbrev main_call5_v14 : Ref sig .tc := ⟨.hbm, 122, rfl⟩
abbrev main_call5_cst : Ref sig .tc := ⟨.hbm, 123, rfl⟩
abbrev main_call5_v15 : Ref sig .tc := ⟨.hbm, 124, rfl⟩
abbrev main_v55 : Ref sig .tc := ⟨.hbm, 125, rfl⟩
abbrev main_v56 : Ref sig .tc := ⟨.hbm, 126, rfl⟩
abbrev main_cst_13 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![208], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  pads_S1700000_S1703936_039360 : S1700000.Pads (![0] : Fin 1 → Nat) ![3936] ![0] S1703936
  h_S_ : 0 < S_.numel
  shapeCasts_S1703936_S1703936x1 : S1703936.ShapeCasts S1703936x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1703936 : S_.BroadcastsInDim S1703936 (![] : Fin 0 → Fin S1703936.rank)
  bcast_S1703936_S1703936x1_0 : S1703936.BroadcastsInDim S1703936x1 (![0] : Fin 1 → Fin S1703936x1.rank)
  bcast_S_S1703936x1 : S_.BroadcastsInDim S1703936x1 (![] : Fin 0 → Fin S1703936x1.rank)
  bcast_S1_S1x1_1 : S1.BroadcastsInDim S1x1 (![1] : Fin 1 → Fin S1x1.rank)
  bcast_S1x1_S1703936x1_0_1 : S1x1.BroadcastsInDim S1703936x1 (![0, 1] : Fin 2 → Fin S1703936x1.rank)
  reducesTo_S1703936x1_S1703936_d1 : S1703936x1.ReducesTo [1] S1703936
  bcast_S1703936_S1703936x128_0 : S1703936.BroadcastsInDim S1703936x128 (![0] : Fin 1 → Fin S1703936x128.rank)
  bcast_S_S1703936x128 : S_.BroadcastsInDim S1703936x128 (![] : Fin 0 → Fin S1703936x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  bcast_S_S100000x128 : S_.BroadcastsInDim S100000x128 (![] : Fin 0 → Fin S100000x128.rank)
  reducesTo_S1_S_d0 : S1.ReducesTo [0] S_
  bcast_S_S1 : S_.BroadcastsInDim S1 (![] : Fin 0 → Fin S1.rank)
  shapeCasts_S128_S1x128 : S128.ShapeCasts S1x128
  shapeCasts_S1_S1x1 : S1.ShapeCasts S1x1
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S1703936_S1703936x40_0 : S1703936.BroadcastsInDim S1703936x40 (![0] : Fin 1 → Fin S1703936x40.rank)
  bcast_S_S1703936x40 : S_.BroadcastsInDim S1703936x40 (![] : Fin 0 → Fin S1703936x40.rank)
  inb_S8192x40_S8192x40_0_0 : ∀ a, (![0, 0] : Fin 2 → Nat) a + S8192x40.size a ≤ S8192x40.size a
  h_S8192x40 : 0 < S8192x40.numel
  shapeCasts_S8192x40_S8192x40 : S8192x40.ShapeCasts S8192x40
  broadcasts_S8192x1_S8192x40 : S8192x1.Broadcasts S8192x40
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1703936x1_S1703936x128_1_0_n_n_0_1_1128_wf : GatherDims.WF S100000x128 S1703936x1 S1703936x128 [1] [0] [] [0] [] 1 ![1, 128]
  scatter_S100000x128_S1703936x1_S1703936x128_1_0_0_1_wf : ScatterDims.WF S100000x128 S1703936x1 S1703936x128 [1] [0] [0] 1
  dot_S10000x128_S128x40_S10000x40_1_0_0_1_n_n_wf : DotDims.WF S10000x128 S128x40 S10000x40 [1] [0] [0] [1] [] []
  gather_S100000x40_S1703936x1_S1703936x40_1_0_n_n_0_1_140_wf : GatherDims.WF S100000x40 S1703936x1 S1703936x40 [1] [0] [] [0] [] 1 ![1, 40]
  scatter_S100000x40_S1703936x1_S1703936x40_1_0_0_1_wf : ScatterDims.WF S100000x40 S1703936x1 S1703936x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1703936x128.size a
  hwx1_2 : ∀ i : grid1.Coords, EltTy.bits .f32 = 32 ∨ (Rect.block (s := S1703936x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x40.size a ≤ S1703936x40.size a
  hwx4_0 : ∀ i : grid4.Coords, EltTy.bits .f32 = 32 ∨ (Rect.block (s := S1703936x40) S8192x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S1703936x1.size a
  hwx4_1 : ∀ i : grid4.Coords, EltTy.bits .f32 = 32 ∨ (Rect.block (s := S1703936x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x40.size a ≤ S1703936x40.size a
  hwx4_2 : ∀ i : grid4.Coords, EltTy.bits .f32 = 32 ∨ (Rect.block (s := S1703936x40) S8192x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S100000x40.size a
  hwx5_2 : ∀ i : grid5.Coords, EltTy.bits .f32 = 32 ∨ (Rect.block (s := S100000x40) S10000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1703936x1_S1703936x40_1_0_n_n_0_1_140 : GatherDims S100000x40 S1703936x1 S1703936x40 where
  offsetDims := [1]
  collapsedSliceDims := [0]
  operandBatchingDims := []
  startIndicesBatchingDims := []
  startIndexMap := [0]
  indexVectorDim := 1
  sliceSizes := ![1, 40]
  wf := gather_S100000x40_S1703936x1_S1703936x40_1_0_n_n_0_1_140_wf
def scatter_S100000x40_S1703936x1_S1703936x40_1_0_0_1 : ScatterDims S100000x40 S1703936x1 S1703936x40 where
  updateWindowDims := [1]
  insertedWindowDims := [0]
  scatterDimsToOperandDims := [0]
  indexVectorDim := 1
  wf := scatter_S100000x40_S1703936x1_S1703936x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S8192x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S8192x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000x128x1 : Shape := ⟨3, ![100000, 128, 1]⟩
abbrev S_ : Shape := ⟨0, ![]⟩
abbrev S1x1600000 : Shape := ⟨2, ![1, 1600000]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S1, .f32⟩
  | 4 => ⟨S128x128, .f32⟩
  | 5 => ⟨S128, .f32⟩
  | 6 => ⟨S128x40, .f32⟩
  | 7 => ⟨S40, .f32⟩
  | 8 => ⟨S100000x128x1, .f32⟩
  | 9 => ⟨S_, .f32⟩
  | 10 => ⟨S_, .f32⟩
  | 11 => ⟨S_, .f32⟩
  | 12 => ⟨S_, .f32⟩
  | 13 => ⟨S1, .f32⟩
  | 14 => ⟨S1, .f32⟩
  | 15 => ⟨S1, .f32⟩
  | 16 => ⟨S_, .f32⟩
  | 17 => ⟨S_, .f32⟩
  | 18 => ⟨S1, .f32⟩
  | 19 => ⟨S1, .f32⟩
  | 20 => ⟨S_, .f32⟩
  | 21 => ⟨S100000x128, .f32⟩
  | 22 => ⟨S1x1600000, .i32⟩
  | 23 => ⟨S1600000, .i32⟩
  | 24 => ⟨S1x1600000, .i32⟩
  | 25 => ⟨S1600000, .i32⟩
  | 26 => ⟨S100000, .i32⟩
  | 27 => ⟨S1700000, .i32⟩
  | 28 => ⟨S1700000, .i32⟩
  | 29 => ⟨S_, .f32⟩
  | 30 => ⟨S100000, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S100000x128, .f32⟩
  | 64 => ⟨S1700000x1, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x128, .f32⟩
  | 74 => ⟨S1700000x128, .f32⟩
  | 75 => ⟨S1700000x128, .f32⟩
  | 76 => ⟨S_, .f32⟩
  | 77 => ⟨S100000x128, .f32⟩
  | 78 => ⟨S1700000x1, .i32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x1600000, .i32⟩
  | 92 => ⟨S1600000, .i32⟩
  | 93 => ⟨S1x1600000, .i32⟩
  | 94 => ⟨S1600000, .i32⟩
  | 95 => ⟨S100000, .i32⟩
  | 96 => ⟨S1700000, .i32⟩
  | 97 => ⟨S1700000, .i32⟩
  | 98 => ⟨S_, .f32⟩
  | 99 => ⟨S100000, .f32⟩
  | 100 => ⟨S1700000, .f32⟩
  | 101 => ⟨S_, .f32⟩
  | 102 => ⟨S100000, .f32⟩
  | 103 => ⟨S1700000x1, .i32⟩
  | 104 => ⟨S100000, .f32⟩
  | 105 => ⟨S_, .f32⟩
  | 106 => ⟨S100000, .f32⟩
  | 107 => ⟨S100000, .i1⟩
  | 108 => ⟨S100000, .f32⟩
  | 109 => ⟨S_, .f32⟩
  | 110 => ⟨S100000, .f32⟩
  | 111 => ⟨S100000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000, .f32⟩
  | 121 => ⟨S1700000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x128, .f32⟩

abbrev hbmTy0_1 (i : Nat) : BufTy := match i % 128 with
  | 0 => ⟨S1700000, .i32⟩
  | 1 => ⟨S1700000x1, .i32⟩
  | 2 => ⟨S1700000, .f32⟩
  | 3 => ⟨S1700000, .f32⟩
  | 4 => ⟨S100000x40, .f32⟩
  | 5 => ⟨S1700000x1, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000x40, .f32⟩
  | 15 => ⟨S1700000x40, .f32⟩
  | 16 => ⟨S1700000x40, .f32⟩
  | 17 => ⟨S_, .f32⟩
  | 18 => ⟨S100000x40, .f32⟩
  | 19 => ⟨S1700000x1, .i32⟩
  | 20 => ⟨S100000x40, .f32⟩
  | 21 => ⟨S1x40, .f32⟩
  | 22 => ⟨S100000x40, .f32⟩
  | 23 => ⟨S100000x40, .f32⟩
  | 24 => ⟨S_, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x40, .f32⟩
  | 31 => ⟨S100000x40, .f32⟩
  | 32 => ⟨S100000x40, .f32⟩
  | 33 => ⟨S_, .f32⟩
  | 34 => ⟨S100000, .f32⟩
  | 35 => ⟨S100000x1, .f32⟩
  | 36 => ⟨S100000x40, .f32⟩
  | 37 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_v83 : Ref sig .tc := ⟨.hbm, 113, rfl⟩
abbrev main_v84 : Ref sig .tc := ⟨.hbm, 114, rfl⟩
abbrev main_c_18 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_19 : Ref sig .tc := ⟨.hbm, 122, rfl⟩
abbrev main_v91 : Ref sig .tc := ⟨.hbm, 123, rfl⟩
abbrev main_v92 : Ref sig .tc := ⟨.hbm, 124, rfl⟩
abbrev main_c_20 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_21 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_23 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_24 : Ref sig .tc := ⟨.hbm, 152, rfl⟩
abbrev main_v116 : Ref sig .tc := ⟨.hbm, 153, rfl⟩
abbrev main_cst_25 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_26 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩

abbrev nD : Nat := 1
abbrev τ : Topo := Topo.v7x

variable {F : FTy → Type} [FloatOps F]

class Facts₀ : Prop where
  shapeCasts_S100000x128_S100000x128x1 : S100000x128.ShapeCasts S100000x128x1
  reducesTo_S1_S_d0 : S1.ReducesTo [0] S_
  h_S_ : 0 < S_.numel
  bcast_S_S1 : S_.BroadcastsInDim S1 (![] : Fin 0 → Fin S1.rank)
  shapeCasts_S1_S_ : S1.ShapeCasts S_
  shapeCasts_S100000x128x1_S100000x128 : S100000x128x1.ShapeCasts S100000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Gcn.lean ====
/-
  A two-layer graph convolution with a row softmax, one entry at a time, over the extended reals.

  The graph has 100000 nodes. An edge list gives, per edge, a source-node word, a target-node word and a weight.
  One aggregation step sends a node-by-feature table `A` to the table whose entry (n, j) is the sum, over the edges
  whose target word reads `n`, of the edge's weight times `A` at (the edge's source row, j); the source row is the
  source word read signed and clamped into the table. The network is: a dense product with the first weight matrix,
  an aggregation, a bias, a positive scale and the rectifier; then a dense product with the second weight matrix,
  an aggregation, a bias; then each row's softmax. Nothing here mentions how the edge list is laid out in memory
  or how long it is: the edge count `E` is a parameter, which lets a list padded with zero-weight edges be compared
  with the list itself (`aggr_pad`).
-/
import Idealize.ShloMosaic.PureOps.Ideal
import Idealize.ShloMosaic.Lib.ValueIdx

noncomputable section

open Idealize.ShloMosaic
open scoped BigOperators

namespace Cert.Gcn

/-- The table row a node word selects: the word read signed, clamped into the 100000 rows. -/
def rowOf (r : BitVec 32) : Fin 100000 := ⟨min r.toInt.toNat 99999, by omega⟩

/-- A word that reads as a node number selects that node's row. -/
theorem rowOf_of_range (r : BitVec 32) (h0 : 0 ≤ r.toInt) (h1 : r.toInt < 100000) : (rowOf r).val = r.toInt.toNat := by
  unfold rowOf
  show min r.toInt.toNat 99999 = r.toInt.toNat
  omega

/-- The dense product of a node table with a weight matrix. -/
def dense {K M : Nat} (X : Fin 100000 → Fin K → EReal) (W : Fin K → Fin M → EReal) (n : Fin 100000) (j : Fin M) : EReal :=
  ∑ k : Fin K, X n k * W k j

/-- One aggregation over an edge list of `E` edges (source words, target words, weights). -/
def aggr {E M : Nat} (src dst : Fin E → BitVec 32) (wgt : Fin E → EReal) (A : Fin 100000 → Fin M → EReal)
    (n : Fin 100000) (j : Fin M) : EReal :=
  ∑ e ∈ Finset.univ.filter (fun e : Fin E => (dst e).toInt = (n.val : ℤ)), wgt e * A (rowOf (src e)) j

/-- The hidden layer's activation: bias, scale by `p`, rectify. -/
def hidden {M : Nat} (p : EReal) (G : Fin 100000 → Fin M → EReal) (b : Fin M → EReal) (n : Fin 100000) (j : Fin M) : EReal :=
  max ((G n j + b j) * p) 0

/-- A row's maximum as both programs take it: the fold of `max` from −∞ over the row, then once more against −∞. -/
def rowMax {M : Nat} (z : Fin M → EReal) : EReal :=
  max ⊥ ((Finset.univ : Finset (Fin M)).fold max ⊥ z)

/-- A row's softmax. -/
def softmaxRow {M : Nat} (z : Fin M → EReal) (j : Fin M) : EReal :=
  Ideal.div (Ideal.exp (z j - rowMax z)) (∑ k : Fin M, Ideal.exp (z k - rowMax z))

/-- The network's value at node `n`, class `j`. -/
def out {E : Nat} (X : Fin 100000 → Fin 128 → EReal) (src dst : Fin E → BitVec 32) (wgt : Fin E → EReal) (p : EReal)
    (W1 : Fin 128 → Fin 128 → EReal) (b1 : Fin 128 → EReal) (W2 : Fin 128 → Fin 40 → EReal) (b2 : Fin 40 → EReal)
    (n : Fin 100000) (j : Fin 40) : EReal :=
  softmaxRow (fun c => aggr src dst wgt (dense (hidden p (aggr src dst wgt (dense X W1)) b1) W2) n c + b2 c) j

end Cert.Gcn

end
-- ==== Proof.KVals.lean ====
/-
  The kernel program's intermediate values, named, and the steps between them as statements.

  The kernel program pads the edge list (1700000 edges: the 1600000 given ones, then one self-loop per node) with 3936
  edges of source 0, target 0 and weight 0, and runs six grid kernels between host operations:

    xw1  = x · W1                       (grid kernel 0)
    msg1 = take(xw1, source) · weight   (host take, grid kernel 1)
    agg1 = scatter-add of msg1 by target (host)
    hid  = max((agg1 + b1) · p, 0)      (grid kernel 2)
    xw2  = hid · W2                     (grid kernel 3)
    msg2 = take(xw2, source) · weight   (host take, grid kernel 4)
    agg2 = scatter-add of msg2 by target (host)
    out  = row softmax of agg2 + b2     (grid kernel 5)

  Each value is named here at the boundary of the run where it is first present (the generated frame's boundary
  contents `W0 … W19`), read at literal coordinates. The statements that join consecutive values are proved in the
  modules named beside them.
-/
import proofs.«410440_j89008902243178_1_alg».proof.Proof.Gen.KernelIdeal.Frame
import proofs.«410440_j89008902243178_1_alg».proof.Proof.Gcn
import Idealize.ShloMosaic.Lib.ValueIdx

noncomputable section

namespace Cert.KernelIdeal.KV

open Idealize.ShloMosaic Idealize.ShloMosaic.ValueIdx Idealize.SL.Sem Cert.KernelIdeal Cert.KernelIdeal.Gen
open scoped BigOperators

variable (m : (ℓ : Loc nD τ sig) → Buf (Elt Ideal) ℓ) (ρ : Dev nD → PrngReg)

/-! ## The arguments at coordinates -/

def argX (c : Dev nD) (n : Fin 100000) (k : Fin 128) : EReal :=
  (m ((c.tc : Thread nD τ).loc main_arg0) : FVec Ideal S100000x128 .f32) (ix2 n k)
def argW1 (c : Dev nD) (k : Fin 128) (j : Fin 128) : EReal :=
  (m ((c.tc : Thread nD τ).loc main_arg4) : FVec Ideal S128x128 .f32) (ix2 k j)
def argB1 (c : Dev nD) (j : Fin 128) : EReal :=
  (m ((c.tc : Thread nD τ).loc main_arg5) : FVec Ideal S128 .f32) (ix1 j)
def argW2 (c : Dev nD) (k : Fin 128) (j : Fin 40) : EReal :=
  (m ((c.tc : Thread nD τ).loc main_arg6) : FVec Ideal S128x40 .f32) (ix2 k j)
def argB2 (c : Dev nD) (j : Fin 40) : EReal :=
  (m ((c.tc : Thread nD τ).loc main_arg7) : FVec Ideal S40 .f32) (ix1 j)

/-! ## The edge list: as the program builds it (1700000 edges) and padded (1703936 edges) -/

/-- Source words of the 1700000 edges (`%5`, present from the first host stretch on). -/
def srcK (c : Dev nD) (e : Fin 1700000) : BitVec 32 :=
  (W1 (F := Ideal) m ρ c (Proc.devRef .tc main_v5) : IVec S1700000 32) (ix1 e)
/-- Target words of the 1700000 edges (`%6`). -/
def dstK (c : Dev nD) (e : Fin 1700000) : BitVec 32 :=
  (W1 (F := Ideal) m ρ c (Proc.devRef .tc main_v6) : IVec S1700000 32) (ix1 e)
/-- Normalised weights of the 1700000 edges (`%32`). -/
def wgtK (c : Dev nD) (e : Fin 1700000) : EReal :=
  (W3 (F := Ideal) m ρ c (Proc.devRef .tc main_v32) : FVec Ideal S1700000 .f32) (ix1 e)
/-- Source words of the padded list (`%33`). -/
def srcP (c : Dev nD) (e : Fin 1703936) : BitVec 32 :=
  (W4 (F := Ideal) m ρ c (Proc.devRef .tc main_v33) : IVec S1703936 32) (ix1 e)
/-- Target words of the padded list (`%34`). -/
def dstP (c : Dev nD) (e : Fin 1703936) : BitVec 32 :=
  (W6 (F := Ideal) m ρ c (Proc.devRef .tc main_v34) : IVec S1703936 32) (ix1 e)
/-- Weights of the padded list, as the one-column array the grid kernels read (`%36`). -/
def wgtP (c : Dev nD) (e : Fin 1703936) : EReal :=
  (W9 (F := Ideal) m ρ c (Proc.devRef .tc main_v36) : FVec Ideal S1703936x1 .f32) (ix2 e (0 : Fin 1))
/-- The attention softmax's one entry, the scale `p` (`%50`, one element). -/
def probK (c : Dev nD) : EReal :=
  (W13 (F := Ideal) m ρ c (Proc.devRef .tc main_v50) : FVec Ideal S1 .f32) (ix1 (0 : Fin 1))

/-- A node word in range of the 100000 nodes. -/
def InRange (r : BitVec 32) : Prop := 0 ≤ r.toInt ∧ r.toInt < 100000

/-! ## The stage values -/

def xw1 (c : Dev nD) (n : Fin 100000) (j : Fin 128) : EReal :=
  (W10 (F := Ideal) m ρ c (Proc.devRef .tc main_v37) : FVec Ideal S100000x128 .f32) (ix2 n j)
def msg1 (c : Dev nD) (e : Fin 1703936) (j : Fin 128) : EReal :=
  (W12 (F := Ideal) m ρ c (Proc.devRef .tc main_v39) : FVec Ideal S1703936x128 .f32) (ix2 e j)
def agg1 (c : Dev nD) (n : Fin 100000) (j : Fin 128) : EReal :=
  (W13 (F := Ideal) m ρ c (Proc.devRef .tc main_v42) : FVec Ideal S100000x128 .f32) (ix2 n j)
def hid (c : Dev nD) (n : Fin 100000) (j : Fin 128) : EReal :=
  (W14 (F := Ideal) m ρ c (Proc.devRef .tc main_v53) : FVec Ideal S100000x128 .f32) (ix2 n j)
def xw2 (c : Dev nD) (n : Fin 100000) (j : Fin 40) : EReal :=
  (W15 (F := Ideal) m ρ c (Proc.devRef .tc main_v54) : FVec Ideal S100000x40 .f32) (ix2 n j)
def msg2 (c : Dev nD) (e : Fin 1703936) (j : Fin 40) : EReal :=
  (W17 (F := Ideal) m ρ c (Proc.devRef .tc main_v56) : FVec Ideal S1703936x40 .f32) (ix2 e j)
def agg2 (c : Dev nD) (n : Fin 100000) (j : Fin 40) : EReal :=
  (W18 (F := Ideal) m ρ c (Proc.devRef .tc main_v59) : FVec Ideal S100000x40 .f32) (ix2 n j)
def outK (c : Dev nD) (n : Fin 100000) (j : Fin 40) : EReal :=
  (W19 (F := Ideal) m ρ c (Proc.devRef .tc main_v61) : FVec Ideal S100000x40 .f32) (ix2 n j)

end Cert.KernelIdeal.KV

end
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.DenseSteps.lean ====
/-
  The two dense products of the kernel program: each grid kernel multiplies a block of 10000 rows by the whole weight
  matrix, and the ten blocks tile the node table, so the array it leaves is the dense product entry by entry.

  Per kernel the steps are: the body's payload at (p, q) is the sum over k of left (p, k) · right (k, q) (the format
  changes are the identity at the ideal values, and the product accumulates into zero); point t's left block is rows
  t · 10000 … t · 10000 + 9999 of the table and its right block is the whole matrix, so what point t writes back is
  block t of the whole product; row r lies in block r / 10000, so the ten blocks cover the array; and the two operand
  arrays are, at the kernel's entry, what the statement names (the launch contents for the arguments: no host
  stretch and no earlier kernel writes them).
-/
import proofs.«410440_j89008902243178_1_alg».proof.Proof.KVals
import proofs.«410440_j89008902243178_1_alg».proof.Proof.LibPlainRows

noncomputable section

namespace Cert.KernelIdeal.KV

open Idealize.ShloMosaic Idealize.ShloMosaic.ValueIdx Idealize.SL.Sem Cert.KernelIdeal Cert.KernelIdeal.Gen
open scoped BigOperators

variable (m : (ℓ : Loc nD τ sig) → Buf (Elt Ideal) ℓ) (ρ : Dev nD → PrngReg)

namespace Dense

/-! ## The product of a table with a matrix, entry by entry -/

/-- The product of a table of `N` rows with a `128 × M` matrix, as an array. -/
def prodG {N M : Nat} (X : (⟨2, ![N, 128]⟩ : Shape).Idx → EReal) (W : (⟨2, ![128, M]⟩ : Shape).Idx → EReal) :
    (⟨2, ![N, M]⟩ : Shape).Idx → EReal :=
  fun i => ∑ k : Fin 128, X (ix2 (i 0 : Fin N) k) * W (ix2 k (i 1 : Fin M))

theorem prodG_ix2 {N M : Nat} (X : (⟨2, ![N, 128]⟩ : Shape).Idx → EReal) (W : (⟨2, ![128, M]⟩ : Shape).Idx → EReal)
    (n : Fin N) (j : Fin M) : prodG X W (ix2 n j) = ∑ k : Fin 128, X (ix2 n k) * W (ix2 k j) := rfl

theorem hz2 : (![0, 0] : Fin 2 → Nat) = fun _ => 0 := funext fun a => by fin_cases a <;> rfl

/-- A host stretch that does not write a buffer leaves it as it was. -/
local macro "host_skip " h:ident : tactic => `(tactic|
  exact StableHlo.after_of_forall_not_mem _ _ (List.forall_iff_forall_mem.mp (by
    simp only [$h:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Grid kernel 0: `x · W1` -/

/-- The payload at (p, q): the sum over the contracted coordinate. -/
theorem pay0_apply (x0 : Vec Ideal S10000x128 .f32) (x1 : Vec Ideal S128x128 .f32) (p : Fin 10000) (q : Fin 128) :
    Gen.k0_pay1 x0 x1 (ix2 p q) = ∑ k : Fin 128, x0 (ix2 p k) * x1 (ix2 k q) := by
  unfold Gen.k0_pay1
  exact PlainRows.matmul_zero_rows_apply dot_S10000x128_S128x128_S10000x128_1_0_0_1_n_n rfl none _ _ p q

/-- One block's product is the block of the whole product: a block of 10000 rows starting at row `b · 10000`
    against the whole matrix. -/
theorem blk0_point (X : FVec Ideal S100000x128 .f32) (W : FVec Ideal S128x128 .f32)
    (x0 : Vec Ideal S10000x128 .f32) (x1 : Vec Ideal S128x128 .f32) (b : Nat)
    (h0 : ∀ (y : S10000x128.Idx) (i : S100000x128.Idx), (i 0).val = b * 10000 + (y 0).val → (i 1).val = (y 1).val → x0 y = X i)
    (h1 : ∀ y : S128x128.Idx, x1 y = W y)
    (y : S10000x128.Idx) (i : S100000x128.Idx) (hi0 : (i 0).val = b * 10000 + (y 0).val) (hi1 : (i 1).val = (y 1).val) :
    Gen.k0_pay1 x0 x1 y = prodG X W i := by
  obtain ⟨p, q, rfl⟩ : ∃ (p : Fin 10000) (q : Fin 128), y = ix2 p q := ⟨y 0, y 1, eq_ix2 y⟩
  obtain ⟨n, j, rfl⟩ : ∃ (n : Fin 100000) (j : Fin 128), i = ix2 n j := ⟨i 0, i 1, eq_ix2 i⟩
  rw [pay0_apply, prodG_ix2]
  refine Finset.sum_congr rfl fun k _ => ?_
  rw [h0 (ix2 p k) (ix2 n k) hi0 rfl, h1]
  have e : q = j := Fin.ext hi1.symm
  rw [e]

/-- The printed index maps over the grid: point `t` takes block row `t` of the table and of the output, and the
    whole matrix. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The node table and the first weight matrix as grid kernel 0 finds them. -/
abbrev XA (c : Dev nD) : FVec Ideal S100000x128 .f32 := V9 (F := Ideal) m ρ c main_arg0
abbrev WA (c : Dev nD) : FVec Ideal S128x128 .f32 := V9 (F := Ideal) m ρ c main_arg4

set_option maxHeartbeats 400000 in
/-- What point `t` writes back is block `t` of the product of the entry arrays. -/
theorem flushed0_eq (c : Dev nD) (t : Fin cfg0.N) :
    (dat0 (V9 (F := Ideal) m ρ) c).flushed 2 t
      = ((cfg0.win 2).blk t).view.read (Elt Ideal) (prodG (XA m ρ c) (WA m ρ c)) := by
  show (cfg0.win 2).cut (grid0.coords t) ((dat0 (V9 (F := Ideal) m ρ) c).after 2 t) = _
  rw [after0_2]
  unfold out0_2
  rw [View.canon_unit_zero hz2]
  simp only [View.ld_unit_zero (S := S10000x128) hz2, View.ld_unit_zero (S := S128x128) hz2]
  obtain ⟨e0, e1, e2, e3, e4, e5⟩ := idx_facts0 t
  funext j
  show Gen.k0_pay1 (iblk0 (V9 (F := Ideal) m ρ) c 0 t) (iblk0 (V9 (F := Ideal) m ρ) c 1 t) j
    = prodG (XA m ρ c) (WA m ρ c) (((cfg0.win 2).blk t).view.emb j)
  refine blk0_point (XA m ρ c) (WA m ρ c) _ _ t.val ?_ ?_ j _ ?_ ?_
  · intro y i h0 h1
    show V9 (F := Ideal) m ρ c main_arg0 (((cfg0.win 0).blk t).view.emb y) = V9 (F := Ideal) m ρ c main_arg0 i
    refine congrArg _ ?_
    funext a; apply Fin.ext
    match a with
    | ⟨0, _⟩ => show win0_0.index t (0 : Fin 2) * 10000 + 1 * (y 0).val = (i 0).val; omega
    | ⟨1, _⟩ => show win0_0.index t (1 : Fin 2) * 128 + 1 * (y 1).val = (i 1).val; omega
  · intro y
    show V9 (F := Ideal) m ρ c main_arg4 (((cfg0.win 1).blk t).view.emb y) = V9 (F := Ideal) m ρ c main_arg4 y
    refine congrArg _ ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 10000 + 1 * (j 0).val = t.val * 10000 + (j 0).val; omega
  · show win0_2.index t (1 : Fin 2) * 128 + 1 * (j 1).val = (j 1).val; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v37).slice (win0_2.rect t)).set ↔ _
  rw [View.set_slice_whole, Rect.mem_set_unit]
  exact Iff.rfl

/-- Every row of the table lies in one of the ten blocks: row `r` in block `r / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 10000, by show _ < 10; omega⟩
  obtain ⟨e0, e1, e2, e3, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array grid kernel 0 leaves: the product of its two entry arrays. -/
theorem final0 (c : Dev nD) : (dat0 (V9 (F := Ideal) m ρ) c).arrAt 2 cfg0.N = prodG (XA m ρ c) (WA m ρ c) :=
  (dat0 (V9 (F := Ideal) m ρ) c).arrAt_eq_of_cover 2 (prodG (XA m ρ c) (WA m ρ c)) (fun t _ => flushed0_eq m ρ c t) cover0
/-- The node table is at grid kernel 0's entry what it was at the launch: no host stretch before it writes it. -/
theorem W9_main_arg0 (c : Dev nD) :
    W9 (F := Ideal) m ρ c (Proc.devRef .tc main_arg0) = m ((c.tc : Thread nD τ).loc main_arg0) :=
  calc W9 (F := Ideal) m ρ c (Proc.devRef .tc main_arg0)
    _ = W8 (F := Ideal) m ρ c (Proc.devRef .tc main_arg0) := by host_skip hostOps0_8
    _ = W7 (F := Ideal) m ρ c (Proc.devRef .tc main_arg0) := by host_skip hostOps0_7
    _ = W6 (F := Ideal) m ρ c (Proc.devRef .tc main_arg0) := by host_skip hostOps0_6
    _ = W5 (F := Ideal) m ρ c (Proc.devRef .tc main_arg0) := by host_skip hostOps0_5
    _ = W4 (F := Ideal) m ρ c (Proc.devRef .tc main_arg0) := by host_skip hostOps0_4
    _ = W3 (F := Ideal) m ρ c (Proc.devRef .tc main_arg0) := by host_skip hostOps0_3
    _ = W2 (F := Ideal) m ρ c (Proc.devRef .tc main_arg0) := by host_skip hostOps0_2
    _ = W1 (F := Ideal) m ρ c (Proc.devRef .tc main_arg0) := by host_skip hostOps0_1
    _ = W0 (F := Ideal) m ρ c (Proc.devRef .tc main_arg0) := by host_skip hostOps0
    _ = m ((c.tc : Thread nD τ).loc main_arg0) := rfl

/-- The first weight matrix likewise. -/
theorem W9_main_arg4 (c : Dev nD) :
    W9 (F := Ideal) m ρ c (Proc.devRef .tc main_arg4) = m ((c.tc : Thread nD τ).loc main_arg4) :=
  calc W9 (F := Ideal) m ρ c (Proc.devRef .tc main_arg4)
    _ = W8 (F := Ideal) m ρ c (Proc.devRef .tc main_arg4) := by host_skip hostOps0_8
    _ = W7 (F := Ideal) m ρ c (Proc.devRef .tc main_arg4) := by host_skip hostOps0_7
    _ = W6 (F := Ideal) m ρ c (Proc.devRef .tc main_arg4) := by host_skip hostOps0_6
    _ = W5 (F := Ideal) m ρ c (Proc.devRef .tc main_arg4) := by host_skip hostOps0_5
    _ = W4 (F := Ideal) m ρ c (Proc.devRef .tc main_arg4) := by host_skip hostOps0_4
    _ = W3 (F := Ideal) m ρ c (Proc.devRef .tc main_arg4) := by host_skip hostOps0_3
    _ = W2 (F := Ideal) m ρ c (Proc.devRef .tc main_arg4) := by host_skip hostOps0_2
    _ = W1 (F := Ideal) m ρ c (Proc.devRef .tc main_arg4) := by host_skip hostOps0_1
    _ = W0 (F := Ideal) m ρ c (Proc.devRef .tc main_arg4) := by host_skip hostOps0
    _ = m ((c.tc : Thread nD τ).loc main_arg4) := rfl

/-! ## Grid kernel 3: `hid · W2` -/

/-- The payload at (p, q): the sum over the contracted coordinate (the cast to the same shape is the identity). -/
theorem pay3_apply (x0 : Vec Ideal S10000x128 .f32) (x1 : Vec Ideal S128x40 .f32) (p : Fin 10000) (q : Fin 40) :
    Gen.k3_pay1 x0 x1 (ix2 p q) = ∑ k : Fin 128, x0 (ix2 p k) * x1 (ix2 k q) := by
  unfold Gen.k3_pay1
  rw [shapeCast_self]
  exact PlainRows.matmul_zero_rows_apply dot_S10000x128_S128x40_S10000x40_1_0_0_1_n_n rfl none _ _ p q

/-- One block's product is the block of the whole product. -/
theorem blk3_point (X : FVec Ideal S100000x128 .f32) (W : FVec Ideal S128x40 .f32)
    (x0 : Vec Ideal S10000x128 .f32) (x1 : Vec Ideal S128x40 .f32) (b : Nat)
    (h0 : ∀ (y : S10000x128.Idx) (i : S100000x128.Idx), (i 0).val = b * 10000 + (y 0).val → (i 1).val = (y 1).val → x0 y = X i)
    (h1 : ∀ y : S128x40.Idx, x1 y = W y)
    (y : S10000x40.Idx) (i : S100000x40.Idx) (hi0 : (i 0).val = b * 10000 + (y 0).val) (hi1 : (i 1).val = (y 1).val) :
    Gen.k3_pay1 x0 x1 y = prodG X W i := by
  obtain ⟨p, q, rfl⟩ : ∃ (p : Fin 10000) (q : Fin 40), y = ix2 p q := ⟨y 0, y 1, eq_ix2 y⟩
  obtain ⟨n, j, rfl⟩ : ∃ (n : Fin 100000) (j : Fin 40), i = ix2 n j := ⟨i 0, i 1, eq_ix2 i⟩
  rw [pay3_apply, prodG_ix2]
  refine Finset.sum_congr rfl fun k _ => ?_
  rw [h0 (ix2 p k) (ix2 n k) hi0 rfl, h1]
  have e : q = j := Fin.ext hi1.symm
  rw [e]

/-- The printed index maps over the grid: point `t` takes block row `t` of the table and of the output, and the
    whole matrix. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The hidden activation and the second weight matrix as grid kernel 3 finds them. -/
abbrev HA (c : Dev nD) : FVec Ideal S100000x128 .f32 := V14 (F := Ideal) m ρ c main_v53
abbrev WB (c : Dev nD) : FVec Ideal S128x40 .f32 := V14 (F := Ideal) m ρ c main_arg6

set_option maxHeartbeats 400000 in
/-- What point `t` writes back is block `t` of the product of the entry arrays. -/
theorem flushed3_eq (c : Dev nD) (t : Fin cfg3.N) :
    (dat3 (V14 (F := Ideal) m ρ) c).flushed 2 t
      = ((cfg3.win 2).blk t).view.read (Elt Ideal) (prodG (HA m ρ c) (WB m ρ c)) := by
  show (cfg3.win 2).cut (grid3.coords t) ((dat3 (V14 (F := Ideal) m ρ) c).after 2 t) = _
  rw [after3_2]
  unfold out3_2
  rw [View.canon_unit_zero hz2]
  simp only [View.ld_unit_zero (S := S10000x128) hz2, View.ld_unit_zero (S := S128x40) hz2]
  obtain ⟨e0, e1, e2, e3, e4, e5⟩ := idx_facts3 t
  funext j
  show Gen.k3_pay1 (iblk3 (V14 (F := Ideal) m ρ) c 0 t) (iblk3 (V14 (F := Ideal) m ρ) c 1 t) j
    = prodG (HA m ρ c) (WB m ρ c) (((cfg3.win 2).blk t).view.emb j)
  refine blk3_point (HA m ρ c) (WB m ρ c) _ _ t.val ?_ ?_ j _ ?_ ?_
  · intro y i h0 h1
    show V14 (F := Ideal) m ρ c main_v53 (((cfg3.win 0).blk t).view.emb y) = V14 (F := Ideal) m ρ c main_v53 i
    refine congrArg _ ?_
    funext a; apply Fin.ext
    match a with
    | ⟨0, _⟩ => show win3_0.index t (0 : Fin 2) * 10000 + 1 * (y 0).val = (i 0).val; omega
    | ⟨1, _⟩ => show win3_0.index t (1 : Fin 2) * 128 + 1 * (y 1).val = (i 1).val; omega
  · intro y
    show V14 (F := Ideal) m ρ c main_arg6 (((cfg3.win 1).blk t).view.emb y) = V14 (F := Ideal) m ρ c main_arg6 y
    refine congrArg _ ?_
    funext a; apply Fin.ext
    match a with
    | ⟨0, _⟩ => show win3_1.index t (0 : Fin 2) * 128 + 1 * (y 0).val = (y 0).val; omega
    | ⟨1, _⟩ => show win3_1.index t (1 : Fin 2) * 40 + 1 * (y 1).val = (y 1).val; omega
  · show win3_2.index t (0 : Fin 2) * 10000 + 1 * (j 0).val = t.val * 10000 + (j 0).val; omega
  · show win3_2.index t (1 : Fin 2) * 40 + 1 * (j 1).val = (j 1).val; omega

/-- An index of the array is in point `t`'s block iff each coordinate is in the block's range on its axis. -/
theorem mem_blk3 (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v54).slice (win3_2.rect t)).set ↔ _
  rw [View.set_slice_whole, Rect.mem_set_unit]
  exact Iff.rfl

/-- Every row of the table lies in one of the ten blocks: row `r` in block `r / 10000`. -/
theorem cover3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  let t : Fin cfg3.N := ⟨(i 0).val / 10000, by show _ < 10; omega⟩
  obtain ⟨e0, e1, e2, e3, e4, e5⟩ := idx_facts3 t
  have ht : t.val = (i 0).val / 10000 := rfl
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 40 ≤ (i 1).val ∧ (i 1).val < win3_2.index t (1 : Fin 2) * 40 + 40; omega

/-- The array grid kernel 3 leaves: the product of its two entry arrays. -/
theorem final3 (c : Dev nD) : (dat3 (V14 (F := Ideal) m ρ) c).arrAt 2 cfg3.N = prodG (HA m ρ c) (WB m ρ c) :=
  (dat3 (V14 (F := Ideal) m ρ) c).arrAt_eq_of_cover 2 (prodG (HA m ρ c) (WB m ρ c)) (fun t _ => flushed3_eq m ρ c t) cover3

/-- The second weight matrix is at grid kernel 3's entry what it was at the launch: no host stretch and no grid
    kernel before it writes it. -/
theorem W14_main_arg6 (c : Dev nD) :
    W14 (F := Ideal) m ρ c (Proc.devRef .tc main_arg6) = m ((c.tc : Thread nD τ).loc main_arg6) :=
  calc W14 (F := Ideal) m ρ c (Proc.devRef .tc main_arg6)
    _ = W13 (F := Ideal) m ρ c (Proc.devRef .tc main_arg6) := W14_of_ne m ρ c main_arg6 (by decide)
    _ = W12 (F := Ideal) m ρ c (Proc.devRef .tc main_arg6) := by host_skip hostOps2
    _ = W11 (F := Ideal) m ρ c (Proc.devRef .tc main_arg6) := W12_of_ne m ρ c main_arg6 (by decide)
    _ = W10 (F := Ideal) m ρ c (Proc.devRef .tc main_arg6) := by host_skip hostOps1
    _ = W9 (F := Ideal) m ρ c (Proc.devRef .tc main_arg6) := W10_of_ne m ρ c main_arg6 (by decide)
    _ = W8 (F := Ideal) m ρ c (Proc.devRef .tc main_arg6) := by host_skip hostOps0_8
    _ = W7 (F := Ideal) m ρ c (Proc.devRef .tc main_arg6) := by host_skip hostOps0_7
    _ = W6 (F := Ideal) m ρ c (Proc.devRef .tc main_arg6) := by host_skip hostOps0_6
    _ = W5 (F := Ideal) m ρ c (Proc.devRef .tc main_arg6) := by host_skip hostOps0_5
    _ = W4 (F := Ideal) m ρ c (Proc.devRef .tc main_arg6) := by host_skip hostOps0_4
    _ = W3 (F := Ideal) m ρ c (Proc.devRef .tc main_arg6) := by host_skip hostOps0_3
    _ = W2 (F := Ideal) m ρ c (Proc.devRef .tc main_arg6) := by host_skip hostOps0_2
    _ = W1 (F := Ideal) m ρ c (Proc.devRef .tc main_arg6) := by host_skip hostOps0_1
    _ = W0 (F := Ideal) m ρ c (Proc.devRef .tc main_arg6) := by host_skip hostOps0
    _ = m ((c.tc : Thread nD τ).loc main_arg6) := rfl

end Dense

open Dense

/-- Grid kernel 0 leaves `x · W1`. -/
theorem xw1_eq (c : Dev nD) (n : Fin 100000) (j : Fin 128) :
    xw1 m ρ c n j = Gcn.dense (argX m c) (argW1 m c) n j := by
  have e : (W10 (F := Ideal) m ρ c (Proc.devRef .tc main_v37) : FVec Ideal S100000x128 .f32)
      = prodG (XA m ρ c) (WA m ρ c) := (W10_arr m ρ c 2).trans (final0 m ρ c)
  unfold xw1
  rw [e, prodG_ix2]
  unfold Gcn.dense argX argW1
  refine Finset.sum_congr rfl fun k _ => ?_
  have eX : XA m ρ c = m ((c.tc : Thread nD τ).loc main_arg0) := W9_main_arg0 m ρ c
  have eW : WA m ρ c = m ((c.tc : Thread nD τ).loc main_arg4) := W9_main_arg4 m ρ c
  rw [eX, eW]

/-- Grid kernel 3 leaves `hid · W2`. -/
theorem xw2_eq (c : Dev nD) (n : Fin 100000) (j : Fin 40) :
    xw2 m ρ c n j = Gcn.dense (hid m ρ c) (argW2 m c) n j := by
  have e : (W15 (F := Ideal) m ρ c (Proc.devRef .tc main_v54) : FVec Ideal S100000x40 .f32)
      = prodG (HA m ρ c) (WB m ρ c) := (W15_arr m ρ c 2).trans (final3 m ρ c)
  unfold xw2
  rw [e, prodG_ix2]
  unfold Gcn.dense hid argW2
  refine Finset.sum_congr rfl fun k _ => ?_
  have eW : WB m ρ c = m ((c.tc : Thread nD τ).loc main_arg6) := W14_main_arg6 m ρ c
  rw [eW]

end Cert.KernelIdeal.KV

end
-- ==== Proof.LibGatherRows.lean ====
/-
  A GATHER OF WHOLE ROWS, READ AT AN INDEX.

  A gather of an operand `[N, K]` at start indices `[E, 1]` with offset axis 1, collapsed operand axis 0, start index map
  `[0]`, the index vector on axis 1 of the start indices and slices `[1, K]` produces a result `[E, K]`. Its operand index
  for the result index `(e, k)` is, axis by axis, "clamped start + batching coordinate + offset coordinate":

    * on axis 0, which is in the start index map, the start is the word `idx (e, 0)` read signed, as a natural number,
      clamped to `N − 1` (the size `N` minus the slice size `1`); there is no batching axis, and axis 0 is collapsed, so
      the other two summands are `0`;
    * on axis 1, which is not in the start index map, the start is `0`; there is no batching axis; axis 1 is the only kept
      operand axis, it is read by the only offset axis of the result, axis 1, so the offset coordinate is `k`.

  Hence the result at `(e, k)` is the operand at `(min (idx (e, 0)).toInt.toNat (N − 1), k)`.
-/
import Idealize.ShloMosaic.PureOps.Ideal
import Idealize.ShloMosaic.Lib.ValueIdx

noncomputable section

open Idealize.ShloMosaic Idealize.ShloMosaic.ValueIdx

namespace Cert.LibGatherRows

/-- The dimension numbers of a row gather: operand `[N, K]`, one start-index word per result row in `[E, 1]`, result
    `[E, K]`; offset axis 1, collapsed operand axis 0, start indices for operand axis 0, the index vector on the start
    indices' axis 1, slices of one whole row. -/
abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

/-- The start-indices index at which the result index `(e, k)` reads the only component of its start index is `(e, 0)`:
    the batch coordinate `e` on axis 0 and the component number `0` on the index vector's axis 1. -/
theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

/-- On operand axis 0 the row gather's operand index for `(e, k)` is the start-index word of `e` read signed and clamped
    to `N − 1`: axis 0 is in the start index map with slice size 1, it is no batching axis, and it is collapsed. -/
theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

/-- On operand axis 1 the row gather's operand index for `(e, k)` is `k`: axis 1 is not in the start index map (start 0),
    it is no batching axis, and it is the kept operand axis the result's offset axis 1 reads. -/
theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

/-- THE ROW GATHER READ AT `(e, k)`: the operand's row at the start-index word of `e`, read signed and clamped into
    `[0, N − 1]`, at column `k`. -/
theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.MessageSteps.lean ====
/-
  The two message tables of the kernel program.

  For every edge of the padded list the host takes the row of a node table that the edge's source word names: the word is
  wrapped (a negative word moved up by the number of rows), tested for being a row number, and the table's row at the
  wrapped word (clamped into the table) is kept where the test holds and a fill value elsewhere. For a word that reads as
  a node number the wrap is the identity, the test holds, and the clamp is the row the specification selects; this is why
  the word is assumed in range. A grid kernel then multiplies each taken row by the edge's weight, block of 8192 edges by
  block: the blocks tile the edge list, so the array it leaves is one function of the taken rows and the weights column,
  entry (e, j) being the taken row's entry j times the weight of edge e. The words and the weights are not written between
  the place they are named and the places they are read, which is checked boundary by boundary of the run.
-/
import proofs.«410440_j89008902243178_1_alg».proof.Proof.KVals
import proofs.«410440_j89008902243178_1_alg».proof.Proof.LibGatherRows
import Idealize.ShloMosaic.Lib.StableHlo.Predicate
import Idealize.ShloMosaic.Lib.DynamicIndex
import Idealize.ShloMosaic.Lib.Pipeline.Value
import Idealize.ShloMosaic.Lib.ValueLayout

noncomputable section

namespace Cert.KernelIdeal.KV

open Idealize.ShloMosaic Idealize.ShloMosaic.ValueIdx Idealize.SL.Sem Cert.KernelIdeal Cert.KernelIdeal.Gen
open scoped BigOperators

variable (m : (ℓ : Loc nD τ sig) → Buf (Elt Ideal) ℓ) (ρ : Dev nD → PrngReg)

namespace Message

/-! ## The take of a table's rows at a list of node words, read at one entry -/

/-- A node word as the take wraps it: a negative word is moved up by the number of rows. -/
abbrev wrapW (r : IVec S1703936 32) : IVec S1703936 32 :=
  select (cmpi .slt r (broadcastInDim S1703936 ![] Facts₀.bcast_S_S1703936 (constantI S_ 32 0#32)))
    (addi r (broadcastInDim S1703936 ![] Facts₀.bcast_S_S1703936 (constantI S_ 32 100000#32))) r

/-- A word that is not negative is left as it is. -/
theorem wrapW_apply (r : IVec S1703936 32) (e : Fin 1703936) (h0 : 0 ≤ (r (ix1 e)).toInt) :
    wrapW r (ix1 e) = r (ix1 e) := by
  unfold wrapW
  exact select_slt_zero_of_nonneg r _ r (ix1 e) h0

/-- The wrapped words as a column of start indices. -/
abbrev idxCol (r : IVec S1703936 32) : IVec S1703936x1 32 :=
  broadcastInDim S1703936x1 ![0] Facts₀.bcast_S1703936_S1703936x1_0 (wrapW r)

theorem idxCol_apply (r : IVec S1703936 32) (e : Fin 1703936) (h0 : 0 ≤ (r (ix1 e)).toInt) :
    idxCol r (ix2 e (0 : Fin 1)) = r (ix1 e) := by
  unfold idxCol
  refine (broadcastInDim_apply _ _ _ (ix2 e (0 : Fin 1)) (ix1 e) ?_).trans (wrapW_apply r e h0)
  intro a
  match a with
  | ⟨0, _⟩ => rfl

/-- The two range tests of a word in range, and the unit they are folded from, are all the bit one. -/
theorem inRange_bits (x : BitVec 32) (h0 : 0 ≤ x.toInt) (h1 : x.toInt < 100000) :
    IntOp.andi (IntOp.andi (IntOp.cmpi .sge x 0#32) (IntOp.cmpi .sle x 99999#32)) 1#1 = 1#1 := by
  have a : IntOp.cmpi .sge x 0#32 = 1#1 := by
    show BitVec.ofBool ((0#32 : BitVec 32).sle x) = 1#1
    rw [StableHlo.Predicate.ofBool_eq_one_iff]
    simp only [BitVec.sle, BitVec.toInt_zero, decide_eq_true_eq]
    exact h0
  have b : IntOp.cmpi .sle x 99999#32 = 1#1 := by
    show BitVec.ofBool (x.sle 99999#32) = 1#1
    rw [StableHlo.Predicate.ofBool_eq_one_iff]
    have h9 : (99999#32 : BitVec 32).toInt = 99999 := by decide
    simp only [BitVec.sle, decide_eq_true_eq, h9]
    omega
  rw [a, b]
  rfl

/-- The mask of the take: per word, "the wrapped word is a row number", folded by conjunction over the one start-index
    component. -/
abbrev inMask (r : IVec S1703936 32) : IVec S1703936 1 :=
  Host.reduce IntOp.andi
    (andi (cmpi .sge (idxCol r) (broadcastInDim S1703936x1 ![] Facts₀.bcast_S_S1703936x1 (constantI S_ 32 0#32)))
      (cmpi .sle (idxCol r) (broadcastInDim S1703936x1 ![0, 1] Facts₀.bcast_S1x1_S1703936x1_0_1
        (broadcastInDim S1x1 ![1] Facts₀.bcast_S1_S1x1_1 (constantI S1 32 99999#32)))))
    (constantI S_ 1 1#1) Facts₀.reducesTo_S1703936x1_S1703936_d1 Facts₀.h_S_

theorem reduces_col : S1703936x1.Reduces [1] S1703936 := by decide

theorem lift_col (e : Fin 1703936) (k : Fin (S1703936x1.size 1)) : reduces_col.lift (ix1 e) k = ix2 e (0 : Fin 1) := by
  funext a
  apply Fin.ext
  match a with
  | ⟨0, _⟩ => rfl
  | ⟨1, _⟩ => exact Nat.lt_one_iff.mp k.isLt

/-- A fold over an index set of one element is one application of the operation. -/
theorem fold_fin_one {α : Type} (n : Nat) (hn : n = 1) (f : α → α → α) [Std.Commutative f] [Std.Associative f] (b : α)
    (g : Fin n → α) : (Finset.univ : Finset (Fin n)).fold f b g = f (g ⟨0, by omega⟩) b := by
  subst hn
  rw [Finset.univ_unique, Finset.fold_singleton]
  rfl

/-- A word in range has mask bit one. -/
theorem inMask_apply (r : IVec S1703936 32) (e : Fin 1703936) (h0 : 0 ≤ (r (ix1 e)).toInt) (h1 : (r (ix1 e)).toInt < 100000) :
    inMask r (ix1 e) = 1#1 := by
  unfold inMask
  rw [Host.reduce_eq_fold_single IntOp.andi _ _ Facts₀.reducesTo_S1703936x1_S1703936_d1 reduces_col Facts₀.h_S_ (ix1 e)]
  refine (fold_fin_one (S1703936x1.size 1) rfl _ _ _).trans ?_
  rw [Function.comp_apply, lift_col]
  show IntOp.andi (IntOp.andi (IntOp.cmpi .sge (idxCol r (ix2 e (0 : Fin 1))) 0#32) (IntOp.cmpi .sle (idxCol r (ix2 e (0 : Fin 1))) 99999#32)) 1#1 = 1#1
  rw [idxCol_apply r e h0]
  exact inRange_bits _ h0 h1

/-- THE TAKE AT ONE ENTRY, the word in range: the mask bit is one, so the select keeps the gathered row, and the gather's
    clamp of a word in range is the row the word names. Stated for any number of columns. -/
theorem take_rows_apply {K : Nat}
    (wf : GatherDims.WF (⟨2, ![100000, K]⟩ : Shape) S1703936x1 (⟨2, ![1703936, K]⟩ : Shape) [1] [0] [] [0] [] 1 ![1, K])
    (bm : S1703936.BroadcastsInDim (⟨2, ![1703936, K]⟩ : Shape) ![0])
    (bn : S_.BroadcastsInDim (⟨2, ![1703936, K]⟩ : Shape) ![])
    (A : FVec Ideal (⟨2, ![100000, K]⟩ : Shape) .f32) (r : IVec S1703936 32) (e : Fin 1703936) (j : Fin K)
    (h0 : 0 ≤ (r (ix1 e)).toInt) (h1 : (r (ix1 e)).toInt < 100000) :
    select (broadcastInDim (⟨2, ![1703936, K]⟩ : Shape) ![0] bm (inMask r))
      (Host.gather (LibGatherRows.rowsDims wf) A (idxCol r))
      (broadcastInDim (⟨2, ![1703936, K]⟩ : Shape) ![] bn (constant (F := Ideal) S_ .f32 0x7FC00000#32)) (ix2 e j)
      = A (ix2 (Gcn.rowOf (r (ix1 e))) j) := by
  rw [select_apply, broadcastInDim_apply _ _ _ (ix2 e j) (ix1 e) (fun a => by match a with | ⟨0, _⟩ => rfl),
    inMask_apply r e h0 h1, select_one, LibGatherRows.gather_rows_apply (by decide) wf A (idxCol r) e j]
  refine congrArg (fun n : Fin 100000 => A (ix2 n j)) (Fin.ext ?_)
  show min (idxCol r (ix2 e (0 : Fin 1))).toInt.toNat (100000 - 1) = min (r (ix1 e)).toInt.toNat 99999
  rw [idxCol_apply r e h0]

/-- The first take's result, as the host operations compute it from the table and the words. -/
abbrev take128 (A : FVec Ideal S100000x128 .f32) (r : IVec S1703936 32) : FVec Ideal S1703936x128 .f32 :=
  select (broadcastInDim S1703936x128 ![0] Facts₀.bcast_S1703936_S1703936x128_0 (inMask r))
    (Host.gather gather_S100000x128_S1703936x1_S1703936x128_1_0_n_n_0_1_1128 A (idxCol r))
    (broadcastInDim S1703936x128 ![] Facts₀.bcast_S_S1703936x128 (constant (F := Ideal) S_ .f32 0x7FC00000#32))

theorem take128_apply (A : FVec Ideal S100000x128 .f32) (r : IVec S1703936 32) (e : Fin 1703936) (j : Fin 128)
    (h0 : 0 ≤ (r (ix1 e)).toInt) (h1 : (r (ix1 e)).toInt < 100000) :
    take128 A r (ix2 e j) = A (ix2 (Gcn.rowOf (r (ix1 e))) j) :=
  take_rows_apply Facts₀.gather_S100000x128_S1703936x1_S1703936x128_1_0_n_n_0_1_1128_wf
    Facts₀.bcast_S1703936_S1703936x128_0 Facts₀.bcast_S_S1703936x128 A r e j h0 h1

/-- The second take's result, as the host operations compute it from the table and the words. -/
abbrev take40 (A : FVec Ideal S100000x40 .f32) (r : IVec S1703936 32) : FVec Ideal S1703936x40 .f32 :=
  select (broadcastInDim S1703936x40 ![0] Facts₀.bcast_S1703936_S1703936x40_0 (inMask r))
    (Host.gather gather_S100000x40_S1703936x1_S1703936x40_1_0_n_n_0_1_140 A (idxCol r))
    (broadcastInDim S1703936x40 ![] Facts₀.bcast_S_S1703936x40 (constant (F := Ideal) S_ .f32 0x7FC00000#32))

theorem take40_apply (A : FVec Ideal S100000x40 .f32) (r : IVec S1703936 32) (e : Fin 1703936) (j : Fin 40)
    (h0 : 0 ≤ (r (ix1 e)).toInt) (h1 : (r (ix1 e)).toInt < 100000) :
    take40 A r (ix2 e j) = A (ix2 (Gcn.rowOf (r (ix1 e))) j) :=
  take_rows_apply Facts₀.gather_S100000x40_S1703936x1_S1703936x40_1_0_n_n_0_1_140_wf
    Facts₀.bcast_S1703936_S1703936x40_0 Facts₀.bcast_S_S1703936x40 A r e j h0 h1

/-- Contents carried to a buffer's own type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

/-- The padded source words, the dense product's table and the first take's result, as typed references. -/
abbrev x33 : StableHlo.TRef sig ⟨S1703936, .i32⟩ := .of main_v33
abbrev x37 : StableHlo.TRef sig ⟨S100000x128, .f32⟩ := .of main_v37
abbrev x38 : StableHlo.TRef sig ⟨S1703936x128, .f32⟩ := .of main_v38

theorem ofBuf_x33 (w : IVec S1703936 32) : (x33.ofBuf (Val := Elt Ideal) w : IVec S1703936 32) = w := rfl
theorem ofBuf_x37 (w : FVec Ideal S100000x128 .f32) : (x37.ofBuf (Val := Elt Ideal) w : FVec Ideal S100000x128 .f32) = w := rfl
theorem toBuf_x38 (w : FVec Ideal S1703936x128 .f32) : (x38.toBuf (Val := Elt Ideal) w : FVec Ideal S1703936x128 .f32) = w := rfl

set_option maxHeartbeats 1000000 in
/-- The first take's 23 host operations over any contents: the result buffer holds the take of the table buffer at the
    word buffer (each read carried to its literal type). -/
theorem v38_raw (V : Valuation τ sig (Elt Ideal)) :
    StableHlo.after (hostOps1 (F := Ideal)) V (Proc.devRef .tc main_v38)
      = x38.toBuf (take128 (x37.ofBuf (V (Proc.devRef .tc main_v37))) (x33.ofBuf (V (Proc.devRef .tc main_v33)))) := by
  after_results
  simp only [ofBuf_toBuf]

theorem v38_gen (V : Valuation τ sig (Elt Ideal)) :
    (StableHlo.after (hostOps1 (F := Ideal)) V (Proc.devRef .tc main_v38) : FVec Ideal S1703936x128 .f32)
      = take128 (V (Proc.devRef .tc main_v37)) (V (Proc.devRef .tc main_v33)) := by
  have h := v38_raw V
  rw [ofBuf_x33, ofBuf_x37, toBuf_x38] at h
  exact h

/-- The array the first take leaves (at the entry of the first message kernel) is that take of the dense product's table at
    the padded source words. -/
theorem v38_eq (c : Dev nD) :
    (W11 (F := Ideal) m ρ c (Proc.devRef .tc main_v38) : FVec Ideal S1703936x128 .f32)
      = take128 (W10 (F := Ideal) m ρ c (Proc.devRef .tc main_v37)) (W10 (F := Ideal) m ρ c (Proc.devRef .tc main_v33)) :=
  v38_gen (W10 (F := Ideal) m ρ c)
/-- The second dense product's table and the second take's result, as typed references. -/
abbrev x54 : StableHlo.TRef sig ⟨S100000x40, .f32⟩ := .of main_v54
abbrev x55 : StableHlo.TRef sig ⟨S1703936x40, .f32⟩ := .of main_v55

theorem ofBuf_x54 (w : FVec Ideal S100000x40 .f32) : (x54.ofBuf (Val := Elt Ideal) w : FVec Ideal S100000x40 .f32) = w := rfl
theorem toBuf_x55 (w : FVec Ideal S1703936x40 .f32) : (x55.toBuf (Val := Elt Ideal) w : FVec Ideal S1703936x40 .f32) = w := rfl

set_option maxHeartbeats 1000000 in
/-- The second take's 23 host operations over any contents: the result buffer holds the take of the table buffer at the
    word buffer (each read carried to its literal type). -/
theorem v55_raw (V : Valuation τ sig (Elt Ideal)) :
    StableHlo.after (hostOps4 (F := Ideal)) V (Proc.devRef .tc main_v55)
      = x55.toBuf (take40 (x54.ofBuf (V (Proc.devRef .tc main_v54))) (x33.ofBuf (V (Proc.devRef .tc main_v33)))) := by
  after_results
  simp only [ofBuf_toBuf]

theorem v55_gen (V : Valuation τ sig (Elt Ideal)) :
    (StableHlo.after (hostOps4 (F := Ideal)) V (Proc.devRef .tc main_v55) : FVec Ideal S1703936x40 .f32)
      = take40 (V (Proc.devRef .tc main_v54)) (V (Proc.devRef .tc main_v33)) := by
  have h := v55_raw V
  rw [ofBuf_x33, ofBuf_x54, toBuf_x55] at h
  exact h

/-- The array the second take leaves (at the entry of the second message kernel) is that take of the second dense product's table at
    the padded source words. -/
theorem v55_eq (c : Dev nD) :
    (W16 (F := Ideal) m ρ c (Proc.devRef .tc main_v55) : FVec Ideal S1703936x40 .f32)
      = take40 (W15 (F := Ideal) m ρ c (Proc.devRef .tc main_v54)) (W15 (F := Ideal) m ρ c (Proc.devRef .tc main_v33)) :=
  v55_gen (W15 (F := Ideal) m ρ c)

/-! ## The first message kernel: the array it leaves, as one function of the arrays it reads -/

section Region1
variable (V : (c : Dev nD) → (b : Ref sig .tc) → Buf (Elt Ideal) ((c.tc : Thread nD τ).loc b))

theorem hz2 : (![0, 0] : Fin 2 → Nat) = fun _ => 0 := funext fun a => by fin_cases a <;> rfl

/-- What the message kernel computes, as one function of the whole arrays: each row of the first times the row's entry of
    the one-column second. -/
abbrev msgG128 (a0 : FVec Ideal S1703936x128 .f32) (a1 : FVec Ideal S1703936x1 .f32) : FVec Ideal S1703936x128 .f32 :=
  fun i => a0 i * a1 (ix2 (⟨(i 0).val, idx2_lt0 i⟩ : Fin 1703936) (0 : Fin 1))

/-- That function at an entry. -/
theorem msgG128_apply (a0 : FVec Ideal S1703936x128 .f32) (a1 : FVec Ideal S1703936x1 .f32) (e : Fin 1703936) (j : Fin 128) :
    msgG128 a0 a1 (ix2 e j) = a0 (ix2 e j) * a1 (ix2 e (0 : Fin 1)) := rfl

/-- The body's payload at an entry of the block: the rows block's entry times the column block's entry of that row. -/
theorem pay1_apply (x0 : Vec Ideal S8192x128 .f32) (x1 : Vec Ideal S8192x1 .f32) (y : S8192x128.Idx) :
    k1_pay1 x0 x1 y = x0 y * x1 (ix2 (⟨(y 0).val, idx2_lt0 y⟩ : Fin 8192) (0 : Fin 1)) := by
  obtain ⟨p, q, rfl⟩ : ∃ (p : Fin 8192) (q : Fin 128), y = ix2 p q := ⟨y 0, y 1, eq_ix2 y⟩
  unfold k1_pay1
  show shapeCast S8192x128 x0 _ (ix2 p q) * broadcastTo S8192x128 (shapeCast S8192x1 x1 _) _ (ix2 p q) = _
  rw [shapeCast_self, shapeCast_self]
  rw [broadcastTo_apply x1 _ (ix2 p q) (ix2 p (0 : Fin 1)) (fun a => by match a with | ⟨0, _⟩ => rfl | ⟨1, _⟩ => rfl)]

/-- The three windows walk the rows together: at point t each is at block t of the rows and block 0 of the columns. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the one function of the arrays as the region finds them. -/
theorem flushed1_eq (c : Dev nD) (t : Fin cfg1.N) :
    (dat1 V c).flushed 2 t = ((cfg1.win 2).blk t).view.read (Elt Ideal) (msgG128 (V c main_v38) (V c main_v36)) := by
  show (cfg1.win 2).cut (grid1.coords t) ((dat1 V c).after 2 t) = _
  rw [after1_2]
  unfold out1_2
  rw [View.canon_unit_zero hz2]
  simp only [View.ld_unit_zero (S := S8192x128) hz2, View.ld_unit_zero (S := S8192x1) hz2]
  obtain ⟨e0, e1, e2, e3, e4, e5⟩ := idx_facts1 t
  funext y
  refine (pay1_apply _ _ y).trans ?_
  have h0 : ((cfg1.win 0).blk t).view.emb y = ((cfg1.win 2).blk t).view.emb y := by
    funext a; apply Fin.ext
    match a with
    | ⟨0, _⟩ => show win1_0.index t (0 : Fin 2) * 8192 + 1 * (y 0).val = win1_2.index t (0 : Fin 2) * 8192 + 1 * (y 0).val; omega
    | ⟨1, _⟩ => show win1_0.index t (1 : Fin 2) * 128 + 1 * (y 1).val = win1_2.index t (1 : Fin 2) * 128 + 1 * (y 1).val; omega
  have h1 : ((cfg1.win 1).blk t).view.emb (ix2 (⟨(y 0).val, (y 0).isLt⟩ : Fin 8192) (0 : Fin 1))
      = ix2 (⟨((((cfg1.win 2).blk t).view.emb y) 0).val, ((((cfg1.win 2).blk t).view.emb y) 0).isLt⟩ : Fin 1703936) (0 : Fin 1) := by
    funext a; apply Fin.ext
    match a with
    | ⟨0, _⟩ => show win1_1.index t (0 : Fin 2) * 8192 + 1 * (y 0).val = win1_2.index t (0 : Fin 2) * 8192 + 1 * (y 0).val; omega
    | ⟨1, _⟩ => show win1_1.index t (1 : Fin 2) * 1 + 1 * 0 = 0; omega
  exact congrArg₂ (· * ·) (congrArg (V c main_v38) h0) (congrArg (V c main_v36) h1)

/-- An index of the array is in point t's block iff each coordinate is in the block's range on its axis. -/
theorem mem_blk1 (t : Fin cfg1.N) (i : S1703936x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v39).slice (win1_2.rect t)).set ↔ _
  rw [View.set_slice_whole, Rect.mem_set_unit]
  exact Iff.rfl

/-- Every row is in the block of the point its number divided by the block height names. -/
theorem cover1 (i : S1703936x128.Idx) :
    ∃ t : Fin cfg1.N, (cfg1.win 2).flush t = true ∧ i ∈ ((cfg1.win 2).blk t).view.set := by
  have hi0 : (i 0).val < 1703936 := (i 0).isLt
  have hi1 : (i 1).val < 128 := (i 1).isLt
  obtain ⟨t, ht⟩ : ∃ t : Fin cfg1.N, t.val = (i 0).val / 8192 :=
    ⟨⟨(i 0).val / 8192, by show (i 0).val / 8192 < 208; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 128 ≤ (i 1).val ∧ (i 1).val < win1_2.index t (1 : Fin 2) * 128 + 128; omega

/-- The array the first message kernel leaves: the one function of the arrays it found. -/
theorem final1 (c : Dev nD) : (dat1 V c).arrAt 2 cfg1.N = msgG128 (V c main_v38) (V c main_v36) :=
  (dat1 V c).arrAt_eq_of_cover 2 (msgG128 (V c main_v38) (V c main_v36)) (fun t _ => flushed1_eq V c t) cover1

end Region1

/-! ## The second message kernel: the array it leaves, as one function of the arrays it reads -/

section Region4
variable (V : (c : Dev nD) → (b : Ref sig .tc) → Buf (Elt Ideal) ((c.tc : Thread nD τ).loc b))

/-- What the message kernel computes, as one function of the whole arrays: each row of the first times the row's entry of
    the one-column second. -/
abbrev msgG40 (a0 : FVec Ideal S1703936x40 .f32) (a1 : FVec Ideal S1703936x1 .f32) : FVec Ideal S1703936x40 .f32 :=
  fun i => a0 i * a1 (ix2 (⟨(i 0).val, idx2_lt0 i⟩ : Fin 1703936) (0 : Fin 1))

/-- That function at an entry. -/
theorem msgG40_apply (a0 : FVec Ideal S1703936x40 .f32) (a1 : FVec Ideal S1703936x1 .f32) (e : Fin 1703936) (j : Fin 40) :
    msgG40 a0 a1 (ix2 e j) = a0 (ix2 e j) * a1 (ix2 e (0 : Fin 1)) := rfl

/-- The body's payload at an entry of the block: the rows block's entry times the column block's entry of that row. -/
theorem pay4_apply (x0 : Vec Ideal S8192x40 .f32) (x1 : Vec Ideal S8192x1 .f32) (y : S8192x40.Idx) :
    k4_pay1 x0 x1 y = x0 y * x1 (ix2 (⟨(y 0).val, idx2_lt0 y⟩ : Fin 8192) (0 : Fin 1)) := by
  obtain ⟨p, q, rfl⟩ : ∃ (p : Fin 8192) (q : Fin 40), y = ix2 p q := ⟨y 0, y 1, eq_ix2 y⟩
  unfold k4_pay1
  show shapeCast S8192x40 x0 _ (ix2 p q) * broadcastTo S8192x40 (shapeCast S8192x1 x1 _) _ (ix2 p q) = _
  rw [shapeCast_self, shapeCast_self]
  rw [broadcastTo_apply x1 _ (ix2 p q) (ix2 p (0 : Fin 1)) (fun a => by match a with | ⟨0, _⟩ => rfl | ⟨1, _⟩ => rfl)]

/-- The three windows walk the rows together: at point t each is at block t of the rows and block 0 of the columns. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the one function of the arrays as the region finds them. -/
theorem flushed4_eq (c : Dev nD) (t : Fin cfg4.N) :
    (dat4 V c).flushed 2 t = ((cfg4.win 2).blk t).view.read (Elt Ideal) (msgG40 (V c main_v55) (V c main_v36)) := by
  show (cfg4.win 2).cut (grid4.coords t) ((dat4 V c).after 2 t) = _
  rw [after4_2]
  unfold out4_2
  rw [View.canon_unit_zero hz2]
  simp only [View.ld_unit_zero (S := S8192x40) hz2, View.ld_unit_zero (S := S8192x1) hz2]
  obtain ⟨e0, e1, e2, e3, e4, e5⟩ := idx_facts4 t
  funext y
  refine (pay4_apply _ _ y).trans ?_
  have h0 : ((cfg4.win 0).blk t).view.emb y = ((cfg4.win 2).blk t).view.emb y := by
    funext a; apply Fin.ext
    match a with
    | ⟨0, _⟩ => show win4_0.index t (0 : Fin 2) * 8192 + 1 * (y 0).val = win4_2.index t (0 : Fin 2) * 8192 + 1 * (y 0).val; omega
    | ⟨1, _⟩ => show win4_0.index t (1 : Fin 2) * 40 + 1 * (y 1).val = win4_2.index t (1 : Fin 2) * 40 + 1 * (y 1).val; omega
  have h1 : ((cfg4.win 1).blk t).view.emb (ix2 (⟨(y 0).val, (y 0).isLt⟩ : Fin 8192) (0 : Fin 1))
      = ix2 (⟨((((cfg4.win 2).blk t).view.emb y) 0).val, ((((cfg4.win 2).blk t).view.emb y) 0).isLt⟩ : Fin 1703936) (0 : Fin 1) := by
    funext a; apply Fin.ext
    match a with
    | ⟨0, _⟩ => show win4_1.index t (0 : Fin 2) * 8192 + 1 * (y 0).val = win4_2.index t (0 : Fin 2) * 8192 + 1 * (y 0).val; omega
    | ⟨1, _⟩ => show win4_1.index t (1 : Fin 2) * 1 + 1 * 0 = 0; omega
  exact congrArg₂ (· * ·) (congrArg (V c main_v55) h0) (congrArg (V c main_v36) h1)

/-- An index of the array is in point t's block iff each coordinate is in the block's range on its axis. -/
theorem mem_blk4 (t : Fin cfg4.N) (i : S1703936x40.Idx) :
    i ∈ ((cfg4.win 2).blk t).view.set ↔ ∀ a : Fin 2, win4_2.index t a * S8192x40.size a ≤ (i a).val ∧ (i a).val < win4_2.index t a * S8192x40.size a + S8192x40.size a := by
  show i ∈ ((View.whole main_v56).slice (win4_2.rect t)).set ↔ _
  rw [View.set_slice_whole, Rect.mem_set_unit]
  exact Iff.rfl

/-- Every row is in the block of the point its number divided by the block height names. -/
theorem cover4 (i : S1703936x40.Idx) :
    ∃ t : Fin cfg4.N, (cfg4.win 2).flush t = true ∧ i ∈ ((cfg4.win 2).blk t).view.set := by
  have hi0 : (i 0).val < 1703936 := (i 0).isLt
  have hi1 : (i 1).val < 40 := (i 1).isLt
  obtain ⟨t, ht⟩ : ∃ t : Fin cfg4.N, t.val = (i 0).val / 8192 :=
    ⟨⟨(i 0).val / 8192, by show (i 0).val / 8192 < 208; omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 8192 ≤ (i 0).val ∧ (i 0).val < win4_2.index t (0 : Fin 2) * 8192 + 8192; omega
  | ⟨1, _⟩ => show win4_2.index t (1 : Fin 2) * 40 ≤ (i 1).val ∧ (i 1).val < win4_2.index t (1 : Fin 2) * 40 + 40; omega

/-- The array the second message kernel leaves: the one function of the arrays it found. -/
theorem final4 (c : Dev nD) : (dat4 V c).arrAt 2 cfg4.N = msgG40 (V c main_v55) (V c main_v36) :=
  (dat4 V c).arrAt_eq_of_cover 2 (msgG40 (V c main_v55) (V c main_v36)) (fun t _ => flushed4_eq V c t) cover4

end Region4

/-! ## The buffers the takes and the message kernels read, walked back to where they are named -/

/-- A stretch of host operations leaves a buffer none of them writes as it was. -/
local macro "msg_host_skip " ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The padded source words are not written between their making and the first take. -/
theorem W10_v33 (c : Dev nD) :
    W10 (F := Ideal) m ρ c (Proc.devRef .tc main_v33) = W4 (F := Ideal) m ρ c (Proc.devRef .tc main_v33) :=
  calc W10 (F := Ideal) m ρ c (Proc.devRef .tc main_v33)
    _ = W9 (F := Ideal) m ρ c (Proc.devRef .tc main_v33) := W10_of_ne m ρ c main_v33 (by decide)
    _ = W8 (F := Ideal) m ρ c (Proc.devRef .tc main_v33) := by msg_host_skip hostOps0_8
    _ = W7 (F := Ideal) m ρ c (Proc.devRef .tc main_v33) := by msg_host_skip hostOps0_7
    _ = W6 (F := Ideal) m ρ c (Proc.devRef .tc main_v33) := by msg_host_skip hostOps0_6
    _ = W5 (F := Ideal) m ρ c (Proc.devRef .tc main_v33) := by msg_host_skip hostOps0_5
    _ = W4 (F := Ideal) m ρ c (Proc.devRef .tc main_v33) := by msg_host_skip hostOps0_4

/-- The padded weights column is not written between its making and the first message kernel. -/
theorem W11_v36 (c : Dev nD) :
    W11 (F := Ideal) m ρ c (Proc.devRef .tc main_v36) = W9 (F := Ideal) m ρ c (Proc.devRef .tc main_v36) :=
  calc W11 (F := Ideal) m ρ c (Proc.devRef .tc main_v36)
    _ = W10 (F := Ideal) m ρ c (Proc.devRef .tc main_v36) := by msg_host_skip hostOps1
    _ = W9 (F := Ideal) m ρ c (Proc.devRef .tc main_v36) := W10_of_ne m ρ c main_v36 (by decide)

/-- The padded source words are not written between the first take and the second. -/
theorem W15_v33 (c : Dev nD) :
    W15 (F := Ideal) m ρ c (Proc.devRef .tc main_v33) = W4 (F := Ideal) m ρ c (Proc.devRef .tc main_v33) :=
  calc W15 (F := Ideal) m ρ c (Proc.devRef .tc main_v33)
    _ = W14 (F := Ideal) m ρ c (Proc.devRef .tc main_v33) := W15_of_ne m ρ c main_v33 (by decide)
    _ = W13 (F := Ideal) m ρ c (Proc.devRef .tc main_v33) := W14_of_ne m ρ c main_v33 (by decide)
    _ = W12 (F := Ideal) m ρ c (Proc.devRef .tc main_v33) := by msg_host_skip hostOps2
    _ = W11 (F := Ideal) m ρ c (Proc.devRef .tc main_v33) := W12_of_ne m ρ c main_v33 (by decide)
    _ = W10 (F := Ideal) m ρ c (Proc.devRef .tc main_v33) := by msg_host_skip hostOps1
    _ = W4 (F := Ideal) m ρ c (Proc.devRef .tc main_v33) := W10_v33 m ρ c

/-- The padded weights column is not written between the first message kernel, which only reads it, and the second. -/
theorem W16_v36 (c : Dev nD) :
    W16 (F := Ideal) m ρ c (Proc.devRef .tc main_v36) = W9 (F := Ideal) m ρ c (Proc.devRef .tc main_v36) :=
  calc W16 (F := Ideal) m ρ c (Proc.devRef .tc main_v36)
    _ = W15 (F := Ideal) m ρ c (Proc.devRef .tc main_v36) := by msg_host_skip hostOps4
    _ = W14 (F := Ideal) m ρ c (Proc.devRef .tc main_v36) := W15_of_ne m ρ c main_v36 (by decide)
    _ = W13 (F := Ideal) m ρ c (Proc.devRef .tc main_v36) := W14_of_ne m ρ c main_v36 (by decide)
    _ = W12 (F := Ideal) m ρ c (Proc.devRef .tc main_v36) := by msg_host_skip hostOps2
    _ = W11 (F := Ideal) m ρ c (Proc.devRef .tc main_v36) :=
        (W12_arr m ρ c 1).trans (((dat1 (V11 m ρ) c).arrAt_in 1 rfl _).trans (A_eq1 (V11 m ρ) c 1))
    _ = W9 (F := Ideal) m ρ c (Proc.devRef .tc main_v36) := W11_v36 m ρ c

end Message

/-- The first message table: the taken row of xw1 times the edge's weight. -/
theorem msg1_eq (c : Dev nD) (e : Fin 1703936) (j : Fin 128) (h : InRange (srcP m ρ c e)) :
    msg1 m ρ c e j = xw1 m ρ c (Gcn.rowOf (srcP m ρ c e)) j * wgtP m ρ c e := by
  have hr : (W10 (F := Ideal) m ρ c (Proc.devRef .tc main_v33) : IVec S1703936 32) (ix1 e) = srcP m ρ c e :=
    congrFun (Message.W10_v33 m ρ c) (ix1 e)
  have h0 : 0 ≤ ((W10 (F := Ideal) m ρ c (Proc.devRef .tc main_v33) : IVec S1703936 32) (ix1 e)).toInt := by
    rw [hr]; exact h.1
  have h1 : ((W10 (F := Ideal) m ρ c (Proc.devRef .tc main_v33) : IVec S1703936 32) (ix1 e)).toInt < 100000 := by
    rw [hr]; exact h.2
  have hA : (W12 (F := Ideal) m ρ c (Proc.devRef .tc main_v39) : FVec Ideal S1703936x128 .f32)
      = Message.msgG128 (W11 (F := Ideal) m ρ c (Proc.devRef .tc main_v38)) (W11 (F := Ideal) m ρ c (Proc.devRef .tc main_v36)) :=
    (W12_arr m ρ c 2).trans (Message.final1 (V11 m ρ) c)
  unfold msg1
  rw [hA, Message.msgG128_apply, Message.v38_eq,
    Message.take128_apply (W10 (F := Ideal) m ρ c (Proc.devRef .tc main_v37)) (W10 (F := Ideal) m ρ c (Proc.devRef .tc main_v33)) e j h0 h1,
    hr, Message.W11_v36]
  rfl

/-- The second message table: the taken row of xw2 times the edge's weight. -/
theorem msg2_eq (c : Dev nD) (e : Fin 1703936) (j : Fin 40) (h : InRange (srcP m ρ c e)) :
    msg2 m ρ c e j = xw2 m ρ c (Gcn.rowOf (srcP m ρ c e)) j * wgtP m ρ c e := by
  have hr : (W15 (F := Ideal) m ρ c (Proc.devRef .tc main_v33) : IVec S1703936 32) (ix1 e) = srcP m ρ c e :=
    congrFun (Message.W15_v33 m ρ c) (ix1 e)
  have h0 : 0 ≤ ((W15 (F := Ideal) m ρ c (Proc.devRef .tc main_v33) : IVec S1703936 32) (ix1 e)).toInt := by
    rw [hr]; exact h.1
  have h1 : ((W15 (F := Ideal) m ρ c (Proc.devRef .tc main_v33) : IVec S1703936 32) (ix1 e)).toInt < 100000 := by
    rw [hr]; exact h.2
  have hA : (W17 (F := Ideal) m ρ c (Proc.devRef .tc main_v56) : FVec Ideal S1703936x40 .f32)
      = Message.msgG40 (W16 (F := Ideal) m ρ c (Proc.devRef .tc main_v55)) (W16 (F := Ideal) m ρ c (Proc.devRef .tc main_v36)) :=
    (W17_arr m ρ c 2).trans (Message.final4 (V16 m ρ) c)
  unfold msg2
  rw [hA, Message.msgG40_apply, Message.v55_eq,
    Message.take40_apply (W15 (F := Ideal) m ρ c (Proc.devRef .tc main_v54)) (W15 (F := Ideal) m ρ c (Proc.devRef .tc main_v33)) e j h0 h1,
    hr, Message.W16_v36]
  rfl

end Cert.KernelIdeal.KV
end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.ScatterSteps.lean ====
/-
  The two aggregations of the kernel program, and the padding of its edge list. The host scatter-adds the message table
  into a zero table by the padded target words: entry (n, j) is the sum of the messages (e, j) over the edges e whose
  target word reads n. The padded list agrees with the program's 1700000 edges on them and holds source 0, target 0 and
  weight 0 on the 3936 edges after them.

  Each fact is read in three moves. First, what a host stretch leaves in the buffer it writes, as a term over the
  stretch's entry contents (stated for any entry contents). Second, that term at an index: a pad at an index below the
  operand's length is the operand there and past it the padding value; a one-column reshape at (e, 0) is the vector at
  e; a scatter-add into the zero table by index words laid as one column is the plain sum of the update rows whose word
  reads the row. Third, a buffer that no operation and no grid kernel in between writes is carried unchanged from the
  boundary where it is named to the boundary where it is read.
-/
import proofs.«410440_j89008902243178_1_alg».proof.Proof.KVals
import proofs.«410440_j89008902243178_1_alg».proof.Proof.LibScatterSum
import Idealize.ShloMosaic.Lib.KernelVsHost

noncomputable section

namespace Cert.KernelIdeal.KV

open Idealize.ShloMosaic Idealize.ShloMosaic.ValueIdx Idealize.SL.Sem Cert.KernelIdeal Cert.KernelIdeal.Gen
open scoped BigOperators

variable (m : (ℓ : Loc nD τ sig) → Buf (Elt Ideal) ℓ) (ρ : Dev nD → PrngReg)

namespace Scatter

/-! ## What each host stretch leaves in the buffer it writes, over any entry contents -/

section Stretch
variable (V : Valuation τ sig (Elt Ideal))

/-- The padded source words: the pad of `%5` by a copy of the constant `%c_6`. -/
theorem v33_after :
    (StableHlo.after (hostOps0_3 (F := Ideal)) V (Proc.devRef .tc main_v33) : IVec S1703936 32)
      = pad S1703936 ![0] ![3936] ![0] (V (Proc.devRef .tc main_v5) : IVec S1700000 32)
          (V (Proc.devRef .tc main_c_6) : IVec S_ 32) pads_S1700000_S1703936_039360 h_S_ := by
  after_results
  rfl

/-- The padded target words: the pad of `%6` by a copy of the constant `%c_7`. -/
theorem v34_after :
    (StableHlo.after (hostOps0_5 (F := Ideal)) V (Proc.devRef .tc main_v34) : IVec S1703936 32)
      = pad S1703936 ![0] ![3936] ![0] (V (Proc.devRef .tc main_v6) : IVec S1700000 32)
          (V (Proc.devRef .tc main_c_7) : IVec S_ 32) pads_S1700000_S1703936_039360 h_S_ := by
  after_results
  rfl

/-- The padded weights: the pad of `%32` by the constant `%c_8` converted to a float. -/
theorem v35_after :
    (StableHlo.after (hostOps0_7 (F := Ideal)) V (Proc.devRef .tc main_v35) : FVec Ideal S1703936 .f32)
      = pad S1703936 ![0] ![3936] ![0] (V (Proc.devRef .tc main_v32) : FVec Ideal S1700000 .f32)
          (sitofp .f32 (V (Proc.devRef .tc main_c_8) : IVec S_ 32) : FVec Ideal S_ .f32) pads_S1700000_S1703936_039360 h_S_ := by
  after_results
  rfl

/-- The three padding constants are the integer 0. -/
theorem c6_after :
    (StableHlo.after (hostOps0_2 (F := Ideal)) V (Proc.devRef .tc main_c_6) : IVec S_ 32) = constantI S_ 32 0#32 := by
  after_results
theorem c7_after :
    (StableHlo.after (hostOps0_4 (F := Ideal)) V (Proc.devRef .tc main_c_7) : IVec S_ 32) = constantI S_ 32 0#32 := by
  after_results
theorem c8_after :
    (StableHlo.after (hostOps0_6 (F := Ideal)) V (Proc.devRef .tc main_c_8) : IVec S_ 32) = constantI S_ 32 0#32 := by
  after_results

/-- The padded weights as one column: the reshape of `%35`. -/
theorem v36_after :
    (StableHlo.after (hostOps0_8 (F := Ideal)) V (Proc.devRef .tc main_v36) : FVec Ideal S1703936x1 .f32)
      = shapeCast S1703936x1 (V (Proc.devRef .tc main_v35) : FVec Ideal S1703936 .f32) shapeCasts_S1703936_S1703936x1 := by
  after_results
  rfl

/-- The first aggregation: the scatter-add of `%39` into the zero table by the one-column copy of `%34`. -/
theorem v42_after :
    (StableHlo.after (hostOps2 (F := Ideal)) V (Proc.devRef .tc main_v42) : FVec Ideal S100000x128 .f32)
      = Host.scatterAdd scatter_S100000x128_S1703936x1_S1703936x128_1_0_0_1
          (broadcastInDim S100000x128 ![] bcast_S_S100000x128 (constant (F := Ideal) S_ .f32 0x00000000#32))
          (broadcastInDim S1703936x1 ![0] bcast_S1703936_S1703936x1_0 (V (Proc.devRef .tc main_v34) : IVec S1703936 32))
          (V (Proc.devRef .tc main_v39) : FVec Ideal S1703936x128 .f32) := by
  after_results

/-- The second aggregation: the scatter-add of `%56` into the zero table by the one-column copy of `%34`. -/
theorem v59_after :
    (StableHlo.after (hostOps5 (F := Ideal)) V (Proc.devRef .tc main_v59) : FVec Ideal S100000x40 .f32)
      = Host.scatterAdd scatter_S100000x40_S1703936x1_S1703936x40_1_0_0_1
          (broadcastInDim S100000x40 ![] bcast_S_S100000x40 (constant (F := Ideal) S_ .f32 0x00000000#32))
          (broadcastInDim S1703936x1 ![0] bcast_S1703936_S1703936x1_0 (V (Proc.devRef .tc main_v34) : IVec S1703936 32))
          (V (Proc.devRef .tc main_v56) : FVec Ideal S1703936x40 .f32) := by
  after_results

end Stretch

/-! ## The terms at an index -/

section Reads
variable {α : Type}

/-- The pad by 3936 entries after the end, at an index below the operand's length: the operand there. -/
theorem pad_lt (x : S1700000.Idx → α) (v : S_.Idx → α) (e : Fin 1700000) :
    pad S1703936 ![0] ![3936] ![0] x v pads_S1700000_S1703936_039360 h_S_ (ix1 (Fin.castLE (by decide) e : Fin 1703936))
      = x (ix1 e) :=
  pad_apply_of_inside _ _ _ x v pads_S1700000_S1703936_039360 h_S_ _ (ix1 e) (fun a => by
    have ha : a = 0 := Subsingleton.elim _ _
    subst ha
    show e.val = 0 + e.val * (0 + 1)
    omega)

/-- The same pad at an index from the operand's length on: the padding value. -/
theorem pad_ge (x : S1700000.Idx → α) (v : S_.Idx → α) (e : Fin 1703936) (h : 1700000 ≤ e.val) :
    pad S1703936 ![0] ![3936] ![0] x v pads_S1700000_S1703936_039360 h_S_ (ix1 e) = v (Shape.Idx.first h_S_) :=
  pad_apply_of_not_inside _ _ _ x v pads_S1700000_S1703936_039360 h_S_ _ (0 : Fin 1) (by
    intro hin
    have e3 : e.val / 1 < 1700000 := hin.2.2
    rw [Nat.div_one] at e3
    omega)

/-- A vector reshaped to one column, at `(e, 0)`: the vector at `e`. -/
theorem column_apply (x : S1703936.Idx → α) (e : Fin 1703936) :
    shapeCast S1703936x1 x shapeCasts_S1703936_S1703936x1 (ix2 e (0 : Fin 1)) = x (ix1 e) :=
  shapeCast_apply x _ _ (ix1 e) (by
    rw [Shape.rowMajor_val_one, Shape.rowMajor_val_two]
    show e.val = e.val * 1 + 0
    omega)

/-- A vector laid as one column by a broadcast, at `(e, 0)`: the vector at `e`. -/
theorem bcast_column_apply (x : S1703936.Idx → α) (e : Fin 1703936) :
    broadcastInDim S1703936x1 ![0] bcast_S1703936_S1703936x1_0 x (ix2 e (0 : Fin 1)) = x (ix1 e) :=
  broadcastInDim_apply _ _ x _ (ix1 e) (fun a => by
    have ha : a = 0 := Subsingleton.elim _ _
    subst ha
    rfl)

end Reads

/-- A scatter-add of 128-column update rows by one column of index words, at `(n, j)`: the operand's entry plus the
    sum of the updates `(e, j)` over the rows `e` whose word reads `n`. -/
theorem scatter_rows_128 (x : FVec Ideal S100000x128 .f32) (I : IVec S1703936x1 32) (upd : FVec Ideal S1703936x128 .f32)
    (n : Fin 100000) (j : Fin 128) :
    (Host.scatterAdd scatter_S100000x128_S1703936x1_S1703936x128_1_0_0_1 x I upd : FVec Ideal S100000x128 .f32) (ix2 n j)
      = x (ix2 n j) + ∑ e ∈ Finset.univ.filter (fun e : Fin 1703936 => (I (ix2 e (0 : Fin 1))).toInt = (n.val : ℤ)), upd (ix2 e j) := by
  show Ideal.hostScatterAdd scatter_S100000x128_S1703936x1_S1703936x128_1_0_0_1 x I upd (ix2 n j) = _
  exact Cert.LibScatterSum.scatterAdd_rows scatter_S100000x128_S1703936x1_S1703936x128_1_0_0_1_wf x I upd n j

/-- The same with 40-column update rows. -/
theorem scatter_rows_40 (x : FVec Ideal S100000x40 .f32) (I : IVec S1703936x1 32) (upd : FVec Ideal S1703936x40 .f32)
    (n : Fin 100000) (j : Fin 40) :
    (Host.scatterAdd scatter_S100000x40_S1703936x1_S1703936x40_1_0_0_1 x I upd : FVec Ideal S100000x40 .f32) (ix2 n j)
      = x (ix2 n j) + ∑ e ∈ Finset.univ.filter (fun e : Fin 1703936 => (I (ix2 e (0 : Fin 1))).toInt = (n.val : ℤ)), upd (ix2 e j) := by
  show Ideal.hostScatterAdd scatter_S100000x40_S1703936x1_S1703936x40_1_0_0_1 x I upd (ix2 n j) = _
  exact Cert.LibScatterSum.scatterAdd_rows scatter_S100000x40_S1703936x1_S1703936x40_1_0_0_1_wf x I upd n j

/-- An entry of the zero table. -/
theorem zero_table_128 (i : S100000x128.Idx) :
    broadcastInDim S100000x128 ![] bcast_S_S100000x128 (constant (F := Ideal) S_ .f32 0x00000000#32) i = (0 : EReal) :=
  Ideal.ofBits_zero_f32
theorem zero_table_40 (i : S100000x40.Idx) :
    broadcastInDim S100000x40 ![] bcast_S_S100000x40 (constant (F := Ideal) S_ .f32 0x00000000#32) i = (0 : EReal) :=
  Ideal.ofBits_zero_f32

/-- A scatter-add of 128-column update rows into the zero table, the index words laid as one column: entry `(n, j)`
    is the sum of the updates `(e, j)` over the rows `e` whose word reads `n`. -/
theorem scatter_zero_128 (idx : IVec S1703936 32) (upd : FVec Ideal S1703936x128 .f32) (n : Fin 100000) (j : Fin 128) :
    (Host.scatterAdd scatter_S100000x128_S1703936x1_S1703936x128_1_0_0_1
        (broadcastInDim S100000x128 ![] bcast_S_S100000x128 (constant (F := Ideal) S_ .f32 0x00000000#32))
        (broadcastInDim S1703936x1 ![0] bcast_S1703936_S1703936x1_0 idx) upd : FVec Ideal S100000x128 .f32) (ix2 n j)
      = ∑ e ∈ Finset.univ.filter (fun e : Fin 1703936 => (idx (ix1 e)).toInt = (n.val : ℤ)), upd (ix2 e j) := by
  rw [scatter_rows_128, zero_table_128, zero_add]
  refine Finset.sum_congr (Finset.filter_congr fun e _ => ?_) fun _ _ => rfl
  rw [bcast_column_apply]

/-- The same with 40-column update rows. -/
theorem scatter_zero_40 (idx : IVec S1703936 32) (upd : FVec Ideal S1703936x40 .f32) (n : Fin 100000) (j : Fin 40) :
    (Host.scatterAdd scatter_S100000x40_S1703936x1_S1703936x40_1_0_0_1
        (broadcastInDim S100000x40 ![] bcast_S_S100000x40 (constant (F := Ideal) S_ .f32 0x00000000#32))
        (broadcastInDim S1703936x1 ![0] bcast_S1703936_S1703936x1_0 idx) upd : FVec Ideal S100000x40 .f32) (ix2 n j)
      = ∑ e ∈ Finset.univ.filter (fun e : Fin 1703936 => (idx (ix1 e)).toInt = (n.val : ℤ)), upd (ix2 e j) := by
  rw [scatter_rows_40, zero_table_40, zero_add]
  refine Finset.sum_congr (Finset.filter_congr fun e _ => ?_) fun _ _ => rfl
  rw [bcast_column_apply]

/-! ## Buffers carried unchanged between boundaries -/

/-- A buffer that no operation of a host stretch writes holds after the stretch what it held before. -/
local macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The source words `%5` from the first stretch to the stretch that pads them. -/
theorem W3_v5 (c : Dev nD) : W3 m ρ c (Proc.devRef .tc main_v5) = W1 m ρ c (Proc.devRef .tc main_v5) :=
  calc W3 m ρ c (Proc.devRef .tc main_v5)
    _ = W2 m ρ c (Proc.devRef .tc main_v5) := by host_keeps hostOps0_2
    _ = W1 m ρ c (Proc.devRef .tc main_v5) := by host_keeps hostOps0_1

/-- The target words `%6` from the first stretch to the stretch that pads them. -/
theorem W5_v6 (c : Dev nD) : W5 m ρ c (Proc.devRef .tc main_v6) = W1 m ρ c (Proc.devRef .tc main_v6) :=
  calc W5 m ρ c (Proc.devRef .tc main_v6)
    _ = W4 m ρ c (Proc.devRef .tc main_v6) := by host_keeps hostOps0_4
    _ = W3 m ρ c (Proc.devRef .tc main_v6) := by host_keeps hostOps0_3
    _ = W2 m ρ c (Proc.devRef .tc main_v6) := by host_keeps hostOps0_2
    _ = W1 m ρ c (Proc.devRef .tc main_v6) := by host_keeps hostOps0_1

/-- The weights `%32` from the stretch that computes them to the stretch that pads them. -/
theorem W7_v32 (c : Dev nD) : W7 m ρ c (Proc.devRef .tc main_v32) = W3 m ρ c (Proc.devRef .tc main_v32) :=
  calc W7 m ρ c (Proc.devRef .tc main_v32)
    _ = W6 m ρ c (Proc.devRef .tc main_v32) := by host_keeps hostOps0_6
    _ = W5 m ρ c (Proc.devRef .tc main_v32) := by host_keeps hostOps0_5
    _ = W4 m ρ c (Proc.devRef .tc main_v32) := by host_keeps hostOps0_4
    _ = W3 m ρ c (Proc.devRef .tc main_v32) := by host_keeps hostOps0_3

/-- The padded target words `%34` from the stretch that pads them to the first aggregation. -/
theorem W12_v34 (c : Dev nD) : W12 m ρ c (Proc.devRef .tc main_v34) = W6 m ρ c (Proc.devRef .tc main_v34) :=
  calc W12 m ρ c (Proc.devRef .tc main_v34)
    _ = W11 m ρ c (Proc.devRef .tc main_v34) := W12_of_ne m ρ c main_v34 (by decide)
    _ = W10 m ρ c (Proc.devRef .tc main_v34) := by host_keeps hostOps1
    _ = W9 m ρ c (Proc.devRef .tc main_v34) := W10_of_ne m ρ c main_v34 (by decide)
    _ = W8 m ρ c (Proc.devRef .tc main_v34) := by host_keeps hostOps0_8
    _ = W7 m ρ c (Proc.devRef .tc main_v34) := by host_keeps hostOps0_7
    _ = W6 m ρ c (Proc.devRef .tc main_v34) := by host_keeps hostOps0_6

/-- … and on to the second aggregation. -/
theorem W17_v34 (c : Dev nD) : W17 m ρ c (Proc.devRef .tc main_v34) = W6 m ρ c (Proc.devRef .tc main_v34) :=
  calc W17 m ρ c (Proc.devRef .tc main_v34)
    _ = W16 m ρ c (Proc.devRef .tc main_v34) := W17_of_ne m ρ c main_v34 (by decide)
    _ = W15 m ρ c (Proc.devRef .tc main_v34) := by host_keeps hostOps4
    _ = W14 m ρ c (Proc.devRef .tc main_v34) := W15_of_ne m ρ c main_v34 (by decide)
    _ = W13 m ρ c (Proc.devRef .tc main_v34) := W14_of_ne m ρ c main_v34 (by decide)
    _ = W12 m ρ c (Proc.devRef .tc main_v34) := by host_keeps hostOps2
    _ = W6 m ρ c (Proc.devRef .tc main_v34) := W12_v34 m ρ c

end Scatter

open Scatter

/-! ## The statements -/

/-- The first aggregation at (n, j). -/
theorem agg1_eq (c : Dev nD) (n : Fin 100000) (j : Fin 128) :
    agg1 m ρ c n j
      = ∑ e ∈ Finset.univ.filter (fun e : Fin 1703936 => (dstP m ρ c e).toInt = (n.val : ℤ)), msg1 m ρ c e j := by
  refine (congrFun (v42_after (W12 m ρ c)) (ix2 n j)).trans ?_
  refine (scatter_zero_128 _ _ n j).trans ?_
  rw [W12_v34]
  rfl

/-- The second aggregation at (n, j). -/
theorem agg2_eq (c : Dev nD) (n : Fin 100000) (j : Fin 40) :
    agg2 m ρ c n j
      = ∑ e ∈ Finset.univ.filter (fun e : Fin 1703936 => (dstP m ρ c e).toInt = (n.val : ℤ)), msg2 m ρ c e j := by
  refine (congrFun (v59_after (W17 m ρ c)) (ix2 n j)).trans ?_
  refine (scatter_zero_40 _ _ n j).trans ?_
  rw [W17_v34]
  rfl

/-- On the program's own edges the padded source words are the source words. -/
theorem srcP_lt (c : Dev nD) (e : Fin 1700000) : srcP m ρ c (Fin.castLE (by decide) e) = srcK m ρ c e := by
  refine (congrFun (v33_after (W3 m ρ c)) _).trans ?_
  refine (pad_lt _ _ e).trans ?_
  exact congrFun (W3_v5 m ρ c) (ix1 e)
/-- Past them the padded source word is 0. -/
theorem srcP_ge (c : Dev nD) (e : Fin 1703936) (h : 1700000 ≤ e.val) : srcP m ρ c e = 0#32 := by
  refine (congrFun (v33_after (W3 m ρ c)) _).trans ?_
  refine (pad_ge _ _ e h).trans ?_
  exact congrFun (c6_after (W2 m ρ c)) _
/-- On the program's own edges the padded target words are the target words. -/
theorem dstP_lt (c : Dev nD) (e : Fin 1700000) : dstP m ρ c (Fin.castLE (by decide) e) = dstK m ρ c e := by
  refine (congrFun (v34_after (W5 m ρ c)) _).trans ?_
  refine (pad_lt _ _ e).trans ?_
  exact congrFun (W5_v6 m ρ c) (ix1 e)
/-- On the program's own edges the padded weights are the weights. -/
theorem wgtP_lt (c : Dev nD) (e : Fin 1700000) : wgtP m ρ c (Fin.castLE (by decide) e) = wgtK m ρ c e := by
  refine (congrFun (v36_after (W8 m ρ c)) _).trans ?_
  refine (column_apply _ _).trans ?_
  refine (congrFun (v35_after (W7 m ρ c)) _).trans ?_
  refine (pad_lt _ _ e).trans ?_
  exact congrFun (W7_v32 m ρ c) (ix1 e)
/-- Past them the padded weight is 0. -/
theorem wgtP_ge (c : Dev nD) (e : Fin 1703936) (h : 1700000 ≤ e.val) : wgtP m ρ c e = 0 := by
  refine (congrFun (v36_after (W8 m ρ c)) _).trans ?_
  refine (column_apply _ e).trans ?_
  refine (congrFun (v35_after (W7 m ρ c)) _).trans ?_
  refine (pad_ge _ _ e h).trans ?_
  have hc : (W7 m ρ c (Proc.devRef .tc main_c_8) : IVec S_ 32) = constantI S_ 32 0#32 := c8_after (W6 m ρ c)
  rw [hc]
  exact sitofp_zero (φ := .f32)

end Cert.KernelIdeal.KV

end
-- ==== Proof.ActivationSteps.lean ====
/-
  The two pointwise grid kernels of the kernel program: the hidden layer's activation (bias, scale by the attention
  weight, rectifier) and the output's row softmax after the bias, each over blocks of 10000 rows that tile the table.

  For each kernel: the body's arithmetic read at one element of a block; what a grid point writes back, as that point's
  block of ONE function of the arrays the region was entered with (for any entry contents); the ten blocks tile the
  100000 rows, so the output array ends at that function; and the small arrays the host prepared just before (the bias
  as one row, the scale as one entry) read back to the bias argument and to the softmax's one entry.
-/
import proofs.«410440_j89008902243178_1_alg».proof.Proof.KVals
import Idealize.ShloMosaic.Lib.Pipeline.Value
import Idealize.ShloMosaic.Lib.ValueLayout
import Idealize.ShloMosaic.PureOps.Ideal.Laws

noncomputable section

namespace Cert.KernelIdeal.KV

open Idealize.ShloMosaic Idealize.ShloMosaic.ValueIdx Idealize.SL.Sem Cert.KernelIdeal Cert.KernelIdeal.Gen
open Idealize.ShloMosaic.Pipeline (Dat)
open scoped BigOperators

variable (m : (ℓ : Loc nD τ sig) → Buf (Elt Ideal) ℓ) (ρ : Dev nD → PrngReg)

namespace Activation

/-! ## Grid kernel 2: the hidden activation -/

/-- Kernel 2's arithmetic at one element of a block: add the bias row, scale by the one-entry array, rectify. -/
theorem pay2_at (x0 : Vec Ideal S10000x128 .f32) (x1 : Vec Ideal S1x128 .f32) (x2 : Vec Ideal S1x1 .f32)
    (p : Fin 10000) (q : Fin 128) :
    k2_pay1 x0 x1 x2 (ix2 p q)
      = max ((x0 (ix2 p q) + x1 (ix2 (0 : Fin 1) q)) * x2 (ix2 (0 : Fin 1) (0 : Fin 1))) 0 := by
  unfold k2_pay1
  simp only [maximumf_apply, mulf_apply, addf_apply, broadcast_apply, shapeCast_self]
  rw [broadcastTo_apply x1 broadcasts_S1x128_S10000x128 (ix2 p q) (ix2 (0 : Fin 1) q)
    (fun a => by match a with | ⟨0, _⟩ => rfl | ⟨1, _⟩ => rfl)]
  have e : extractAt ![0, 0] x2 inpos_S1x1_p0_0 = x2 (ix2 (0 : Fin 1) (0 : Fin 1)) := by
    unfold extractAt
    exact congrArg x2 (funext fun a => by match a with | ⟨0, _⟩ => rfl | ⟨1, _⟩ => rfl)
  rw [e, Ideal.ofBits_def, Ideal.ofBits_zero_f32]

theorem hz : (![0, 0] : Fin 2 → Nat) = fun _ => 0 := funext fun a => by fin_cases a <;> rfl

/-- The hidden activation as one function of the three arrays kernel 2 reads. -/
def Ghid (a : S100000x128.Idx → EReal) (b : S1x128.Idx → EReal) (s : S1x1.Idx → EReal) : S100000x128.Idx → EReal :=
  fun i => max ((a i + b (ix2 (0 : Fin 1) ⟨(i 1).val, idx2_lt1 i⟩)) * s (ix2 (0 : Fin 1) (0 : Fin 1))) 0

/-- One element of what kernel 2 computes from three blocks is `Ghid` of the arrays at the matching array index, once
    each block's element is known to be its array's. -/
theorem hid_point (x0 : Vec Ideal S10000x128 .f32) (x1 : Vec Ideal S1x128 .f32) (x2 : Vec Ideal S1x1 .f32)
    (a : S100000x128.Idx → EReal) (b : S1x128.Idx → EReal) (s : S1x1.Idx → EReal)
    (p : Fin 10000) (q : Fin 128) (i : S100000x128.Idx)
    (h0 : x0 (ix2 p q) = a i)
    (h1 : x1 (ix2 (0 : Fin 1) q) = b (ix2 (0 : Fin 1) ⟨(i 1).val, idx2_lt1 i⟩))
    (h2 : x2 (ix2 (0 : Fin 1) (0 : Fin 1)) = s (ix2 (0 : Fin 1) (0 : Fin 1))) :
    k2_pay1 x0 x1 x2 (ix2 p q) = Ghid a b s i := by
  unfold Ghid
  rw [pay2_at, h0, h1, h2]

/-- Kernel 2's index maps over its ten grid points: the table window moves with the output window, block `t` at point
    `t`; the bias row and the scale are whole at every point. -/
theorem idx_facts2 : ∀ t : Fin cfg2.N, win2_0.index t (0 : Fin 2) = win2_3.index t (0 : Fin 2)
    ∧ win2_0.index t (1 : Fin 2) = win2_3.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- `Ghid` at coordinates. -/
theorem Ghid_ix2 (a : S100000x128.Idx → EReal) (b : S1x128.Idx → EReal) (s : S1x1.Idx → EReal) (n : Fin 100000) (j : Fin 128) :
    Ghid a b s (ix2 n j) = max ((a (ix2 n j) + b (ix2 (0 : Fin 1) j)) * s (ix2 (0 : Fin 1) (0 : Fin 1))) 0 := rfl

section AtAnyEntry
variable (V : (c : Dev nD) → (b : Ref sig .tc) → Buf (Elt Ideal) ((c.tc : Thread nD τ).loc b))

set_option maxHeartbeats 400000 in
/-- What grid point `t` of kernel 2 writes back is block `t` of `Ghid` of the arrays the region enters with. -/
theorem hid_flushed (c : Dev nD) (t : Fin cfg2.N) :
    (dat2 V c).flushed 3 t
      = ((cfg2.win 3).blk t).view.read (Elt Ideal) (Ghid (V c main_v42) (V c main_v51) (V c main_v52)) := by
  show (cfg2.win 3).cut (grid2.coords t) ((dat2 V c).after 3 t) = _
  rw [after2_3]
  unfold out2_3
  rw [View.canon_unit_zero hz]
  simp only [View.ld_unit_zero (S := S10000x128) hz, View.ld_unit_zero (S := S1x128) hz, View.ld_unit_zero (S := S1x1) hz]
  obtain ⟨e0, e1, e2, e3, e4, e5, e6, e7⟩ := idx_facts2 t
  funext j
  show k2_pay1 (iblk2 V c 0 t) (iblk2 V c 1 t) (iblk2 V c 2 t) j
      = Ghid (V c main_v42) (V c main_v51) (V c main_v52) (((cfg2.win 3).blk t).view.emb j)
  obtain ⟨p, q, rfl⟩ : ∃ (p : Fin 10000) (q : Fin 128), j = ix2 p q := ⟨j 0, j 1, eq_ix2 j⟩
  have h0 : ((cfg2.win 0).blk t).view.emb (ix2 p q) = ((cfg2.win 3).blk t).view.emb (ix2 p q) := by
    funext a; apply Fin.ext
    match a with
    | ⟨0, _⟩ => show win2_0.index t (0 : Fin 2) * 10000 + 1 * p.val = win2_3.index t (0 : Fin 2) * 10000 + 1 * p.val; omega
    | ⟨1, _⟩ => show win2_0.index t (1 : Fin 2) * 128 + 1 * q.val = win2_3.index t (1 : Fin 2) * 128 + 1 * q.val; omega
  have h1 : ((cfg2.win 1).blk t).view.emb (ix2 (0 : Fin 1) q)
      = ix2 (0 : Fin 1) ⟨((((cfg2.win 3).blk t).view.emb (ix2 p q)) 1).val, idx2_lt1 _⟩ := by
    funext a; apply Fin.ext
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have h2 : ((cfg2.win 2).blk t).view.emb (ix2 (0 : Fin 1) (0 : Fin 1)) = ix2 (0 : Fin 1) (0 : Fin 1) := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  refine hid_point _ _ _ _ _ _ p q _ ?_ ?_ ?_
  · show V c main_v42 (((cfg2.win 0).blk t).view.emb (ix2 p q)) = _
    rw [h0]
  · show V c main_v51 (((cfg2.win 1).blk t).view.emb (ix2 (0 : Fin 1) q)) = _
    rw [h1]
  · show V c main_v52 (((cfg2.win 2).blk t).view.emb (ix2 (0 : Fin 1) (0 : Fin 1))) = _
    rw [h2]

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v53).slice (win2_3.rect t)).set ↔ _
  rw [View.set_slice_whole, Rect.mem_set_unit]
  exact Iff.rfl

/-- The ten blocks of 10000 rows tile the 100000 rows: row `r` is in the block of point `r / 10000`. -/
theorem hid_cover (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 10 := N_2
  have ht : (i 0).val / 10000 < cfg2.N := by rw [hN]; omega
  obtain ⟨-, -, -, -, -, -, e6, e7⟩ := idx_facts2 ⟨(i 0).val / 10000, ht⟩
  refine ⟨⟨(i 0).val / 10000, ht⟩, flush2_3 _, ?_⟩
  rw [mem_blk2]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 128 ≤ (i 1).val
      ∧ (i 1).val < win2_3.index ⟨(i 0).val / 10000, ht⟩ (1 : Fin 2) * 128 + 128
    rw [e7]; omega

/-- So kernel 2 leaves its output array at `Ghid` of the arrays it was entered with. -/
theorem hid_final (c : Dev nD) :
    (dat2 V c).arrAt 3 cfg2.N = Ghid (V c main_v42) (V c main_v51) (V c main_v52) :=
  (dat2 V c).arrAt_eq_of_cover 3 (Ghid (V c main_v42) (V c main_v51) (V c main_v52)) (fun t _ => hid_flushed V c t) hid_cover

end AtAnyEntry

/-- The first layer's bias is never written: at region 1's exit it is as launched (the later boundaries keep it, and at
    the last one it is the launch contents). -/
theorem W12_arg5 (c : Dev nD) : W12 (F := Ideal) m ρ c (Proc.devRef .tc main_arg5) = m ((c.tc : Thread nD τ).loc main_arg5) :=
  calc W12 (F := Ideal) m ρ c (Proc.devRef .tc main_arg5)
    _ = W13 m ρ c (Proc.devRef .tc main_arg5) := (StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W14 m ρ c (Proc.devRef .tc main_arg5) := (W14_of_ne m ρ c main_arg5 (by decide)).symm
    _ = W15 m ρ c (Proc.devRef .tc main_arg5) := (W15_of_ne m ρ c main_arg5 (by decide)).symm
    _ = W16 m ρ c (Proc.devRef .tc main_arg5) := (StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W17 m ρ c (Proc.devRef .tc main_arg5) := (W17_of_ne m ρ c main_arg5 (by decide)).symm
    _ = W18 m ρ c (Proc.devRef .tc main_arg5) := (StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W19 m ρ c (Proc.devRef .tc main_arg5) := (W19_of_ne m ρ c main_arg5 (by decide)).symm
    _ = m ((c.tc : Thread nD τ).loc main_arg5) := W19_main_arg5 m ρ c

/-- The bias row kernel 2 reads is the bias, reshaped to one row by the host just before. -/
theorem V13_v51 (c : Dev nD) :
    (V13 (F := Ideal) m ρ c main_v51 : S1x128.Idx → EReal)
      = shapeCast S1x128 (W12 (F := Ideal) m ρ c (Proc.devRef .tc main_arg5) : S128.Idx → EReal) shapeCasts_S128_S1x128 := by
  show StableHlo.after hostOps2 (W12 (F := Ideal) m ρ c) (Proc.devRef .tc main_v51) = _
  after_results
  rfl

/-- The one-entry scale kernel 2 reads is the softmax's one entry, reshaped by the host just before. -/
theorem V13_v52 (c : Dev nD) :
    (V13 (F := Ideal) m ρ c main_v52 : S1x1.Idx → EReal)
      = shapeCast S1x1 (W13 (F := Ideal) m ρ c (Proc.devRef .tc main_v50) : S1.Idx → EReal) shapeCasts_S1_S1x1 := by
  show StableHlo.after hostOps2 (W12 (F := Ideal) m ρ c) (Proc.devRef .tc main_v52)
    = shapeCast S1x1 (StableHlo.after hostOps2 (W12 (F := Ideal) m ρ c) (Proc.devRef .tc main_v50) : S1.Idx → EReal) shapeCasts_S1_S1x1
  simp only [StableHlo.after_cons, StableHlo.after_nil]
  rw [StableHlo.reshape_result]
  repeat (rw [StableHlo.reshape_result_ne]; rotate_left; decide)
  rfl

/-- The bias row at column `j` is the bias's entry `j`. -/
theorem bias_at (c : Dev nD) (j : Fin 128) :
    (V13 (F := Ideal) m ρ c main_v51 : S1x128.Idx → EReal) (ix2 (0 : Fin 1) j) = argB1 m c j := by
  rw [V13_v51, shapeCast_apply _ shapeCasts_S128_S1x128 (ix2 (0 : Fin 1) j) (ix1 j)
    (by rw [Shape.rowMajor_val_one, Shape.rowMajor_val_two]; show j.val = 0 * 128 + j.val; omega), W12_arg5]
  rfl

/-- The one-entry scale is the softmax's one entry. -/
theorem scale_at (c : Dev nD) :
    (V13 (F := Ideal) m ρ c main_v52 : S1x1.Idx → EReal) (ix2 (0 : Fin 1) (0 : Fin 1)) = probK m ρ c := by
  rw [V13_v52, shapeCast_apply _ shapeCasts_S1_S1x1 (ix2 (0 : Fin 1) (0 : Fin 1)) (ix1 (0 : Fin 1))
    (by rw [Shape.rowMajor_val_one, Shape.rowMajor_val_two]; rfl)]
  rfl

end Activation

/-- Grid kernel 2 leaves the hidden activation of the first aggregation. -/
theorem hid_eq (c : Dev nD) (n : Fin 100000) (j : Fin 128) :
    hid m ρ c n j = Gcn.hidden (probK m ρ c) (agg1 m ρ c) (argB1 m c) n j := by
  have e : (W14 (F := Ideal) m ρ c (Proc.devRef .tc main_v53) : S100000x128.Idx → EReal)
      = Activation.Ghid (V13 m ρ c main_v42) (V13 m ρ c main_v51) (V13 m ρ c main_v52) :=
    (W14_arr m ρ c 3).trans (Activation.hid_final (V13 m ρ) c)
  unfold hid
  rw [e, Activation.Ghid_ix2, Activation.bias_at, Activation.scale_at]
  rfl

namespace Activation

/-! ## Grid kernel 5: the row softmax after the bias -/

/-- Adding the one-row bias to a block, at an element. -/
theorem bias_add_at (x0 : FVec Ideal S10000x40 .f32) (x1 : FVec Ideal S1x40 .f32) (p : Fin 10000) (k : Fin 40) :
    (addf x0 (broadcastTo S10000x40 x1 broadcasts_S1x40_S10000x40) : FVec Ideal S10000x40 .f32) (ix2 p k)
      = x0 (ix2 p k) + x1 (ix2 (0 : Fin 1) k) := by
  rw [addf_apply, broadcastTo_apply x1 broadcasts_S1x40_S10000x40 (ix2 p k) (ix2 (0 : Fin 1) k)
    (fun a => by match a with | ⟨0, _⟩ => rfl | ⟨1, _⟩ => rfl)]

/-- The word of −∞ reads the bottom of the extended reals. -/
theorem neg_inf_bits : FloatOps.ofBits (F := Ideal) .f32 0xFF800000#32 = (⊥ : EReal) := by
  simp [Ideal.ofBits, Ideal.ieee]

/-- The row maximum as the kernel's reduction takes it: the fold of `max` from −∞ over the row's 40 entries. -/
theorem rowmax_at (v : FVec Ideal S10000x40 .f32) (hφ : FKind.Formats .f32)
    (hacc : (0xFF800000#32 : BitVec 32) = 0xFF800000#32) (p : Fin 10000) :
    multiReduction .maximumf [1] S10000 v 0xFF800000#32 reduces_S10000x40_S10000 hφ hacc (ix1 p)
      = (Finset.univ : Finset (Fin 40)).fold max ⊥ (fun k => v (ix2 p k)) := by
  refine (Ideal.multiReduction_maximumf_single v 0xFF800000#32 reduces_S10000x40_S10000 hφ hacc (ix1 p)).trans ?_
  have hf : (v ∘ reduces_S10000x40_S10000.lift (ix1 p)) = fun k : Fin 40 => v (ix2 p k) := by
    funext k
    refine congrArg v (funext fun a => Fin.ext ?_)
    match a with
    | ⟨0, _⟩ => rfl
    | ⟨1, _⟩ => rfl
  rw [neg_inf_bits, hf]
  rfl

/-- The row sum as the kernel's reduction takes it. -/
theorem rowsum_at (v : FVec Ideal S10000x40 .f32) (hφ : FKind.Formats .f32)
    (hacc : (0x00000000#32 : BitVec 32) = 0x00000000#32) (p : Fin 10000) :
    multiReduction .add [1] S10000 v 0x00000000#32 reduces_S10000x40_S10000 hφ hacc (ix1 p)
      = ∑ k : Fin 40, v (ix2 p k) := by
  refine (Ideal.multiReduction_add_single v 0x00000000#32 reduces_S10000x40_S10000 hφ hacc (ix1 p)).trans ?_
  refine Finset.sum_congr rfl fun k _ => congrArg v (funext fun a => Fin.ext ?_)
  match a with
  | ⟨0, _⟩ => rfl
  | ⟨1, _⟩ => rfl

/-- A per-row value made a column and spread over the row's 40 entries reads the row's value. -/
theorem col_bcast_at (w : FVec Ideal S10000 .f32) (p : Fin 10000) (q : Fin 40) :
    (broadcastTo S10000x40 (shapeCast S10000x1 w shapeCasts_S10000_S10000x1) broadcasts_S10000x1_S10000x40
        : FVec Ideal S10000x40 .f32) (ix2 p q)
      = w (ix1 p) := by
  rw [broadcastTo_apply _ broadcasts_S10000x1_S10000x40 (ix2 p q) (ix2 p (0 : Fin 1))
    (fun a => by match a with | ⟨0, _⟩ => rfl | ⟨1, _⟩ => rfl),
    shapeCast_apply w shapeCasts_S10000_S10000x1 (ix2 p (0 : Fin 1)) (ix1 p)
      (by rw [Shape.rowMajor_val_one, Shape.rowMajor_val_two]; show p.val = p.val * 1 + 0; omega)]

/-- The row maximum taken once more against −∞, as both programs take it. -/
theorem rowmax2_at (v : FVec Ideal S10000x40 .f32) (hφ : FKind.Formats .f32)
    (hacc : (0xFF800000#32 : BitVec 32) = 0xFF800000#32) (p : Fin 10000) :
    (maximumf (broadcast S10000 (FloatOps.ofBits (F := Ideal) .f32 0xFF800000#32))
        (multiReduction .maximumf [1] S10000 v 0xFF800000#32 reduces_S10000x40_S10000 hφ hacc) : FVec Ideal S10000 .f32) (ix1 p)
      = Gcn.rowMax (fun k => v (ix2 p k)) := by
  rw [maximumf_apply, broadcast_apply, rowmax_at, neg_inf_bits]
  rfl

/-- Subtracting a per-row value and exponentiating, at an element. -/
theorem exp_sub_at (v : FVec Ideal S10000x40 .f32) (w : FVec Ideal S10000 .f32) (p : Fin 10000) (k : Fin 40) :
    (exp (subf v (broadcastTo S10000x40 (shapeCast S10000x1 w shapeCasts_S10000_S10000x1) broadcasts_S10000x1_S10000x40))
        : FVec Ideal S10000x40 .f32) (ix2 p k)
      = Ideal.exp (v (ix2 p k) - w (ix1 p)) := by
  show FloatOps.exp (v (ix2 p k) - (broadcastTo S10000x40 (shapeCast S10000x1 w shapeCasts_S10000_S10000x1)
      broadcasts_S10000x1_S10000x40 : FVec Ideal S10000x40 .f32) (ix2 p k)) = _
  rw [col_bcast_at]
  rfl

/-- Dividing by the row sum, at an element. -/
theorem div_rowsum_at (e : FVec Ideal S10000x40 .f32) (hφ : FKind.Formats .f32)
    (hacc : (0x00000000#32 : BitVec 32) = 0x00000000#32) (p : Fin 10000) (q : Fin 40) :
    (divf e (broadcastTo S10000x40 (shapeCast S10000x1
        (multiReduction .add [1] S10000 e 0x00000000#32 reduces_S10000x40_S10000 hφ hacc) shapeCasts_S10000_S10000x1)
        broadcasts_S10000x1_S10000x40) : FVec Ideal S10000x40 .f32) (ix2 p q)
      = Ideal.div (e (ix2 p q)) (∑ k : Fin 40, e (ix2 p k)) := by
  rw [divf_apply, col_bcast_at, rowsum_at]

/-- The softmax as the kernel spells it over a block `v`: subtract the row maximum, exponentiate, divide by the row sum. -/
theorem softmax_core (v : FVec Ideal S10000x40 .f32) (hφ : FKind.Formats .f32)
    (hmax : (0xFF800000#32 : BitVec 32) = 0xFF800000#32) (hadd : (0x00000000#32 : BitVec 32) = 0x00000000#32)
    (p : Fin 10000) (q : Fin 40) :
    (divf (exp (subf v (broadcastTo S10000x40 (shapeCast S10000x1 (maximumf (broadcast S10000 (FloatOps.ofBits (F := Ideal) .f32 0xFF800000#32))
          (multiReduction .maximumf [1] S10000 v 0xFF800000#32 reduces_S10000x40_S10000 hφ hmax) : FVec Ideal S10000 .f32) shapeCasts_S10000_S10000x1) broadcasts_S10000x1_S10000x40 : FVec Ideal S10000x40 .f32)) : FVec Ideal S10000x40 .f32)
      (broadcastTo S10000x40 (shapeCast S10000x1 (multiReduction .add [1] S10000 (exp (subf v (broadcastTo S10000x40 (shapeCast S10000x1 (maximumf (broadcast S10000 (FloatOps.ofBits (F := Ideal) .f32 0xFF800000#32))
          (multiReduction .maximumf [1] S10000 v 0xFF800000#32 reduces_S10000x40_S10000 hφ hmax) : FVec Ideal S10000 .f32) shapeCasts_S10000_S10000x1) broadcasts_S10000x1_S10000x40 : FVec Ideal S10000x40 .f32)) : FVec Ideal S10000x40 .f32) 0x00000000#32 reduces_S10000x40_S10000 hφ hadd) shapeCasts_S10000_S10000x1) broadcasts_S10000x1_S10000x40 : FVec Ideal S10000x40 .f32)
        : FVec Ideal S10000x40 .f32) (ix2 p q)
      = Gcn.softmaxRow (fun k => v (ix2 p k)) q := by
  refine (div_rowsum_at _ hφ hadd p q).trans ?_
  simp only [exp_sub_at]
  rw [rowmax2_at v hφ hmax p]
  rfl

/-- Kernel 5's arithmetic at one element of a block: the softmax, along the row, of the block's row plus the bias. -/
theorem pay5_at (x0 : Vec Ideal S10000x40 .f32) (x1 : Vec Ideal S1x40 .f32) (p : Fin 10000) (q : Fin 40) :
    k5_pay1 x0 x1 (ix2 p q) = Gcn.softmaxRow (fun k => x0 (ix2 p k) + x1 (ix2 (0 : Fin 1) k)) q := by
  unfold k5_pay1
  simp only [shapeCast_self]
  refine (softmax_core _ _ _ _ p q).trans ?_
  simp only [bias_add_at]

/-- The output as one function of the two arrays kernel 5 reads: each row's softmax of the row plus the bias. -/
def Gout (a : S100000x40.Idx → EReal) (b : S1x40.Idx → EReal) : S100000x40.Idx → EReal :=
  fun i => Gcn.softmaxRow (fun k : Fin 40 => a (ix2 (⟨(i 0).val, idx2_lt0 i⟩ : Fin 100000) k) + b (ix2 (0 : Fin 1) k))
    ⟨(i 1).val, idx2_lt1 i⟩

/-- `Gout` at coordinates. -/
theorem Gout_ix2 (a : S100000x40.Idx → EReal) (b : S1x40.Idx → EReal) (n : Fin 100000) (j : Fin 40) :
    Gout a b (ix2 n j) = Gcn.softmaxRow (fun k : Fin 40 => a (ix2 n k) + b (ix2 (0 : Fin 1) k)) j := rfl

/-- One element of what kernel 5 computes from two blocks is `Gout` of the arrays at the matching array index, once the
    block's row is known to be the array's row and the bias block the bias array. -/
theorem out_point (x0 : Vec Ideal S10000x40 .f32) (x1 : Vec Ideal S1x40 .f32)
    (a : S100000x40.Idx → EReal) (b : S1x40.Idx → EReal) (p : Fin 10000) (q : Fin 40) (i : S100000x40.Idx)
    (h0 : ∀ k : Fin 40, x0 (ix2 p k) = a (ix2 (⟨(i 0).val, idx2_lt0 i⟩ : Fin 100000) k))
    (h1 : ∀ k : Fin 40, x1 (ix2 (0 : Fin 1) k) = b (ix2 (0 : Fin 1) k))
    (hq : q = ⟨(i 1).val, idx2_lt1 i⟩) :
    k5_pay1 x0 x1 (ix2 p q) = Gout a b i := by
  unfold Gout
  rw [pay5_at, ← hq]
  simp only [h0, h1]

/-- Kernel 5's index maps over its ten grid points: the table window moves with the output window, block `t` at point
    `t`; the bias row is whole at every point. -/
theorem idx_facts5 : ∀ t : Fin cfg5.N, win5_0.index t (0 : Fin 2) = win5_2.index t (0 : Fin 2)
    ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section AtAnyEntry5
variable (V : (c : Dev nD) → (b : Ref sig .tc) → Buf (Elt Ideal) ((c.tc : Thread nD τ).loc b))

set_option maxHeartbeats 400000 in
/-- What grid point `t` of kernel 5 writes back is block `t` of `Gout` of the arrays the region enters with. -/
theorem out_flushed (c : Dev nD) (t : Fin cfg5.N) :
    (dat5 V c).flushed 2 t
      = ((cfg5.win 2).blk t).view.read (Elt Ideal) (Gout (V c main_v59) (V c main_v60)) := by
  show (cfg5.win 2).cut (grid5.coords t) ((dat5 V c).after 2 t) = _
  rw [after5_2]
  unfold out5_2
  rw [View.canon_unit_zero hz]
  simp only [View.ld_unit_zero (S := S10000x40) hz, View.ld_unit_zero (S := S1x40) hz]
  obtain ⟨e0, e1, e2, e3, e4, e5⟩ := idx_facts5 t
  funext j
  show k5_pay1 (iblk5 V c 0 t) (iblk5 V c 1 t) j
      = Gout (V c main_v59) (V c main_v60) (((cfg5.win 2).blk t).view.emb j)
  obtain ⟨p, q, rfl⟩ : ∃ (p : Fin 10000) (q : Fin 40), j = ix2 p q := ⟨j 0, j 1, eq_ix2 j⟩
  have h0 : ∀ k : Fin 40, ((cfg5.win 0).blk t).view.emb (ix2 p k)
      = ix2 (⟨((((cfg5.win 2).blk t).view.emb (ix2 p q)) 0).val, idx2_lt0 _⟩ : Fin 100000) k := by
    intro k; funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 40 + 1 * k.val = k.val; omega
  have h1 : ∀ k : Fin 40, ((cfg5.win 1).blk t).view.emb (ix2 (0 : Fin 1) k) = ix2 (0 : Fin 1) k := by
    intro k; funext a; apply Fin.ext
    match a with
    | ⟨0, _⟩ => show win5_1.index t (0 : Fin 2) * 1 + 1 * 0 = 0; omega
    | ⟨1, _⟩ => show win5_1.index t (1 : Fin 2) * 40 + 1 * k.val = k.val; omega
  refine out_point _ _ _ _ p q _ (fun k => ?_) (fun k => ?_) (Fin.ext ?_)
  · show V c main_v59 (((cfg5.win 0).blk t).view.emb (ix2 p k)) = _
    rw [h0 k]
  · show V c main_v60 (((cfg5.win 1).blk t).view.emb (ix2 (0 : Fin 1) k)) = _
    rw [h1 k]
  · show q.val = win5_2.index t (1 : Fin 2) * 40 + 1 * q.val
    omega

/-- An index of the output array is in point `t`'s block iff each coordinate is in the block's range on its axis. -/
theorem mem_blk5 (t : Fin cfg5.N) (i : S100000x40.Idx) :
    i ∈ ((cfg5.win 2).blk t).view.set ↔ ∀ a : Fin 2, win5_2.index t a * S10000x40.size a ≤ (i a).val
      ∧ (i a).val < win5_2.index t a * S10000x40.size a + S10000x40.size a := by
  show i ∈ ((View.whole main_v61).slice (win5_2.rect t)).set ↔ _
  rw [View.set_slice_whole, Rect.mem_set_unit]
  exact Iff.rfl

/-- The ten blocks of 10000 rows tile the 100000 rows: row `r` is in the block of point `r / 10000`. -/
theorem out_cover (i : S100000x40.Idx) :
    ∃ t : Fin cfg5.N, (cfg5.win 2).flush t = true ∧ i ∈ ((cfg5.win 2).blk t).view.set := by
  have hi0 : (i 0).val < 100000 := idx2_lt0 i
  have hi1 : (i 1).val < 40 := idx2_lt1 i
  have hN : cfg5.N = 10 := N_5
  have ht : (i 0).val / 10000 < cfg5.N := by rw [hN]; omega
  obtain ⟨-, -, -, -, e4, e5⟩ := idx_facts5 ⟨(i 0).val / 10000, ht⟩
  refine ⟨⟨(i 0).val / 10000, ht⟩, flush5_2 _, ?_⟩
  rw [mem_blk5]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 40 ≤ (i 1).val
      ∧ (i 1).val < win5_2.index ⟨(i 0).val / 10000, ht⟩ (1 : Fin 2) * 40 + 40
    rw [e5]; omega

/-- So kernel 5 leaves its output array at `Gout` of the arrays it was entered with. -/
theorem out_final (c : Dev nD) :
    (dat5 V c).arrAt 2 cfg5.N = Gout (V c main_v59) (V c main_v60) :=
  (dat5 V c).arrAt_eq_of_cover 2 (Gout (V c main_v59) (V c main_v60)) (fun t _ => out_flushed V c t) out_cover

end AtAnyEntry5

/-- The second layer's bias is never written: at region 4's exit it is as launched. -/
theorem W17_arg7 (c : Dev nD) : W17 (F := Ideal) m ρ c (Proc.devRef .tc main_arg7) = m ((c.tc : Thread nD τ).loc main_arg7) :=
  calc W17 (F := Ideal) m ρ c (Proc.devRef .tc main_arg7)
    _ = W18 m ρ c (Proc.devRef .tc main_arg7) := (StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W19 m ρ c (Proc.devRef .tc main_arg7) := (W19_of_ne m ρ c main_arg7 (by decide)).symm
    _ = m ((c.tc : Thread nD τ).loc main_arg7) := W19_main_arg7 m ρ c

/-- The bias row kernel 5 reads is the bias, reshaped to one row by the host just before. -/
theorem V18_v60 (c : Dev nD) :
    (V18 (F := Ideal) m ρ c main_v60 : S1x40.Idx → EReal)
      = shapeCast S1x40 (W17 (F := Ideal) m ρ c (Proc.devRef .tc main_arg7) : S40.Idx → EReal) shapeCasts_S40_S1x40 := by
  show StableHlo.after hostOps5 (W17 (F := Ideal) m ρ c) (Proc.devRef .tc main_v60) = _
  after_results
  rfl

/-- The bias row at column `k` is the bias's entry `k`. -/
theorem bias2_at (c : Dev nD) (k : Fin 40) :
    (V18 (F := Ideal) m ρ c main_v60 : S1x40.Idx → EReal) (ix2 (0 : Fin 1) k) = argB2 m c k := by
  rw [V18_v60, shapeCast_apply _ shapeCasts_S40_S1x40 (ix2 (0 : Fin 1) k) (ix1 k)
    (by rw [Shape.rowMajor_val_one, Shape.rowMajor_val_two]; show k.val = 0 * 40 + k.val; omega), W17_arg7]
  rfl

end Activation

/-- Grid kernel 5 leaves each row's softmax of the second aggregation plus the bias. -/
theorem outK_eq (c : Dev nD) (n : Fin 100000) (j : Fin 40) :
    outK m ρ c n j = Gcn.softmaxRow (fun k => agg2 m ρ c n k + argB2 m c k) j := by
  have e : (W19 (F := Ideal) m ρ c (Proc.devRef .tc main_v61) : S100000x40.Idx → EReal)
      = Activation.Gout (V18 m ρ c main_v59) (V18 m ρ c main_v60) :=
    (W19_arr m ρ c 2).trans (Activation.out_final (V18 m ρ) c)
  unfold outK
  rw [e, Activation.Gout_ix2]
  refine congrArg (fun z : Fin 40 → EReal => Gcn.softmaxRow z j) (funext fun k => ?_)
  exact congrArg (fun b : EReal => agg2 m ρ c n k + b) (Activation.bias2_at m ρ c k)

end Cert.KernelIdeal.KV

end
-- ==== Proof.EdgeRange.lean ====
/-
  Under the precondition every source word of the kernel program's 1700000 edges is a node number: the first 1600000 are
  the words of the edge array's first row, which the precondition bounds, and the other 100000 are the self-loops' words
  0, 1, …, 99999.
-/
import proofs.«410440_j89008902243178_1_alg».proof.Proof.KVals
import proofs.«410440_j89008902243178_1_alg».proof.Defs
import Idealize.ShloMosaic.Lib.ReduceAll
import Idealize.ShloMosaic.Lib.StableHlo.Predicate
import Idealize.ShloMosaic.Lib.Pipeline.Value

noncomputable section

namespace Cert.KernelIdeal.KV

open Idealize.ShloMosaic Idealize.ShloMosaic.ValueIdx Idealize.SL.Sem Cert.KernelIdeal Cert.KernelIdeal.Gen
open scoped BigOperators

variable (m : (ℓ : Loc nD τ sig) → Buf (Elt Ideal) ℓ) (ρ : Dev nD → PrngReg)

namespace EdgeRange

section Flat
variable {α : Type}

/-- A concatenation of two flat vectors at a position inside the first: the first vector there. -/
theorem concatFlat_left {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (e : Fin n) (hlt : e.val < n₁) :
    concatenate (⟨1, ![n]⟩ : Shape) 0 [⟨⟨1, ![n₁]⟩, x₁⟩, ⟨⟨1, ![n₂]⟩, x₂⟩] h (ix1 e) = x₁ (ix1 ⟨e.val, hlt⟩) := by
  refine concatenate_pair_apply_left 0 x₁ x₂ h (ix1 e) rfl _ ?_
  intro b; match b with | ⟨0, _⟩ => rfl

/-- A concatenation of two flat vectors at a position past the first: the second vector, the first's length less. -/
theorem concatFlat_right {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (e : Fin n) (hge : n₁ ≤ e.val)
    (h2 : e.val - n₁ < n₂) :
    concatenate (⟨1, ![n]⟩ : Shape) 0 [⟨⟨1, ![n₁]⟩, x₁⟩, ⟨⟨1, ![n₂]⟩, x₂⟩] h (ix1 e) = x₂ (ix1 ⟨e.val - n₁, h2⟩) := by
  refine concatenate_pair_apply_right 0 x₁ x₂ h (ix1 e) rfl rfl _ ?_ ?_
  · -- a flat vector has one axis, the concatenated one
    intro b hb
    have hb1 : b.val < 1 := b.isLt
    exact absurd (Fin.ext (by show b.val = 0; omega)) hb
  · show e.val - n₁ + n₁ = e.val
    omega

end Flat

/-- The first row of the edge array (the source words of the 1600000 given edges), as a flat vector. -/
abbrev edgeRow0 (x1 : IVec S2x1600000 32) : IVec S1600000 32 :=
  shapeCast S1600000 (extractStridedSlice S1x1600000 ![0, 0] x1 slices_S2x1600000_S1x1600000_0_0) shapeCasts_S1x1600000_S1600000

/-- The source words of the program's edge list: the edge array's first row followed by 0, 1, …, 99999. -/
theorem src_concat (c : Dev nD) :
    (W1 (F := Ideal) m ρ c (Proc.devRef .tc main_v5) : IVec S1700000 32)
      = concatenate S1700000 0 [⟨S1600000, edgeRow0 (m ((c.tc : Thread nD τ).loc main_arg1))⟩, ⟨S100000, iotaInDim S100000 32 0⟩]
          concatenates_S1600000_S100000_S1700000_d0 := by
  show StableHlo.after hostOps0 _ (Proc.devRef .tc main_v5) = _
  after_results
  rfl

/-- The precondition's last conjunct: every word of the edge array's first row reads, signed, as a number that is at
    least 0 and below 100000. The precondition is a conjunction of "all" tests; its last one is the conjunction over
    the row of the two signed comparisons 0 ≤ word and word < 100000. -/
theorem edgeRow0_inRange [hPre : Cert.Pre_finite_inputs.Facts] (hpre : Cert.Pre_KernelIdeal m) (c : Dev nD) (i : Fin 1600000) :
    InRange (edgeRow0 (m ((c.tc : Thread nD τ).loc main_arg1)) (ix1 i)) := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2] at h
  -- the last conjunct, then its element at i, then that element's two comparisons
  have h2 := (IntOp.andi_eq_one.1 h).2
  have h3 := Host.reduce_andi_all _ _ _ _ _ h2 (ix1 i)
  have h4 := IntOp.andi_eq_one.1 h3
  have h5 : IntOp.cmpi .sge (edgeRow0 (m ((c.tc : Thread nD τ).loc main_arg1)) (ix1 i)) 0#32 = 1#1 := h4.1
  have h6 : IntOp.cmpi .slt (edgeRow0 (m ((c.tc : Thread nD τ).loc main_arg1)) (ix1 i)) 100000#32 = 1#1 := h4.2
  rw [IntOp.cmpi_sge, show (0#32 : BitVec 32).toInt = 0 from by decide] at h5
  rw [IntOp.cmpi_slt, show (100000#32 : BitVec 32).toInt = 100000 from by decide] at h6
  exact ⟨h5, h6⟩

end EdgeRange

open EdgeRange in
/-- Every source word of the program's edge list is in range. -/
theorem srcK_inRange [hPre : Cert.Pre_finite_inputs.Facts] (hpre : Cert.Pre_KernelIdeal m) (c : Dev nD) (e : Fin 1700000) :
    InRange (srcK m ρ c e) := by
  unfold srcK
  rw [src_concat]
  by_cases h : e.val < 1600000
  · -- one of the given edges: a word of the edge array's first row
    rw [concatFlat_left _ _ _ e h]
    exact edgeRow0_inRange m hpre c _
  · -- a self-loop: the word e − 1600000, below 100000
    have h' : e.val - 1600000 < 100000 := by have := e.isLt; omega
    rw [concatFlat_right _ _ _ e (by omega) h']
    have hi : iotaInDim S100000 32 0 (ix1 (⟨e.val - 1600000, h'⟩ : Fin 100000)) = BitVec.ofNat 32 (e.val - 1600000) := rfl
    rw [hi]
    unfold InRange
    rw [StableHlo.Predicate.toInt_ofNat_small _ (by omega)]
    omega

end Cert.KernelIdeal.KV

end
-- ==== Proof.RefEdges.lean ====
/-
  The reference program's edge list, named: source words, target words and normalised weights of its 1700000 edges, and
  the attention weight, as the reference's staged values of its arguments.
-/
import proofs.«410440_j89008902243178_1_alg».proof.Proof.Gen.ReferenceIdeal.Read
import proofs.«410440_j89008902243178_1_alg».proof.Proof.Gcn
import Idealize.ShloMosaic.Lib.ValueIdx

noncomputable section

namespace Cert.ReferenceIdeal.RefValue

open Idealize.ShloMosaic Idealize.ShloMosaic.ValueIdx Cert.ReferenceIdeal Cert.ReferenceIdeal.Read

/-- Source words of the reference's edges (`%16`). -/
def srcR (x1 : IVec S2x1600000 32) (e : Fin 1700000) : BitVec 32 := val_main_v16 (F := Ideal) x1 (ix1 e)
/-- Target words of the reference's edges (`%17`). -/
def dstR (x1 : IVec S2x1600000 32) (e : Fin 1700000) : BitVec 32 := val_main_v17 (F := Ideal) x1 (ix1 e)
/-- Normalised weights of the reference's edges (`%43`). -/
def wgtR (x1 : IVec S2x1600000 32) (x2 : FVec Ideal S1600000 .f32) (e : Fin 1700000) : EReal :=
  val_main_v43 (F := Ideal) x1 x2 (ix1 e)
/-- The attention softmax's one entry (`%8`). -/
def probR (x3 : FVec Ideal S1 .f32) : EReal := val_main_v8 (F := Ideal) x3 (ix1 (0 : Fin 1))
/-- A node word in range of the 100000 nodes. -/
def InRange (r : BitVec 32) : Prop := 0 ≤ r.toInt ∧ r.toInt < 100000

end Cert.ReferenceIdeal.RefValue

end
-- ==== Proof.EdgeSame.lean ====
/-
  The kernel program and the reference build one edge list: source words, target words, normalised weights and the
  attention weight are the same host operations applied to the same arguments in both programs.
-/
import proofs.«410440_j89008902243178_1_alg».proof.Proof.KVals
import proofs.«410440_j89008902243178_1_alg».proof.Proof.RefEdges

noncomputable section

namespace Cert.KernelIdeal.KV

open Idealize.ShloMosaic Idealize.ShloMosaic.ValueIdx Idealize.SL.Sem Cert.KernelIdeal Cert.KernelIdeal.Gen
open scoped BigOperators

variable (m : (ℓ : Loc nD τ sig) → Buf (Elt Ideal) ℓ) (ρ : Dev nD → PrngReg)

namespace EdgeSame

/-- A buffer that no operation of a host stretch writes holds after the stretch what it held before. -/
local macro "unwritten " ops:ident " at " b:term : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first host stretch, buffer by buffer, as the reference's staged values

Both programs apply the same operations to the same arguments, so each buffer the stretch writes is, as a whole array,
the reference's staged value of the same name: the two terms are the same up to the names of the shapes. -/

/-- The source words: the edge array's first row followed by 0, 1, …, 99999. -/
theorem src_ref (c : Dev nD) :
    (W1 (F := Ideal) m ρ c (Proc.devRef .tc main_v5) : IVec S1700000 32)
      = Cert.ReferenceIdeal.Read.val_main_v16 (F := Ideal) (m ((c.tc : Thread nD τ).loc main_arg1)) := by
  show StableHlo.after hostOps0 _ (Proc.devRef .tc main_v5) = _
  after_results
  rfl

/-- The target words: the edge array's second row followed by 0, 1, …, 99999. -/
theorem dst_ref (c : Dev nD) :
    (W1 (F := Ideal) m ρ c (Proc.devRef .tc main_v6) : IVec S1700000 32)
      = Cert.ReferenceIdeal.Read.val_main_v17 (F := Ideal) (m ((c.tc : Thread nD τ).loc main_arg1)) := by
  show StableHlo.after hostOps0 _ (Proc.devRef .tc main_v6) = _
  after_results
  rfl

/-- The raw weights: the given ones followed by the self-loops' ones. -/
theorem raw_ref (c : Dev nD) :
    (W1 (F := Ideal) m ρ c (Proc.devRef .tc main_v8) : FVec Ideal S1700000 .f32)
      = Cert.ReferenceIdeal.Read.val_main_v19 (F := Ideal) (m ((c.tc : Thread nD τ).loc main_arg2)) := by
  show StableHlo.after hostOps0 _ (Proc.devRef .tc main_v8) = _
  after_results
  rfl

/-- The test "degree > 0" (the degree is the raw weights summed by target). -/
theorem pos_ref (c : Dev nD) :
    (W1 (F := Ideal) m ρ c (Proc.devRef .tc main_v13) : IVec S100000 1)
      = Cert.ReferenceIdeal.Read.val_main_v24 (F := Ideal) (m ((c.tc : Thread nD τ).loc main_arg1)) (m ((c.tc : Thread nD τ).loc main_arg2)) := by
  show StableHlo.after hostOps0 _ (Proc.devRef .tc main_v13) = _
  after_results
  rfl

/-- The degree's reciprocal square root. -/
theorem rsqrt_ref (c : Dev nD) :
    (W1 (F := Ideal) m ρ c (Proc.devRef .tc main_v14) : FVec Ideal S100000 .f32)
      = Cert.ReferenceIdeal.Read.val_main_v25 (F := Ideal) (m ((c.tc : Thread nD τ).loc main_arg1)) (m ((c.tc : Thread nD τ).loc main_arg2)) := by
  show StableHlo.after hostOps0 _ (Proc.devRef .tc main_v14) = _
  after_results
  rfl

/-- The zeros the selection falls back on. -/
theorem zeros_ref (c : Dev nD) :
    (W1 (F := Ideal) m ρ c (Proc.devRef .tc main_v15) : FVec Ideal S100000 .f32)
      = Cert.ReferenceIdeal.Read.val_main_v26 (F := Ideal) := by
  show StableHlo.after hostOps0 _ (Proc.devRef .tc main_v15) = _
  after_results
  rfl

/-! ## The second stretch: the one selection -/

/-- The normalising factor per node: the reciprocal square root of a positive degree, else zero. -/
theorem norm_ref (c : Dev nD) :
    (W2 (F := Ideal) m ρ c (Proc.devRef .tc main_v16) : FVec Ideal S100000 .f32)
      = Cert.ReferenceIdeal.Read.val_main_v27 (F := Ideal) (m ((c.tc : Thread nD τ).loc main_arg1)) (m ((c.tc : Thread nD τ).loc main_arg2)) := by
  have h13 := pos_ref m ρ c
  have h14 := rsqrt_ref m ρ c
  have h15 := zeros_ref m ρ c
  show StableHlo.after hostOps0_1 (W1 (F := Ideal) m ρ c) (Proc.devRef .tc main_v16) = _
  generalize W1 (F := Ideal) m ρ c = V at h13 h14 h15 ⊢
  after_results
  simp only [StableHlo.TRef.ofBuf, StableHlo.TRef.toBuf, cast_eq]
  rw [h13, h14, h15]
  rfl

theorem src_ref2 (c : Dev nD) :
    (W2 (F := Ideal) m ρ c (Proc.devRef .tc main_v5) : IVec S1700000 32)
      = Cert.ReferenceIdeal.Read.val_main_v16 (F := Ideal) (m ((c.tc : Thread nD τ).loc main_arg1)) :=
  (show W2 (F := Ideal) m ρ c (Proc.devRef .tc main_v5) = W1 m ρ c (Proc.devRef .tc main_v5) by
    unwritten hostOps0_1 at main_v5).trans (src_ref m ρ c)

theorem dst_ref2 (c : Dev nD) :
    (W2 (F := Ideal) m ρ c (Proc.devRef .tc main_v6) : IVec S1700000 32)
      = Cert.ReferenceIdeal.Read.val_main_v17 (F := Ideal) (m ((c.tc : Thread nD τ).loc main_arg1)) :=
  (show W2 (F := Ideal) m ρ c (Proc.devRef .tc main_v6) = W1 m ρ c (Proc.devRef .tc main_v6) by
    unwritten hostOps0_1 at main_v6).trans (dst_ref m ρ c)

theorem raw_ref2 (c : Dev nD) :
    (W2 (F := Ideal) m ρ c (Proc.devRef .tc main_v8) : FVec Ideal S1700000 .f32)
      = Cert.ReferenceIdeal.Read.val_main_v19 (F := Ideal) (m ((c.tc : Thread nD τ).loc main_arg2)) :=
  (show W2 (F := Ideal) m ρ c (Proc.devRef .tc main_v8) = W1 m ρ c (Proc.devRef .tc main_v8) by
    unwritten hostOps0_1 at main_v8).trans (raw_ref m ρ c)

/-! ## The third stretch: the factors gathered at both ends of each edge and multiplied onto its raw weight -/

theorem wgt_ref (c : Dev nD) :
    (W3 (F := Ideal) m ρ c (Proc.devRef .tc main_v32) : FVec Ideal S1700000 .f32)
      = Cert.ReferenceIdeal.Read.val_main_v43 (F := Ideal) (m ((c.tc : Thread nD τ).loc main_arg1)) (m ((c.tc : Thread nD τ).loc main_arg2)) := by
  have h5 := src_ref2 m ρ c
  have h6 := dst_ref2 m ρ c
  have h8 := raw_ref2 m ρ c
  have h16 := norm_ref m ρ c
  show StableHlo.after hostOps0_2 (W2 (F := Ideal) m ρ c) (Proc.devRef .tc main_v32) = _
  generalize W2 (F := Ideal) m ρ c = V at h5 h6 h8 h16 ⊢
  after_results_simp
  rw [h5, h6, h8, h16]
  rfl

/-! ## The attention weight -/

/-- The attention argument is untouched from the launch to the second grid kernel's exit. -/
theorem arg3_at12 (c : Dev nD) :
    W12 (F := Ideal) m ρ c (Proc.devRef .tc main_arg3) = m ((c.tc : Thread nD τ).loc main_arg3) :=
  calc W12 (F := Ideal) m ρ c (Proc.devRef .tc main_arg3)
    _ = W11 m ρ c (Proc.devRef .tc main_arg3) := W12_of_ne m ρ c main_arg3 (by decide)
    _ = W10 m ρ c (Proc.devRef .tc main_arg3) := by unwritten hostOps1 at main_arg3
    _ = W9 m ρ c (Proc.devRef .tc main_arg3) := W10_of_ne m ρ c main_arg3 (by decide)
    _ = W8 m ρ c (Proc.devRef .tc main_arg3) := by unwritten hostOps0_8 at main_arg3
    _ = W7 m ρ c (Proc.devRef .tc main_arg3) := by unwritten hostOps0_7 at main_arg3
    _ = W6 m ρ c (Proc.devRef .tc main_arg3) := by unwritten hostOps0_6 at main_arg3
    _ = W5 m ρ c (Proc.devRef .tc main_arg3) := by unwritten hostOps0_5 at main_arg3
    _ = W4 m ρ c (Proc.devRef .tc main_arg3) := by unwritten hostOps0_4 at main_arg3
    _ = W3 m ρ c (Proc.devRef .tc main_arg3) := by unwritten hostOps0_3 at main_arg3
    _ = W2 m ρ c (Proc.devRef .tc main_arg3) := by unwritten hostOps0_2 at main_arg3
    _ = W1 m ρ c (Proc.devRef .tc main_arg3) := by unwritten hostOps0_1 at main_arg3
    _ = W0 m ρ c (Proc.devRef .tc main_arg3) := by unwritten hostOps0 at main_arg3
    _ = m ((c.tc : Thread nD τ).loc main_arg3) := rfl

/-- The softmax of the one attention logit. -/
theorem prob_ref (c : Dev nD) :
    (W13 (F := Ideal) m ρ c (Proc.devRef .tc main_v50) : FVec Ideal S1 .f32)
      = Cert.ReferenceIdeal.Read.val_main_v8 (F := Ideal) (m ((c.tc : Thread nD τ).loc main_arg3)) := by
  show StableHlo.after hostOps2 (W12 m ρ c) (Proc.devRef .tc main_v50) = _
  after_results
  rw [arg3_at12]
  rfl

end EdgeSame

open Cert.ReferenceIdeal.RefValue in
/-- The kernel program's source words are the reference's, of the same edge array. -/
theorem srcK_ref (c : Dev nD) (e : Fin 1700000) :
    srcK m ρ c e = Cert.ReferenceIdeal.RefValue.srcR (m ((c.tc : Thread nD τ).loc main_arg1)) e := by
  unfold srcK Cert.ReferenceIdeal.RefValue.srcR
  rw [EdgeSame.src_ref]
/-- The kernel program's target words are the reference's. -/
theorem dstK_ref (c : Dev nD) (e : Fin 1700000) :
    dstK m ρ c e = Cert.ReferenceIdeal.RefValue.dstR (m ((c.tc : Thread nD τ).loc main_arg1)) e := by
  unfold dstK Cert.ReferenceIdeal.RefValue.dstR
  rw [EdgeSame.dst_ref]
/-- The kernel program's normalised weights are the reference's. -/
theorem wgtK_ref (c : Dev nD) (e : Fin 1700000) :
    wgtK m ρ c e = Cert.ReferenceIdeal.RefValue.wgtR (m ((c.tc : Thread nD τ).loc main_arg1)) (m ((c.tc : Thread nD τ).loc main_arg2)) e := by
  unfold wgtK Cert.ReferenceIdeal.RefValue.wgtR
  rw [EdgeSame.wgt_ref]
/-- The kernel program's attention weight is the reference's. -/
theorem probK_ref (c : Dev nD) :
    probK m ρ c = Cert.ReferenceIdeal.RefValue.probR (m ((c.tc : Thread nD τ).loc main_arg3)) := by
  unfold probK Cert.ReferenceIdeal.RefValue.probR
  rw [EdgeSame.prob_ref]

end Cert.KernelIdeal.KV

end
-- ==== Proof.RefLayer1.lean ====
/-
  The reference's hidden layer is the specification's: its dense product, its gather of rows by the wrapped and clamped
  source words (a word in range is neither wrapped nor clamped), its product with the weights, its scatter-add by the target
  words, the bias, the attention weight and the rectifier, read one entry at a time.
-/
import proofs.«410440_j89008902243178_1_alg».proof.Proof.RefEdges
import proofs.«410440_j89008902243178_1_alg».proof.Proof.LibScatterSum
import proofs.«410440_j89008902243178_1_alg».proof.Proof.LibGatherRows

noncomputable section

namespace Cert.ReferenceIdeal.RefValue

open Idealize.ShloMosaic Idealize.ShloMosaic.ValueIdx Cert.ReferenceIdeal Cert.ReferenceIdeal.Read
open scoped BigOperators

variable (x0 : FVec Ideal S100000x128 .f32) (x1 : IVec S2x1600000 32) (x2 : FVec Ideal S1600000 .f32)
  (x3 : FVec Ideal S1 .f32) (x4 : FVec Ideal S128x128 .f32) (x5 : FVec Ideal S128 .f32)
  (x6 : FVec Ideal S128x40 .f32) (x7 : FVec Ideal S40 .f32)

namespace Layer1

/-- An accumulating scatter of rows into a zero table is the specification's aggregation, once its pieces are read: the
    table is zero at (n, k), the index word of update `e` is the target word of edge `e`, and update `e` at column `k`
    is the weight of edge `e` times the aggregated table's row at the source of `e`. Stated for any number of edges and
    columns. -/
theorem scatter_aggr {E K : Nat}
    (wf : ScatterDims.WF (⟨2, ![100000, K]⟩ : Shape) (⟨2, ![E, 1]⟩ : Shape) (⟨2, ![E, K]⟩ : Shape) [1] [0] [0] 1)
    (z : (⟨2, ![100000, K]⟩ : Shape).Idx → EReal) (idx : IVec (⟨2, ![E, 1]⟩ : Shape) 32)
    (upd : (⟨2, ![E, K]⟩ : Shape).Idx → EReal) (src dst : Fin E → BitVec 32) (wgt : Fin E → EReal)
    (A : Fin 100000 → Fin K → EReal) (n : Fin 100000) (k : Fin K)
    (hz : z (ix2 n k) = 0) (hd : ∀ e : Fin E, idx (ix2 e (0 : Fin 1)) = dst e)
    (hu : ∀ e : Fin E, upd (ix2 e k) = wgt e * A (Gcn.rowOf (src e)) k) :
    Ideal.hostScatterAdd (⟨[1], [0], [0], 1, wf⟩ : ScatterDims (⟨2, ![100000, K]⟩ : Shape) (⟨2, ![E, 1]⟩ : Shape) (⟨2, ![E, K]⟩ : Shape))
        z idx upd (ix2 n k)
      = 0 + Gcn.aggr src dst wgt A n k := by
  rw [Cert.LibScatterSum.scatterAdd_rows wf z idx upd n k, hz]
  unfold Gcn.aggr
  refine congrArg (fun s : EReal => 0 + s) ?_
  exact Finset.sum_congr (Finset.filter_congr fun e _ => by rw [hd e]) fun e _ => hu e

/-- The reference's accumulating scatter of 1700000 rows of 128 into a table of 100000 rows, read at (n, k) through
    `scatter_aggr`. -/
theorem scatter_read (z : FVec Ideal S100000x128 .f32) (idx : IVec S1700000x1 32) (upd : FVec Ideal S1700000x128 .f32)
    (src dst : Fin 1700000 → BitVec 32) (wgt : Fin 1700000 → EReal) (A : Fin 100000 → Fin 128 → EReal)
    (n : Fin 100000) (k : Fin 128)
    (hz : z (ix2 n k) = 0) (hd : ∀ e : Fin 1700000, idx (ix2 e (0 : Fin 1)) = dst e)
    (hu : ∀ e : Fin 1700000, upd (ix2 e k) = wgt e * A (Gcn.rowOf (src e)) k) :
    Host.scatterAdd scatter_S100000x128_S1700000x1_S1700000x128_1_0_0_1 z idx upd (ix2 n k)
      = 0 + Gcn.aggr src dst wgt A n k := by
  unfold Host.scatterAdd
  rw [Ideal.hostScatterAdd_def]
  exact scatter_aggr Facts₀.scatter_S100000x128_S1700000x1_S1700000x128_1_0_0_1_wf z idx upd src dst wgt A n k hz hd hu

/-- The node table after its two reshapes (`%10`) is the node table: the reshape to `[100000, 128, 1]` and back keeps
    every row-major position. -/
theorem read_table (r : Fin 100000) (k : Fin 128) : val_main_v10 (F := Ideal) x0 (ix2 r k) = x0 (ix2 r k) := by
  rw [val_main_v10_apply, val_main_v0_apply]
  congr 1
  funext a
  have hr := r.isLt
  have hk := k.isLt
  match a with
  | ⟨0, _⟩ =>
    exact Fin.ext (by
      show (((r.val * 128 + k.val) / 128 * 128 + (r.val * 128 + k.val) / 1 % 128) * 1 + 0) / 128 = r.val
      omega)
  | ⟨1, _⟩ =>
    exact Fin.ext (by
      show (((r.val * 128 + k.val) / 128 * 128 + (r.val * 128 + k.val) / 1 % 128) * 1 + 0) % 128 = k.val
      omega)

/-- The reference's first dense product (`%44`) at (r, j) is the specification's. -/
theorem read_dense (r : Fin 100000) (j : Fin 128) :
    val_main_v44 (F := Ideal) x0 x4 (ix2 r j)
      = Gcn.dense (fun n k => x0 (ix2 n k)) (fun k j => x4 (ix2 k j)) r j := by
  rw [val_main_v44_apply]
  unfold Gcn.dense
  refine Finset.sum_congr rfl fun k _ => ?_
  have el : lidx_main_v44 (ix2 r j) k = ix2 r k := funext fun a => by
    match a with
    | ⟨0, _⟩ => rfl
    | ⟨1, _⟩ => rfl
  have er : ridx_main_v44 (ix2 r j) k = ix2 k j := funext fun a => by
    match a with
    | ⟨0, _⟩ => rfl
    | ⟨1, _⟩ => rfl
  rw [el, er, read_table]

/-- A source word in range is not wrapped: the select on "negative" (`%50`) keeps it. -/
theorem read_wrap (e : Fin 1700000) (h : InRange (srcR x1 e)) : val_main_v50 (F := Ideal) x1 (ix1 e) = srcR x1 e := by
  rw [val_main_v50_apply, val_main_v47_apply, val_main_v46_apply, val_main_c_9_apply]
  have h0 : 0 ≤ (val_main_v16 (F := Ideal) x1 (ix1 e)).toInt := h.1
  show Scalar.select (IntOp.cmpi .slt (val_main_v16 (F := Ideal) x1 (ix1 e)) 0#32) _ (val_main_v16 (F := Ideal) x1 (ix1 e))
    = val_main_v16 (F := Ideal) x1 (ix1 e)
  generalize val_main_v16 (F := Ideal) x1 (ix1 e) = v at h0 ⊢
  have hs : BitVec.slt v 0#32 = false := by
    rw [Bool.eq_false_iff]
    intro hs
    rw [BitVec.slt_iff_toInt_lt] at hs
    have hz : (0#32 : BitVec 32).toInt = 0 := by decide
    omega
  have hc : IntOp.cmpi .slt v 0#32 = 0#1 := by
    show BitVec.ofBool (BitVec.slt v 0#32) = 0#1
    rw [hs]
    rfl
  rw [hc, select_zero]

/-- The gather of the dense product's rows (`%52`) at (e, j): the row the start word of `e`, read signed and clamped,
    selects. -/
theorem read_rows (e : Fin 1700000) (j : Fin 128) :
    val_main_v52 (F := Ideal) x0 x1 x4 (ix2 e j)
      = val_main_v44 (F := Ideal) x0 x4 (ix2 (Gcn.rowOf (val_main_v50 (F := Ideal) x1 (ix1 e))) j) := by
  have e51 : idx_main_v51 (ix2 e (0 : Fin 1)) = ix1 e := funext fun a => by
    match a with
    | ⟨0, _⟩ => rfl
  unfold val_main_v52
  refine (Cert.LibGatherRows.gather_rows_apply (N := 100000) (K := 128) (E := 1700000) (by decide)
    Facts₀.gather_S100000x128_S1700000x1_S1700000x128_1_0_n_n_0_1_1128_wf (val_main_v44 (F := Ideal) x0 x4)
    (val_main_v51 (F := Ideal) x1) e j).trans ?_
  have h51 : val_main_v51 (F := Ideal) x1 (ix2 e (0 : Fin 1)) = val_main_v50 (F := Ideal) x1 (ix1 e) := by
    rw [val_main_v51_apply, e51]
  refine congrArg (fun r => val_main_v44 (F := Ideal) x0 x4 (ix2 r j)) (Fin.ext ?_)
  show min (val_main_v51 (F := Ideal) x1 (ix2 e (0 : Fin 1))).toInt.toNat (100000 - 1)
    = min (val_main_v50 (F := Ideal) x1 (ix1 e)).toInt.toNat 99999
  rw [h51]

/-- The message of edge `e` (`%54`) at column `j`: its weight times the dense product's row at its source. -/
theorem read_msg (h : ∀ e, InRange (srcR x1 e)) (e : Fin 1700000) (j : Fin 128) :
    val_main_v54 (F := Ideal) x0 x1 x2 x4 (ix2 e j)
      = wgtR x1 x2 e
          * Gcn.dense (fun n k => x0 (ix2 n k)) (fun k j => x4 (ix2 k j)) (Gcn.rowOf (srcR x1 e)) j := by
  have e53 : idx_main_v45 (idx_main_v53 (ix2 e j)) = ix1 e := funext fun a => by
    match a with
    | ⟨0, _⟩ => rfl
  rw [val_main_v54_apply, val_main_v53_apply, val_main_v45_apply, e53, read_rows, read_wrap x1 e (h e), read_dense]
  rfl

/-- The scatter-add of the messages by the target words (`%57`) at (n, j): zero plus the specification's aggregation. -/
theorem read_scatter (h : ∀ e, InRange (srcR x1 e)) (n : Fin 100000) (j : Fin 128) :
    val_main_v57 (F := Ideal) x0 x1 x2 x4 (ix2 n j)
      = 0 + Gcn.aggr (srcR x1) (dstR x1) (wgtR x1 x2)
          (Gcn.dense (fun n k => x0 (ix2 n k)) (fun k j => x4 (ix2 k j))) n j := by
  have e56 : ∀ e : Fin 1700000, idx_main_v56 (ix2 e (0 : Fin 1)) = ix1 e := fun e => funext fun a => by
    match a with
    | ⟨0, _⟩ => rfl
  have h0 : val_main_v55 (F := Ideal) (ix2 n j) = 0 := by
    rw [val_main_v55_apply, val_main_cst_11_apply, Ideal.ofBits_def, Ideal.ofBits_zero_f32]
  have hd : ∀ e : Fin 1700000, val_main_v56 (F := Ideal) x1 (ix2 e (0 : Fin 1)) = dstR x1 e := fun e => by
    rw [val_main_v56_apply, e56]
    rfl
  unfold val_main_v57
  exact scatter_read
    (val_main_v55 (F := Ideal)) (val_main_v56 (F := Ideal) x1) (val_main_v54 (F := Ideal) x0 x1 x2 x4)
    (srcR x1) (dstR x1) (wgtR x1 x2) (Gcn.dense (fun n k => x0 (ix2 n k)) (fun k j => x4 (ix2 k j))) n j h0 hd
    (fun e => read_msg x0 x1 x2 x4 h e j)

/-- The attention weight reshaped to rank 0 (`%9`) is the softmax's one entry. -/
theorem read_prob (i : S_.Idx) : val_main_v9 (F := Ideal) x3 i = probR x3 := by
  unfold val_main_v9
  exact shapeCast_apply _ _ i (ix1 (0 : Fin 1)) (by
    rw [Shape.rowMajor_val_one]
    exact (Shape.rowMajorPi_zero _ _).symm)

end Layer1

open Layer1

/-- The reference's hidden activation (`%65`) at (n, j). -/
theorem ref_hidden (h : ∀ e, InRange (srcR x1 e)) (n : Fin 100000) (j : Fin 128) :
    val_main_v65 (F := Ideal) x0 x1 x2 x3 x4 x5 (ix2 n j)
      = Gcn.hidden (probR x3)
          (Gcn.aggr (srcR x1) (dstR x1) (wgtR x1 x2) (Gcn.dense (fun n k => x0 (ix2 n k)) (fun k j => x4 (ix2 k j))))
          (fun j => x5 (ix1 j)) n j := by
  have e59 : idx_main_v58 (idx_main_v59 (ix2 n j)) = ix1 j := funext fun a => by
    match a with
    | ⟨0, _⟩ => rfl
  rw [val_main_v65_apply, val_main_v64_apply, val_main_v63_apply, val_main_cst_12_apply, val_main_v62_apply,
    val_main_v61_apply, read_prob, val_main_v60_apply, read_scatter x0 x1 x2 x4 h, val_main_v59_apply,
    val_main_v58_apply, e59, val_main_call1_v0_apply, val_main_call1_cst_apply]
  simp only [Ideal.ofBits_def, Ideal.ofBits_zero_f32, Ideal.maximumf_def, Ideal.addf_def, Ideal.mulf_def, zero_add]
  unfold Gcn.hidden
  rw [mul_comm]

end Cert.ReferenceIdeal.RefValue

end
-- ==== Proof.RefLayer2.lean ====
/-
  The reference's output layer is the specification's: the second dense product of the hidden activation, the same
  aggregation over the same edge list (which the reference builds a second time from the same arguments), the bias and
  each row's softmax, read one entry at a time.
-/
import proofs.«410440_j89008902243178_1_alg».proof.Proof.RefEdges
import proofs.«410440_j89008902243178_1_alg».proof.Proof.LibScatterSum
import proofs.«410440_j89008902243178_1_alg».proof.Proof.LibGatherRows
import Idealize.ShloMosaic.PureOps.Reduce
import Idealize.ShloMosaic.PureOps.Ideal.Laws

noncomputable section

namespace Cert.ReferenceIdeal.RefValue

open Idealize.ShloMosaic Idealize.ShloMosaic.ValueIdx Cert.ReferenceIdeal Cert.ReferenceIdeal.Read Cert.ReferenceIdeal.Gen
open scoped BigOperators

variable (x0 : FVec Ideal S100000x128 .f32) (x1 : IVec S2x1600000 32) (x2 : FVec Ideal S1600000 .f32)
  (x3 : FVec Ideal S1 .f32) (x4 : FVec Ideal S128x128 .f32) (x5 : FVec Ideal S128 .f32)
  (x6 : FVec Ideal S128x40 .f32) (x7 : FVec Ideal S40 .f32)

namespace Layer2

/-! ## The second edge list is the first

The reference rebuilds its edge list for the output layer from the same two arguments by the same operations in the
same order, so each stage of the second list is the corresponding stage of the first, as a whole array. -/

theorem v66_eq : val_main_v66 (F := Ideal) x1 = val_main_v11 (F := Ideal) x1 := rfl
theorem v67_eq : val_main_v67 (F := Ideal) x1 = val_main_v12 (F := Ideal) x1 := by
  unfold val_main_v67 val_main_v12; rw [v66_eq]
theorem v68_eq : val_main_v68 (F := Ideal) x1 = val_main_v13 (F := Ideal) x1 := rfl
theorem v69_eq : val_main_v69 (F := Ideal) x1 = val_main_v14 (F := Ideal) x1 := by
  unfold val_main_v69 val_main_v14; rw [v68_eq]
theorem v70_eq : val_main_v70 (F := Ideal) = val_main_v15 (F := Ideal) := rfl
/-- The second list's source words (`%71`) are the first's (`%16`). -/
theorem v71_eq : val_main_v71 (F := Ideal) x1 = val_main_v16 (F := Ideal) x1 := by
  unfold val_main_v71 val_main_v16; rw [v67_eq, v70_eq]
/-- The second list's target words (`%72`) are the first's (`%17`). -/
theorem v72_eq : val_main_v72 (F := Ideal) x1 = val_main_v17 (F := Ideal) x1 := by
  unfold val_main_v72 val_main_v17; rw [v69_eq, v70_eq]
theorem v73_eq : val_main_v73 (F := Ideal) = val_main_v18 (F := Ideal) := rfl
theorem v74_eq : val_main_v74 (F := Ideal) x2 = val_main_v19 (F := Ideal) x2 := by
  unfold val_main_v74 val_main_v19; rw [v73_eq]
theorem v75_eq : val_main_v75 (F := Ideal) = val_main_v20 (F := Ideal) := rfl
theorem v76_eq : val_main_v76 (F := Ideal) x1 = val_main_v21 (F := Ideal) x1 := by
  unfold val_main_v76 val_main_v21; rw [v72_eq]
theorem v77_eq : val_main_v77 (F := Ideal) x1 x2 = val_main_v22 (F := Ideal) x1 x2 := by
  unfold val_main_v77 val_main_v22; rw [v75_eq, v76_eq, v74_eq]
theorem v78_eq : val_main_v78 (F := Ideal) = val_main_v23 (F := Ideal) := rfl
theorem v79_eq : val_main_v79 (F := Ideal) x1 x2 = val_main_v24 (F := Ideal) x1 x2 := by
  unfold val_main_v79 val_main_v24; rw [v77_eq, v78_eq]
theorem v80_eq : val_main_v80 (F := Ideal) x1 x2 = val_main_v25 (F := Ideal) x1 x2 := by
  unfold val_main_v80 val_main_v25; rw [v77_eq]
theorem v81_eq : val_main_v81 (F := Ideal) = val_main_v26 (F := Ideal) := rfl
theorem v82_eq : val_main_v82 (F := Ideal) x1 x2 = val_main_v27 (F := Ideal) x1 x2 := by
  unfold val_main_v82 val_main_v27; rw [v79_eq, v80_eq, v81_eq]
theorem v83_eq : val_main_v83 (F := Ideal) = val_main_v28 (F := Ideal) := rfl
theorem v84_eq : val_main_v84 (F := Ideal) x1 = val_main_v29 (F := Ideal) x1 := by
  unfold val_main_v84 val_main_v29; rw [v71_eq, v83_eq]
theorem v85_eq : val_main_v85 (F := Ideal) = val_main_v30 (F := Ideal) := rfl
theorem v86_eq : val_main_v86 (F := Ideal) x1 = val_main_v31 (F := Ideal) x1 := by
  unfold val_main_v86 val_main_v31; rw [v71_eq, v85_eq]
theorem v87_eq : val_main_v87 (F := Ideal) x1 = val_main_v32 (F := Ideal) x1 := by
  unfold val_main_v87 val_main_v32; rw [v84_eq, v86_eq, v71_eq]
theorem v88_eq : val_main_v88 (F := Ideal) x1 = val_main_v33 (F := Ideal) x1 := by
  unfold val_main_v88 val_main_v33; rw [v87_eq]
theorem v89_eq : val_main_v89 (F := Ideal) x1 x2 = val_main_v34 (F := Ideal) x1 x2 := by
  unfold val_main_v89 val_main_v34; rw [v82_eq, v88_eq]
theorem v90_eq : val_main_v90 (F := Ideal) x1 x2 = val_main_v35 (F := Ideal) x1 x2 := by
  unfold val_main_v90 val_main_v35; rw [v89_eq, v74_eq]
theorem v91_eq : val_main_v91 (F := Ideal) = val_main_v36 (F := Ideal) := rfl
theorem v92_eq : val_main_v92 (F := Ideal) x1 = val_main_v37 (F := Ideal) x1 := by
  unfold val_main_v92 val_main_v37; rw [v72_eq, v91_eq]
theorem v93_eq : val_main_v93 (F := Ideal) = val_main_v38 (F := Ideal) := rfl
theorem v94_eq : val_main_v94 (F := Ideal) x1 = val_main_v39 (F := Ideal) x1 := by
  unfold val_main_v94 val_main_v39; rw [v72_eq, v93_eq]
theorem v95_eq : val_main_v95 (F := Ideal) x1 = val_main_v40 (F := Ideal) x1 := by
  unfold val_main_v95 val_main_v40; rw [v92_eq, v94_eq, v72_eq]
theorem v96_eq : val_main_v96 (F := Ideal) x1 = val_main_v41 (F := Ideal) x1 := by
  unfold val_main_v96 val_main_v41; rw [v95_eq]
theorem v97_eq : val_main_v97 (F := Ideal) x1 x2 = val_main_v42 (F := Ideal) x1 x2 := by
  unfold val_main_v97 val_main_v42; rw [v82_eq, v96_eq]
/-- The second list's normalised weights (`%98`) are the first's (`%43`). -/
theorem v98_eq : val_main_v98 (F := Ideal) x1 x2 = val_main_v43 (F := Ideal) x1 x2 := by
  unfold val_main_v98 val_main_v43; rw [v90_eq, v97_eq]

/-! ## The output layer's stages read at an index -/

/-- A word that is not negative, read signed, is not wrapped: the select on "negative" takes the word itself. -/
theorem wrap_of_nonneg (w d : BitVec 32) (h0 : 0 ≤ w.toInt) :
    Scalar.select (IntOp.cmpi .slt w 0#32) d w = w := by
  have hlt : w.slt 0#32 = false := by
    simp only [BitVec.slt, BitVec.toInt_zero, decide_eq_false_iff_not, Int.not_lt]
    exact h0
  show (if BitVec.ofBool (w.slt 0#32) = 1 then d else w) = w
  rw [hlt]
  rfl

/-- The gather's start word of edge `e` (`%106`): in range, the edge's source word, not wrapped. -/
theorem v106_read (h : ∀ e, InRange (srcR x1 e)) (e : Fin 1700000) :
    val_main_v106 (F := Ideal) x1 (ix2 e (0 : Fin 1)) = srcR x1 e := by
  have e1 : idx_main_v106 (ix2 e (0 : Fin 1)) = ix1 e := funext fun a => Fin.ext (by match a with | ⟨0, _⟩ => rfl)
  rw [val_main_v106_apply, val_main_v105_apply, val_main_v102_apply, val_main_v101_apply, val_main_c_21_apply, v71_eq, e1]
  exact wrap_of_nonneg _ _ (h e).1

/-- The scatter's index word of edge `e` (`%111`) is the edge's target word. -/
theorem v111_read (e : Fin 1700000) : val_main_v111 (F := Ideal) x1 (ix2 e (0 : Fin 1)) = dstR x1 e := by
  rw [val_main_v111_apply, v72_eq]
  exact congrArg _ (funext fun a => Fin.ext (by match a with | ⟨0, _⟩ => rfl))

/-- The weights broadcast along each row (`%108`) at (e, k): the edge's weight. -/
theorem v108_read (e : Fin 1700000) (k : Fin 40) : val_main_v108 (F := Ideal) x1 x2 (ix2 e k) = wgtR x1 x2 e := by
  rw [val_main_v108_apply, val_main_v100_apply, v98_eq]
  exact congrArg _ (funext fun a => Fin.ext (by match a with | ⟨0, _⟩ => rfl))

/-- The second dense product (`%99`) at (r, k): the specification's, of the hidden activation with the second weights. -/
theorem v99_read (r : Fin 100000) (k : Fin 40) :
    val_main_v99 (F := Ideal) x0 x1 x2 x3 x4 x5 x6 (ix2 r k) = (Gcn.dense (fun n k => val_main_v65 (F := Ideal) x0 x1 x2 x3 x4 x5 (ix2 n k)) (fun k j => x6 (ix2 k j))) r k := by
  rw [val_main_v99_apply]
  unfold Gcn.dense
  refine Finset.sum_congr rfl fun c _ => ?_
  have el : lidx_main_v99 (ix2 r k) c = ix2 r c :=
    funext fun a => Fin.ext (by match a with | ⟨0, _⟩ => rfl | ⟨1, _⟩ => rfl)
  have er : ridx_main_v99 (ix2 r k) c = ix2 c k :=
    funext fun a => Fin.ext (by match a with | ⟨0, _⟩ => rfl | ⟨1, _⟩ => rfl)
  rw [el, er]

/-- A row gather from a table of 100000 rows of 40 by one start word per edge, read at (e, k): the table's row that the
    edge's start word selects (read signed, clamped into the rows), at column `k`. -/
theorem gather_rows_of_word (x : FVec Ideal S100000x40 .f32) (idx : IVec S1700000x1 32) (e : Fin 1700000) (k : Fin 40)
    (r : BitVec 32) (hr : idx (ix2 e (0 : Fin 1)) = r) :
    Host.gather gather_S100000x40_S1700000x1_S1700000x40_1_0_n_n_0_1_140 x idx (ix2 e k) = x (ix2 (Gcn.rowOf r) k) := by
  subst hr
  have hg : gather_S100000x40_S1700000x1_S1700000x40_1_0_n_n_0_1_140
      = LibGatherRows.rowsDims gather_S100000x40_S1700000x1_S1700000x40_1_0_n_n_0_1_140_wf := rfl
  rw [hg, LibGatherRows.gather_rows_apply (N := 100000) (K := 40) (E := 1700000) (by omega)]
  rfl

/-- The gathered rows (`%107`) at (e, k): the dense product's row that the edge's source word selects. -/
theorem v107_read (h : ∀ e, InRange (srcR x1 e)) (e : Fin 1700000) (k : Fin 40) :
    val_main_v107 (F := Ideal) x0 x1 x2 x3 x4 x5 x6 (ix2 e k) = (Gcn.dense (fun n k => val_main_v65 (F := Ideal) x0 x1 x2 x3 x4 x5 (ix2 n k)) (fun k j => x6 (ix2 k j))) (Gcn.rowOf (srcR x1 e)) k := by
  unfold val_main_v107
  rw [gather_rows_of_word _ _ e k (srcR x1 e) (v106_read x1 h e)]
  exact v99_read x0 x1 x2 x3 x4 x5 x6 (Gcn.rowOf (srcR x1 e)) k

/-- An accumulating row scatter into a table of 100000 rows of 40 by one index word per edge, read at (n, k): the table's
    entry plus the sum, over the edges whose index word read signed is `n`, of the update's entry (e, k). -/
theorem scatter_rows_read (x : FVec Ideal S100000x40 .f32) (idx : IVec S1700000x1 32) (upd : FVec Ideal S1700000x40 .f32)
    (n : Fin 100000) (k : Fin 40) :
    Host.scatterAdd scatter_S100000x40_S1700000x1_S1700000x40_1_0_0_1 x idx upd (ix2 n k)
      = x (ix2 n k) + ∑ e ∈ Finset.univ.filter (fun e : Fin 1700000 => (idx (ix2 e (0 : Fin 1))).toInt = (n.val : ℤ)), upd (ix2 e k) := by
  unfold Host.scatterAdd
  rw [Ideal.hostScatterAdd_def]
  have hs : scatter_S100000x40_S1700000x1_S1700000x40_1_0_0_1
      = (⟨[1], [0], [0], 1, scatter_S100000x40_S1700000x1_S1700000x40_1_0_0_1_wf⟩ : ScatterDims S100000x40 S1700000x1 S1700000x40) := rfl
  rw [hs]
  exact LibScatterSum.scatterAdd_rows _ x idx upd n k

/-- The aggregation (`%112`) at (n, k): into a zero table, the sum over the edges whose target word is `n` of the edge's
    weight times the gathered entry. -/
theorem v112_read (h : ∀ e, InRange (srcR x1 e)) (n : Fin 100000) (k : Fin 40) :
    val_main_v112 (F := Ideal) x0 x1 x2 x3 x4 x5 x6 (ix2 n k) = Gcn.aggr (srcR x1) (dstR x1) (wgtR x1 x2) (Gcn.dense (fun n k => val_main_v65 (F := Ideal) x0 x1 x2 x3 x4 x5 (ix2 n k)) (fun k j => x6 (ix2 k j))) n k := by
  unfold val_main_v112
  rw [scatter_rows_read, val_main_v110_apply, val_main_cst_23_apply, Ideal.ofBits_def, Ideal.ofBits_zero_f32, zero_add]
  unfold Gcn.aggr
  simp only [v111_read]
  refine Finset.sum_congr rfl fun e _ => ?_
  rw [val_main_v109_apply, Ideal.mulf_def, v108_read, v107_read x0 x1 x2 x3 x4 x5 x6 h]

/-- The logits (`%115`) at (n, k): the aggregation plus the bias. -/
theorem v115_read (h : ∀ e, InRange (srcR x1 e)) (n : Fin 100000) (k : Fin 40) :
    val_main_v115 (F := Ideal) x0 x1 x2 x3 x4 x5 x6 x7 (ix2 n k)
      = Gcn.aggr (srcR x1) (dstR x1) (wgtR x1 x2) (Gcn.dense (fun n k => val_main_v65 (F := Ideal) x0 x1 x2 x3 x4 x5 (ix2 n k)) (fun k j => x6 (ix2 k j))) n k + x7 (ix1 k) := by
  rw [val_main_v115_apply, Ideal.addf_def, v112_read x0 x1 x2 x3 x4 x5 x6 h, val_main_v114_apply, val_main_v113_apply]
  exact congrArg _ (congrArg x7 (funext fun a => Fin.ext (by match a with | ⟨0, _⟩ => rfl)))

/-- The −∞ word is the bottom of the extended reals. -/
theorem negInf_eq_bot : Ideal.ofBits .f32 0xFF800000#32 = (⊥ : EReal) := by
  simp [Ideal.ofBits, Ideal.ieee]

/-- A row index of a 100000 × 40 table with column `k` put back is (n, k). -/
theorem lift_row (hr : S100000x40.Reduces [1] S100000) (n : Fin 100000) (k : Fin (S100000x40.size 1)) :
    hr.lift (ix1 n) k = ix2 n (⟨k.val, k.isLt⟩ : Fin 40) := by
  funext c
  apply Fin.ext
  fin_cases c <;> rfl

/-- A max-reduce over the columns of a 100000 × 40 table, at row `n`: the fold of `max` from the initial value over
    the row's forty entries. -/
theorem rowmax_read (x : FVec Ideal S100000x40 .f32) (init : FVec Ideal S_ .f32) (n : Fin 100000) :
    Host.reduce FloatOps.maximumf x init reducesTo_S100000x40_S100000_d1 h_S_ (ix1 n)
      = (Finset.univ : Finset (Fin 40)).fold max (init (Shape.Idx.first h_S_)) (fun k => x (ix2 n k)) := by
  have hr : S100000x40.Reduces [1] S100000 := by decide
  rw [Host.reduce_eq_fold_single FloatOps.maximumf x init reducesTo_S100000x40_S100000_d1 hr h_S_]
  have hf : (x ∘ hr.lift (ix1 n)) = fun k : Fin 40 => x (ix2 n k) := funext fun k => congrArg x (lift_row hr n k)
  exact congrArg (fun f => Finset.fold max (init (Shape.Idx.first h_S_)) f (Finset.univ : Finset (Fin 40))) hf

/-- The logits' row maximum as reduced (`%116`) at row `n`: the fold of `max` from −∞ over the row. -/
theorem v116_read (n : Fin 100000) :
    val_main_v116 (F := Ideal) x0 x1 x2 x3 x4 x5 x6 x7 (ix1 n)
      = (Finset.univ : Finset (Fin 40)).fold max ⊥ (fun k => val_main_v115 (F := Ideal) x0 x1 x2 x3 x4 x5 x6 x7 (ix2 n k)) := by
  unfold val_main_v116
  rw [rowmax_read, val_main_cst_24_apply, Ideal.ofBits_def, negInf_eq_bot]

/-- The row maximum the softmax subtracts (`%118`) at row `n`: the specification's row maximum of the logits. -/
theorem v118_read (n : Fin 100000) :
    val_main_v118 (F := Ideal) x0 x1 x2 x3 x4 x5 x6 x7 (ix1 n) = Gcn.rowMax (fun k => val_main_v115 (F := Ideal) x0 x1 x2 x3 x4 x5 x6 x7 (ix2 n k)) := by
  rw [val_main_v118_apply, Ideal.maximumf_def, val_main_v117_apply, val_main_cst_25_apply, Ideal.ofBits_def, negInf_eq_bot,
    v116_read]
  rfl

/-- The exponentials (`%122`) at (n, k): of the logit less its row's maximum. -/
theorem v122_read (n : Fin 100000) (k : Fin 40) :
    val_main_v122 (F := Ideal) x0 x1 x2 x3 x4 x5 x6 x7 (ix2 n k)
      = Ideal.exp (val_main_v115 (F := Ideal) x0 x1 x2 x3 x4 x5 x6 x7 (ix2 n k) - Gcn.rowMax (fun c => val_main_v115 (F := Ideal) x0 x1 x2 x3 x4 x5 x6 x7 (ix2 n c))) := by
  have e1 : idx_main_v119 (idx_main_v120 (ix2 n k)) = ix1 n := funext fun a => Fin.ext (by match a with | ⟨0, _⟩ => rfl)
  rw [val_main_v122_apply, Ideal.hostUnary_exp_def, val_main_v121_apply, Ideal.subf_def, val_main_v120_apply,
    val_main_v119_apply, e1, v118_read]

/-- The softmax's denominator (`%125`) at (n, j): the sum of the row's exponentials. -/
theorem v125_read (n : Fin 100000) (j : Fin 40) :
    val_main_v125 (F := Ideal) x0 x1 x2 x3 x4 x5 x6 x7 (ix2 n j) = ∑ k : Fin 40, val_main_v122 (F := Ideal) x0 x1 x2 x3 x4 x5 x6 x7 (ix2 n k) := by
  have e1 : idx_main_v124 (idx_main_v125 (ix2 n j)) = ix1 n := funext fun a => Fin.ext (by match a with | ⟨0, _⟩ => rfl)
  rw [val_main_v125_apply, val_main_v124_apply, e1, val_main_v123_apply, val_main_cst_26_apply, Ideal.ofBits_def,
    Ideal.ofBits_zero_f32, zero_add]
  exact Finset.sum_congr rfl fun k _ =>
    congrArg _ (funext fun a => Fin.ext (by match a with | ⟨0, _⟩ => rfl | ⟨1, _⟩ => rfl))

end Layer2

open Layer2

/-- The reference's result (`%126`) at (n, j), over its hidden activation (`%65`). -/
theorem ref_out (h : ∀ e, InRange (srcR x1 e)) (n : Fin 100000) (j : Fin 40) :
    val_main_v126 (F := Ideal) x0 x1 x2 x3 x4 x5 x6 x7 (ix2 n j)
      = Gcn.softmaxRow (fun k =>
          Gcn.aggr (srcR x1) (dstR x1) (wgtR x1 x2)
            (Gcn.dense (fun n k => val_main_v65 (F := Ideal) x0 x1 x2 x3 x4 x5 (ix2 n k)) (fun k j => x6 (ix2 k j))) n k
          + x7 (ix1 k)) j := by
  have hz : (fun k : Fin 40 => val_main_v115 (F := Ideal) x0 x1 x2 x3 x4 x5 x6 x7 (ix2 n k)) = (fun k =>
          Gcn.aggr (srcR x1) (dstR x1) (wgtR x1 x2)
            (Gcn.dense (fun n k => val_main_v65 (F := Ideal) x0 x1 x2 x3 x4 x5 (ix2 n k)) (fun k j => x6 (ix2 k j))) n k
          + x7 (ix1 k)) :=
    funext fun k => v115_read x0 x1 x2 x3 x4 x5 x6 x7 h n k
  refine Eq.trans ?_ (congrArg (fun z => Gcn.softmaxRow z j) hz)
  rw [val_main_v126_apply, Ideal.hostDivf_def, v125_read]
  simp only [v122_read]
  rfl

end Cert.ReferenceIdeal.RefValue

end
-- ==== Proof.GcnPad.lean ====
/-
  Padding an edge list with zero-weight edges does not change an aggregation: a padded edge contributes its weight, zero,
  times a table entry, and zero times any extended real is zero, whatever source and target words the padding carries.
-/
import proofs.«410440_j89008902243178_1_alg».proof.Proof.Gcn

noncomputable section

open scoped BigOperators

namespace Cert.Gcn

/-- A sum over `Fin P` whose terms vanish from position `N` on is the sum of its first `N` terms: the first `N`
    positions are the image of `Fin N` under the inclusion, and every position outside that image adds zero. -/
theorem sum_castLE_of_zero {N P : Nat} (h : N ≤ P) (f : Fin P → EReal)
    (hz : ∀ e : Fin P, N ≤ e.val → f e = 0) :
    ∑ e : Fin P, f e = ∑ e : Fin N, f (Fin.castLE h e) := by
  symm
  have hmap : ∑ e : Fin N, f (Fin.castLE h e) = ∑ e ∈ Finset.univ.map (Fin.castLEEmb h), f e := by
    rw [Finset.sum_map]
    rfl
  rw [hmap]
  apply Finset.sum_subset (Finset.subset_univ _)
  intro e _ he
  apply hz
  by_contra hlt
  apply he
  rw [Finset.mem_map]
  refine ⟨⟨e.val, by omega⟩, Finset.mem_univ _, ?_⟩
  apply Fin.ext
  rfl

/-- An aggregation over 1703936 edges that agree with a list of 1700000 edges on its edges and weigh zero after them is
    the aggregation over the 1700000 edges. -/
theorem aggr_pad {M : Nat} (src dst : Fin 1700000 → BitVec 32) (wgt : Fin 1700000 → EReal)
    (srcp dstp : Fin 1703936 → BitVec 32) (wgtp : Fin 1703936 → EReal)
    (hs : ∀ e : Fin 1700000, srcp (Fin.castLE (by decide) e) = src e)
    (hd : ∀ e : Fin 1700000, dstp (Fin.castLE (by decide) e) = dst e)
    (hw : ∀ e : Fin 1700000, wgtp (Fin.castLE (by decide) e) = wgt e)
    (hz : ∀ e : Fin 1703936, 1700000 ≤ e.val → wgtp e = 0)
    (A : Fin 100000 → Fin M → EReal) (n : Fin 100000) (j : Fin M) :
    aggr srcp dstp wgtp A n j = aggr src dst wgt A n j := by
  unfold aggr
  -- Write both filtered sums as sums over all edges of a term that is zero off the filter.
  rw [Finset.sum_filter, Finset.sum_filter]
  -- A padded edge's term is zero on or off the filter, so only the first 1700000 positions count.
  rw [sum_castLE_of_zero (by decide : 1700000 ≤ 1703936)
    (fun e : Fin 1703936 => if (dstp e).toInt = (n.val : ℤ) then wgtp e * A (rowOf (srcp e)) j else 0)]
  · -- On those positions the padded lists are the original ones.
    apply Finset.sum_congr rfl
    intro e _
    rw [hs, hd, hw]
  · intro e he
    rw [hz e he, zero_mul]
    exact ite_self 0

end Cert.Gcn

end
-- ==== Proof.Bridge.lean ====
/-
  The two programs compute one function. The kernel program's result array, read off the last boundary of its run, is
  the network's specification over its own padded edge list; padding changes no aggregation; its edge list is the
  reference's, as a function of the same arguments, and under the precondition every source word is a node number; the
  reference's result, read off its run, is the same specification.
-/
import proofs.«410440_j89008902243178_1_alg».proof.Proof.Gen.Kernel.Frame
import proofs.«410440_j89008902243178_1_alg».proof.Proof.KernelRun
import proofs.«410440_j89008902243178_1_alg».proof.Proof.DenseSteps
import proofs.«410440_j89008902243178_1_alg».proof.Proof.MessageSteps
import proofs.«410440_j89008902243178_1_alg».proof.Proof.ScatterSteps
import proofs.«410440_j89008902243178_1_alg».proof.Proof.ActivationSteps
import proofs.«410440_j89008902243178_1_alg».proof.Proof.EdgeRange
import proofs.«410440_j89008902243178_1_alg».proof.Proof.EdgeSame
import proofs.«410440_j89008902243178_1_alg».proof.Proof.RefLayer1
import proofs.«410440_j89008902243178_1_alg».proof.Proof.RefLayer2
import proofs.«410440_j89008902243178_1_alg».proof.Proof.GcnPad

noncomputable section

open Idealize.ShloMosaic Idealize.ShloMosaic.ValueIdx Idealize.SL.Sem
open scoped BigOperators

/-! ## The kernel program's result is the specification -/

namespace Cert.KernelIdeal.KV

open Cert.KernelIdeal Cert.KernelIdeal.Gen

variable (m : (ℓ : Loc nD τ sig) → Buf (Elt Ideal) ℓ) (ρ : Dev nD → PrngReg)

/-- Every source word of the padded list is a node number: the program's own are, and the padding's word is 0. -/
theorem srcP_inRange [hPre : Cert.Pre_finite_inputs.Facts] (hpre : Cert.Pre_KernelIdeal m) (c : Dev nD) (e : Fin 1703936) :
    InRange (srcP m ρ c e) := by
  by_cases he : e.val < 1700000
  · have h := srcK_inRange m ρ hpre c ⟨e.val, he⟩
    rw [← srcP_lt m ρ c ⟨e.val, he⟩] at h
    exact h
  · rw [srcP_ge m ρ c e (Nat.le_of_not_lt he)]
    exact ⟨by decide, by decide⟩

/-- An aggregation of the kernel program: the scatter-add of the messages is the specification's aggregation of the
    table the messages took their rows from, first over the padded list, then, padding dropped, over the program's list. -/
theorem aggr_of_steps {M : Nat} (c : Dev nD) (A : Fin 100000 → Fin M → EReal) (msg : Fin 1703936 → Fin M → EReal)
    (agg : Fin 100000 → Fin M → EReal)
    (hmsg : ∀ e j, msg e j = A (Gcn.rowOf (srcP m ρ c e)) j * wgtP m ρ c e)
    (hagg : ∀ n j, agg n j = ∑ e ∈ Finset.univ.filter (fun e : Fin 1703936 => (dstP m ρ c e).toInt = (n.val : ℤ)), msg e j) :
    agg = Gcn.aggr (srcK m ρ c) (dstK m ρ c) (wgtK m ρ c) A := by
  funext n j
  rw [← Gcn.aggr_pad (srcK m ρ c) (dstK m ρ c) (wgtK m ρ c) (srcP m ρ c) (dstP m ρ c) (wgtP m ρ c)
    (srcP_lt m ρ c) (dstP_lt m ρ c) (wgtP_lt m ρ c) (wgtP_ge m ρ c) A n j, hagg n j]
  unfold Gcn.aggr
  exact Finset.sum_congr rfl fun e _ => (hmsg e j).trans (mul_comm _ _)

/-- The kernel program's result at (n, j) is the specification over its own edge list. -/
theorem outK_spec [hPre : Cert.Pre_finite_inputs.Facts] (hpre : Cert.Pre_KernelIdeal m) (c : Dev nD) (n : Fin 100000) (j : Fin 40) :
    outK m ρ c n j
      = Gcn.out (argX m c) (srcK m ρ c) (dstK m ρ c) (wgtK m ρ c) (probK m ρ c) (argW1 m c) (argB1 m c) (argW2 m c)
          (argB2 m c) n j := by
  have hr := srcP_inRange m ρ hpre c
  have h1 : xw1 m ρ c = Gcn.dense (argX m c) (argW1 m c) := funext fun n => funext fun j => xw1_eq m ρ c n j
  have h2 : agg1 m ρ c = Gcn.aggr (srcK m ρ c) (dstK m ρ c) (wgtK m ρ c) (xw1 m ρ c) :=
    aggr_of_steps m ρ c (xw1 m ρ c) (msg1 m ρ c) (agg1 m ρ c) (fun e j => msg1_eq m ρ c e j (hr e)) (agg1_eq m ρ c)
  have h3 : hid m ρ c = Gcn.hidden (probK m ρ c) (agg1 m ρ c) (argB1 m c) := funext fun n => funext fun j => hid_eq m ρ c n j
  have h4 : xw2 m ρ c = Gcn.dense (hid m ρ c) (argW2 m c) := funext fun n => funext fun j => xw2_eq m ρ c n j
  have h5 : agg2 m ρ c = Gcn.aggr (srcK m ρ c) (dstK m ρ c) (wgtK m ρ c) (xw2 m ρ c) :=
    aggr_of_steps m ρ c (xw2 m ρ c) (msg2 m ρ c) (agg2 m ρ c) (fun e j => msg2_eq m ρ c e j (hr e)) (agg2_eq m ρ c)
  rw [outK_eq m ρ c n j, h5, h4, h3, h2, h1]
  rfl

end Cert.KernelIdeal.KV

/-! ## The reference's result is the specification -/

namespace Cert.ReferenceIdeal.RefValue

open Cert.ReferenceIdeal Cert.ReferenceIdeal.Read

/-- The reference's result at (n, j) is the specification over its edge list. -/
theorem ref_spec (x0 : FVec Ideal S100000x128 .f32) (x1 : IVec S2x1600000 32) (x2 : FVec Ideal S1600000 .f32)
    (x3 : FVec Ideal S1 .f32) (x4 : FVec Ideal S128x128 .f32) (x5 : FVec Ideal S128 .f32)
    (x6 : FVec Ideal S128x40 .f32) (x7 : FVec Ideal S40 .f32) (h : ∀ e, InRange (srcR x1 e)) (n : Fin 100000) (j : Fin 40) :
    val_main_v126 (F := Ideal) x0 x1 x2 x3 x4 x5 x6 x7 (ix2 n j)
      = Gcn.out (fun n k => x0 (ix2 n k)) (srcR x1) (dstR x1) (wgtR x1 x2) (probR x3) (fun k j => x4 (ix2 k j))
          (fun j => x5 (ix1 j)) (fun k j => x6 (ix2 k j)) (fun j => x7 (ix1 j)) n j := by
  rw [ref_out x0 x1 x2 x3 x4 x5 x6 x7 h n j]
  have hh : (fun n k => val_main_v65 (F := Ideal) x0 x1 x2 x3 x4 x5 (ix2 n k))
      = Gcn.hidden (probR x3)
          (Gcn.aggr (srcR x1) (dstR x1) (wgtR x1 x2) (Gcn.dense (fun n k => x0 (ix2 n k)) (fun k j => x4 (ix2 k j))))
          (fun j => x5 (ix1 j)) := funext fun n => funext fun k => ref_hidden x0 x1 x2 x3 x4 x5 h n k
  rw [hh]
  rfl

end Cert.ReferenceIdeal.RefValue

/-! ## The claims -/

namespace Cert.Proof.Claims

open Cert.KernelIdeal.KV

theorem frame_k [hK : Cert.Kernel.Facts] [hPre : Cert.Pre_finite_inputs.Facts] : Cert.frame_Kernel :=
  fun m ρ _ => Cert.Kernel.Gen.frame m ρ
theorem frame_ki [hK : Cert.KernelIdeal.Facts] [hPre : Cert.Pre_finite_inputs.Facts] : Cert.frame_KernelIdeal :=
  fun m ρ _ => Cert.KernelIdeal.Gen.frame m ρ
theorem frame_ri [hR : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end at one result: the kernel program's run names its result array at the last boundary's contents,
    the reference's run at its composed term, and the two are the specification over one edge list. -/
theorem algebraic [hK : Cert.KernelIdeal.Facts] [hR : Cert.ReferenceIdeal.Facts] [hPre : Cert.Pre_finite_inputs.Facts] :
    Cert.algebraic_KernelIdeal_ReferenceIdeal := by
  intro m ρ m' ρ' hpre hagree
  refine ⟨fun c => Cert.KernelIdeal.Gen.W19 (F := Ideal) m ρ c (Proc.devRef .tc Cert.KernelIdeal.main_v61),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v126_eq]
  obtain ⟨e0, e1, e2, e3, e4, e5, e6, e7⟩ := hagree c
  rw [e0, e1, e2, e3, e4, e5, e6, e7]
  have hsrc : ∀ e, Cert.ReferenceIdeal.RefValue.srcR (m ((c.tc : Thread Cert.KernelIdeal.nD Cert.KernelIdeal.τ).loc Cert.KernelIdeal.main_arg1)) e = srcK m ρ c e :=
    fun e => (srcK_ref m ρ c e).symm
  have hrange : ∀ e, Cert.ReferenceIdeal.RefValue.InRange
      (Cert.ReferenceIdeal.RefValue.srcR (m ((c.tc : Thread Cert.KernelIdeal.nD Cert.KernelIdeal.τ).loc Cert.KernelIdeal.main_arg1)) e) := by
    intro e; rw [hsrc e]; exact srcK_inRange m ρ hpre c e
  funext i
  obtain ⟨n, j, rfl⟩ : ∃ (n : Fin 100000) (j : Fin 40), i = ix2 n j := ⟨i 0, i 1, eq_ix2 i⟩
  refine (Cert.ReferenceIdeal.RefValue.ref_spec _ _ _ _ _ _ _ _ hrange n j).trans ?_
  refine Eq.trans ?_ (outK_spec m ρ hpre c n j).symm
  have hs : Cert.ReferenceIdeal.RefValue.srcR (m ((c.tc : Thread Cert.KernelIdeal.nD Cert.KernelIdeal.τ).loc Cert.KernelIdeal.main_arg1)) = srcK m ρ c := funext hsrc
  have hd : Cert.ReferenceIdeal.RefValue.dstR (m ((c.tc : Thread Cert.KernelIdeal.nD Cert.KernelIdeal.τ).loc Cert.KernelIdeal.main_arg1)) = dstK m ρ c :=
    funext fun e => (dstK_ref m ρ c e).symm
  have hw : Cert.ReferenceIdeal.RefValue.wgtR (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = wgtK m ρ c :=
    funext fun e => (wgtK_ref m ρ c e).symm
  have hp : Cert.ReferenceIdeal.RefValue.probR (m ((c.tc : Thread Cert.KernelIdeal.nD Cert.KernelIdeal.τ).loc Cert.KernelIdeal.main_arg3)) = probK m ρ c :=
    (probK_ref m ρ c).symm
  rw [hs, hd, hw, hp]
  rfl

end Cert.Proof.Claims

end
-- ==== Proof.lean ====
/-
  The certificate of a two-layer graph convolution network with a row softmax: a kernel program of six grid kernels among
  host gathers and scatter-adds, against a plain array program.

  The claim holds where every source-node word of the edge array is a node number: the kernel program's host take fills
  an out-of-range read where the reference's indexing clamps it, so outside that domain the two would differ. Inside it
  both programs are one function of their arguments over the extended reals: a dense product, an aggregation over the
  edge list (each edge's weight times the source node's row, summed at the target node), bias, attention weight and
  rectifier; a second dense product and aggregation, bias, and each row's softmax. The kernel program pads its edge list
  with zero-weight edges, which no aggregation sees; its dense products multiply rounded-format copies of their operands,
  which at exact values are the operands; the two programs build the normalised edge weights and the attention weight by
  the same host operations, so those are never opened. The frames are the generated ones, the reference's its run; the
  kernel program's idealization rewrote nothing.
-/
import proofs.«410440_j89008902243178_1_alg».proof.Defs
import proofs.«410440_j89008902243178_1_alg».proof.Proof.Gen.Kernel
import proofs.«410440_j89008902243178_1_alg».proof.Proof.Gen.KernelIdeal
import proofs.«410440_j89008902243178_1_alg».proof.Proof.Gen.ReferenceIdeal
import proofs.«410440_j89008902243178_1_alg».proof.Proof.Gen.Pre_finite_inputs
import proofs.«410440_j89008902243178_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    @Claims.frame_k Cert.Kernel.Gen.facts Cert.Pre_finite_inputs.Gen.facts,
    @Claims.frame_ki Cert.KernelIdeal.Gen.facts Cert.Pre_finite_inputs.Gen.facts,
    @Claims.frame_ri Cert.ReferenceIdeal.Gen.facts Cert.Pre_finite_inputs.Gen.facts,
    trivial,
    @Claims.algebraic Cert.KernelIdeal.Gen.facts Cert.ReferenceIdeal.Gen.facts Cert.Pre_finite_inputs.Gen.facts⟩

end Cert.Proof

end
